-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S131072 : Shape := ⟨1, ![131072]⟩
abbrev S4096 : Shape := ⟨1, ![4096]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg10 : IVec S131072 32) (main_v61 : IVec S_ 1) (main_v66 : IVec S131072 1) (main_c_26 : IVec S_ 1) : IVec S_ 1 :=
  let main_v67 : IVec S_ 1 := (fun x v => Host.reduce IntOp.andi x v reducesTo_S131072_S_d0 h_S_) main_v66 main_c_26
  let main_v68 : IVec S_ 1 := andi main_v61 main_v67
  let main_c_27 : IVec S_ 32 := constantI S_ 32 0#32
  let main_v69 : IVec S131072 32 := broadcastInDim S131072 ![] bcast_S_S131072 main_c_27
  let main_v70 : IVec S131072 1 := cmpi .sge main_arg10 main_v69
  let main_c_28 : IVec S_ 32 := constantI S_ 32 1024#32
  let main_v71 : IVec S131072 32 := broadcastInDim S131072 ![] bcast_S_S131072 main_c_28
  let main_v72 : IVec S131072 1 := cmpi .slt main_arg10 main_v71
  let main_v73 : IVec S131072 1 := andi main_v70 main_v72
  let main_c_29 : IVec S_ 1 := constantI S_ 1 1#1
  let main_v74 : IVec S_ 1 := (fun x v => Host.reduce IntOp.andi x v reducesTo_S131072_S_d0 h_S_) main_v73 main_c_29
  let main_v75 : IVec S_ 1 := andi main_v68 main_v74
  main_v75

def fn_part3 {F : FTy → Type} [FloatOps F] (main_arg5 : IVec S131072 32) (main_arg6 : IVec S131072 32) (main_arg9 : IVec S131072 32) (main_arg10 : IVec S131072 32) (main_v47 : IVec S_ 1) (main_v49 : IVec S131072 1) (main_c_19 : IVec S_ 32) : IVec S_ 1 :=
  let main_v50 : IVec S131072 32 := broadcastInDim S131072 ![] bcast_S_S131072 main_c_19
  let main_v51 : IVec S131072 1 := cmpi .slt main_arg5 main_v50
  let main_v52 : IVec S131072 1 := andi main_v49 main_v51
  let main_c_20 : IVec S_ 1 := constantI S_ 1 1#1
  let main_v53 : IVec S_ 1 := (fun x v => Host.reduce IntOp.andi x v reducesTo_S131072_S_d0 h_S_) main_v52 main_c_20
  let main_v54 : IVec S_ 1 := andi main_v47 main_v53
  let main_c_21 : IVec S_ 32 := constantI S_ 32 0#32
  let main_v55 : IVec S131072 32 := broadcastInDim S131072 ![] bcast_S_S131072 main_c_21
  let main_v56 : IVec S131072 1 := cmpi .sge main_arg6 main_v55
  let main_c_22 : IVec S_ 32 := constantI S_ 32 4096#32
  let main_v57 : IVec S131072 32 := broadcastInDim S131072 ![] bcast_S_S131072 main_c_22
  let main_v58 : IVec S131072 1 := cmpi .slt main_arg6 main_v57
  let main_v59 : IVec S131072 1 := andi main_v56 main_v58
  let main_c_23 : IVec S_ 1 := constantI S_ 1 1#1
  let main_v60 : IVec S_ 1 := (fun x v => Host.reduce IntOp.andi x v reducesTo_S131072_S_d0 h_S_) main_v59 main_c_23
  let main_v61 : IVec S_ 1 := andi main_v54 main_v60
  let main_c_24 : IVec S_ 32 := constantI S_ 32 0#32
  let main_v62 : IVec S131072 32 := broadcastInDim S131072 ![] bcast_S_S131072 main_c_24
  let main_v63 : IVec S131072 1 := cmpi .sge main_arg9 main_v62
  let main_c_25 : IVec S_ 32 := constantI S_ 32 4096#32
  let main_v64 : IVec S131072 32 := broadcastInDim S131072 ![] bcast_S_S131072 main_c_25
  let main_v65 : IVec S131072 1 := cmpi .slt main_arg9 main_v64
  let main_v66 : IVec S131072 1 := andi main_v63 main_v65
  let main_c_26 : IVec S_ 1 := constantI S_ 1 1#1
  fn_part4 (F := F) main_arg10 main_v61 main_v66 main_c_26

def fn_part2 {F : FTy → Type} [FloatOps F] (main_arg1 : IVec S131072 32) (main_arg2 : IVec S131072 32) (main_arg5 : IVec S131072 32) (main_arg6 : IVec S131072 32) (main_arg9 : IVec S131072 32) (main_arg10 : IVec S131072 32) (main_v33 : IVec S_ 1) : IVec S_ 1 :=
  let main_c_12 : IVec S_ 32 := constantI S_ 32 0#32
  let main_v34 : IVec S131072 32 := broadcastInDim S131072 ![] bcast_S_S131072 main_c_12
  let main_v35 : IVec S131072 1 := cmpi .sge main_arg1 main_v34
  let main_c_13 : IVec S_ 32 := constantI S_ 32 2048#32
  let main_v36 : IVec S131072 32 := broadcastInDim S131072 ![] bcast_S_S131072 main_c_13
  let main_v37 : IVec S131072 1 := cmpi .slt main_arg1 main_v36
  let main_v38 : IVec S131072 1 := andi main_v35 main_v37
  let main_c_14 : IVec S_ 1 := constantI S_ 1 1#1
  let main_v39 : IVec S_ 1 := (fun x v => Host.reduce IntOp.andi x v reducesTo_S131072_S_d0 h_S_) main_v38 main_c_14
  let main_v40 : IVec S_ 1 := andi main_v33 main_v39
  let main_c_15 : IVec S_ 32 := constantI S_ 32 0#32
  let main_v41 : IVec S131072 32 := broadcastInDim S131072 ![] bcast_S_S131072 main_c_15
  let main_v42 : IVec S131072 1 := cmpi .sge main_arg2 main_v41
  let main_c_16 : IVec S_ 32 := constantI S_ 32 4096#32
  let main_v43 : IVec S131072 32 := broadcastInDim S131072 ![] bcast_S_S131072 main_c_16
  let main_v44 : IVec S131072 1 := cmpi .slt main_arg2 main_v43
  let main_v45 : IVec S131072 1 := andi main_v42 main_v44
  let main_c_17 : IVec S_ 1 := constantI S_ 1 1#1
  let main_v46 : IVec S_ 1 := (fun x v => Host.reduce IntOp.andi x v reducesTo_S131072_S_d0 h_S_) main_v45 main_c_17
  let main_v47 : IVec S_ 1 := andi main_v40 main_v46
  let main_c_18 : IVec S_ 32 := constantI S_ 32 0#32
  let main_v48 : IVec S131072 32 := broadcastInDim S131072 ![] bcast_S_S131072 main_c_18
  let main_v49 : IVec S131072 1 := cmpi .sge main_arg5 main_v48
  let main_c_19 : IVec S_ 32 := constantI S_ 32 4096#32
  fn_part3 (F := F) main_arg5 main_arg6 main_arg9 main_arg10 main_v47 main_v49 main_c_19

def fn_part1 {F : FTy → Type} [FloatOps F] (main_arg1 : IVec S131072 32) (main_arg2 : IVec S131072 32) (main_arg5 : IVec S131072 32) (main_arg6 : IVec S131072 32) (main_arg8 : FVec F S4096 .f32) (main_arg9 : IVec S131072 32) (main_arg10 : IVec S131072 32) (main_arg11 : FVec F S131072 .f32) (main_arg12 : FVec F S1024 .f32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_v19 : FVec F S4096 .f32 := Host.absf main_arg8
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S131072 .f32 := Host.absf main_arg11
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  let main_v29 : FVec F S1024 .f32 := Host.absf main_arg12
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg2 main_arg5 main_arg6 main_arg9 main_arg10 main_v33

def fn {F : FTy → Type} [FloatOps F] (main_arg0 : FVec F S1024x2048 .f32) (main_arg1 : IVec S131072 32) (main_arg2 : IVec S131072 32) (main_arg3 : FVec F S131072 .f32) (main_arg4 : FVec F S4096 .f32) (main_arg5 : IVec S131072 32) (main_arg6 : IVec S131072 32) (main_arg7 : FVec F S131072 .f32) (main_arg8 : FVec F S4096 .f32) (main_arg9 : IVec S131072 32) (main_arg10 : IVec S131072 32) (main_arg11 : FVec F S131072 .f32) (main_arg12 : FVec F S1024 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S131072 .f32 := Host.absf main_arg3
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S131072 .f32 := Host.absf main_arg7
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg1 main_arg2 main_arg5 main_arg6 main_arg8 main_arg9 main_arg10 main_arg11 main_arg12 main_v13 main_v16
-- ==== Kernel.lean ====
abbrev S1024x2048 : Shape := ⟨2, ![1024, 2048]⟩
abbrev S131072 : Shape := ⟨1, ![131072]⟩
abbrev S4096 : Shape := ⟨1, ![4096]⟩
abbrev S1024 : Shape := ⟨1, ![1024]⟩
abbrev S_ : Shape := ⟨0, ![]⟩
abbrev S8388608 : Shape := ⟨1, ![8388608]⟩
abbrev S131072x1 : Shape := ⟨2, ![131072, 1]⟩
abbrev S2048x4096 : Shape := ⟨2, ![2048, 4096]⟩
abbrev S1x4096 : Shape := ⟨2, ![1, 4096]⟩
abbrev S1024x4096 : Shape := ⟨2, ![1024, 4096]⟩
abbrev S16777216 : Shape := ⟨1, ![16777216]⟩
abbrev S4096x4096 : Shape := ⟨2, ![4096, 4096]⟩
abbrev S4194304 : Shape := ⟨1, ![4194304]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 70
  | .vmem => 24
  | .smem => 0
  | _ => 0

abbrev bufTy : (tb : Table) → Fin (tcTables nBuf tb) → BufTy
  | .hbm, ⟨0, _⟩ => ⟨S1024x2048, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S4096, .f32⟩
  | .hbm, ⟨5, _⟩ => ⟨S131072, .i32⟩
  | .hbm, ⟨6, _⟩ => ⟨S131072, .i32⟩
  | .hbm, ⟨7, _⟩ => ⟨S131072, .f32⟩
  | .hbm, ⟨8, _⟩ => ⟨S4096, .f32⟩
  | .hbm, ⟨9, _⟩ => ⟨S131072, .i32⟩
  | .hbm, ⟨10, _⟩ => ⟨S131072, .i32⟩
  | .hbm, ⟨11, _⟩ => ⟨S131072, .f32⟩
  | .hbm, ⟨12, _⟩ => ⟨S1024, .f32⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S_, .f32⟩
  | .hbm, ⟨18, _⟩ => ⟨S8388608, .f32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S8388608, .f32⟩
  | .hbm, ⟨28, _⟩ => ⟨S2048x4096, .f32⟩
  | .hbm, ⟨29, _⟩ => ⟨S1024x2048, .bf16⟩
  | .hbm, ⟨30, _⟩ => ⟨S1x4096, .f32⟩
  | .hbm, ⟨31, _⟩ => ⟨S1024x4096, .f32⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S_, .f32⟩
  | .hbm, ⟨37, _⟩ => ⟨S16777216, .f32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S16777216, .f32⟩
  | .hbm, ⟨47, _⟩ => ⟨S4096x4096, .f32⟩
  | .hbm, ⟨48, _⟩ => ⟨S1024x4096, .bf16⟩
  | .hbm, ⟨49, _⟩ => ⟨S1x4096, .f32⟩
  | .hbm, ⟨50, _⟩ => ⟨S1024x4096, .f32⟩
  | .hbm, ⟨51, _⟩ => ⟨S_, .i32⟩
  | .hbm, ⟨52, _⟩ => ⟨S131072, .i32⟩
  | .hbm, ⟨53, _⟩ => ⟨S131072, .i32⟩
  | .hbm, ⟨54, _⟩ => ⟨S131072, .i32⟩
  | .hbm, ⟨55, _⟩ => ⟨S_, .f32⟩
  | .hbm, ⟨56, _⟩ => ⟨S4194304, .f32⟩
  | .hbm, ⟨57, _⟩ => ⟨S_, .i32⟩
  | .hbm, ⟨58, _⟩ => ⟨S131072, .i32⟩
  | .hbm, ⟨59, _⟩ => ⟨S131072, .i1⟩
  | .hbm, ⟨60, _⟩ => ⟨S_, .i32⟩
  | .hbm, ⟨61, _⟩ => ⟨S131072, .i32⟩
  | .hbm, ⟨62, _⟩ => ⟨S131072, .i32⟩
  | .hbm, ⟨63, _⟩ => ⟨S131072, .i32⟩
  | .hbm, ⟨64, _⟩ => ⟨S131072x1, .i32⟩
  | .hbm, ⟨65, _⟩ => ⟨S4194304, .f32⟩
  | .hbm, ⟨66, _⟩ => ⟨S4096x1024, .f32⟩
  | .hbm, ⟨67, _⟩ => ⟨S1024x4096, .bf16⟩
  | .hbm, ⟨68, _⟩ => ⟨S1x1024, .f32⟩
  | .hbm, ⟨69, _⟩ => ⟨S1024x1024, .f32⟩
  | .local _ .vmem, ⟨0, _⟩ => ⟨S1024x2048, .bf16⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x4096, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x4096, .bf16⟩
  | .local _ .vmem, ⟨17, _⟩ => ⟨S1024x512, .f32⟩
  | .local _ .vmem, ⟨18, _⟩ => ⟨S1024x512, .f32⟩
  | .local _ .vmem, ⟨19, _⟩ => ⟨S1x512, .f32⟩
  | .local _ .vmem, ⟨20, _⟩ => ⟨S1x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_c_0 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_2 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_cst_3 : Ref sig .tc := ⟨.hbm, 36, rfl⟩
abbrev main_call0_v18 : Ref sig .tc := ⟨.hbm, 37, rfl⟩
abbrev main_call0_c_4 : Ref sig .tc := ⟨.hbm, 38, rfl⟩
abbrev main_call0_v19 : Ref sig .tc := ⟨.hbm, 39, rfl⟩
abbrev main_call0_v20 : Ref sig .tc := ⟨.hbm, 40, rfl⟩
abbrev main_call0_c_5 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_c_6 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_cst_7 : Ref sig .tc := ⟨.hbm, 55, rfl⟩
abbrev main_call0_v33 : Ref sig .tc := ⟨.hbm, 56, rfl⟩
abbrev main_call0_c_8 : Ref sig .tc := ⟨.hbm, 57, rfl⟩
abbrev main_call0_v34 : Ref sig .tc := ⟨.hbm, 58, rfl⟩
abbrev main_call0_v35 : Ref sig .tc := ⟨.hbm, 59, rfl⟩
abbrev main_call0_c_9 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_v0 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 4], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k2_cond2 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S1024x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S_S131072 : S_.BroadcastsInDim S131072 (![] : Fin 0 → Fin S131072.rank)
  bcast_S_S8388608 : S_.BroadcastsInDim S8388608 (![] : Fin 0 → Fin S8388608.rank)
  bcast_S131072_S131072x1_0 : S131072.BroadcastsInDim S131072x1 (![0] : Fin 1 → Fin S131072x1.rank)
  shapeCasts_S8388608_S2048x4096 : S8388608.ShapeCasts S2048x4096
  bitsLt_bf16_f32 : FTy.bits .bf16 < FTy.bits .f32
  shapeCasts_S4096_S1x4096 : S4096.ShapeCasts S1x4096
  bcast_S_S16777216 : S_.BroadcastsInDim S16777216 (![] : Fin 0 → Fin S16777216.rank)
  shapeCasts_S16777216_S4096x4096 : S16777216.ShapeCasts S4096x4096
  bcast_S_S4194304 : S_.BroadcastsInDim S4194304 (![] : Fin 0 → Fin S4194304.rank)
  shapeCasts_S4194304_S4096x1024 : S4194304.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  scatter_S8388608_S131072x1_S131072_n_0_0_1_wf : ScatterDims.WF S8388608 S131072x1 S131072 [] [0] [0] 1
  scatter_S16777216_S131072x1_S131072_n_0_0_1_wf : ScatterDims.WF S16777216 S131072x1 S131072 [] [0] [0] 1
  scatter_S4194304_S131072x1_S131072_n_0_0_1_wf : ScatterDims.WF S4194304 S131072x1 S131072 [] [0] [0] 1
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1024x1024.size a ≤ S1024x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .bf16 = 32 ∨ (Rect.block (s := S1024x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x4096.size a
  hwx0_1 : ∀ i : grid0.Coords, EltTy.bits .f32 = 32 ∨ (Rect.block (s := S2048x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .f32 = 32 ∨ (Rect.block (s := S1024x4096) S1024x1024.size (cc0_transform_3 i) (hinb0_3 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1024x1024.size a ≤ S1024x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S1024x4096.size a
  hwx1_0 : ∀ i : grid1.Coords, EltTy.bits .bf16 = 32 ∨ (Rect.block (s := S1024x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x4096.size a
  hwx1_3 : ∀ i : grid1.Coords, EltTy.bits .f32 = 32 ∨ (Rect.block (s := S1024x4096) S1024x1024.size (cc1_transform_3 i) (hinb1_3 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S1024x1024.size a ≤ S1024x4096.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S1024x4096.size a
  hwx2_0 : ∀ i : grid2.Coords, EltTy.bits .bf16 = 32 ∨ (Rect.block (s := S1024x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x1024.size a
  hwx2_1 : ∀ i : grid2.Coords, EltTy.bits .f32 = 32 ∨ (Rect.block (s := S4096x1024) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S1024x1024.size a
  hwx2_3 : ∀ i : grid2.Coords, EltTy.bits .f32 = 32 ∨ (Rect.block (s := S1024x1024) S1024x512.size (cc2_transform_3 i) (hinb2_3 i)).WholeWords (EltTy.packing .f32)

variable [Facts₀]

def scatter_S8388608_S131072x1_S131072_n_0_0_1 : ScatterDims S8388608 S131072x1 S131072 where
  updateWindowDims := []
  insertedWindowDims := [0]
  scatterDimsToOperandDims := [0]
  indexVectorDim := 1
  wf := scatter_S8388608_S131072x1_S131072_n_0_0_1_wf
def scatter_S16777216_S131072x1_S131072_n_0_0_1 : ScatterDims S16777216 S131072x1 S131072 where
  updateWindowDims := []
  insertedWindowDims := [0]
  scatterDimsToOperandDims := [0]
  indexVectorDim := 1
  wf := scatter_S16777216_S131072x1_S131072_n_0_0_1_wf
def scatter_S4194304_S131072x1_S131072_n_0_0_1 : ScatterDims S4194304 S131072x1 S131072 where
  updateWindowDims := []
  insertedWindowDims := [0]
  scatterDimsToOperandDims := [0]
  indexVectorDim := 1
  wf := scatter_S4194304_S131072x1_S131072_n_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_call0_v12) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_call0_v27) S1024x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v26) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v28) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v29) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_call0_v42) S1024x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v41) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v43) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S1024x2048 : Shape := ⟨2, ![1024, 2048]⟩
abbrev S131072 : Shape := ⟨1, ![131072]⟩
abbrev S4096 : Shape := ⟨1, ![4096]⟩
abbrev S1024 : Shape := ⟨1, ![1024]⟩
abbrev S_ : Shape := ⟨0, ![]⟩
abbrev S1024x4096 : Shape := ⟨2, ![1024, 4096]⟩
abbrev S131072x1 : Shape := ⟨2, ![131072, 1]⟩
abbrev S1024x131072 : Shape := ⟨2, ![1024, 131072]⟩
abbrev S1x131072 : Shape := ⟨2, ![1, 131072]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S4096, .f32⟩
  | .hbm, ⟨5, _⟩ => ⟨S131072, .i32⟩
  | .hbm, ⟨6, _⟩ => ⟨S131072, .i32⟩
  | .hbm, ⟨7, _⟩ => ⟨S131072, .f32⟩
  | .hbm, ⟨8, _⟩ => ⟨S4096, .f32⟩
  | .hbm, ⟨9, _⟩ => ⟨S131072, .i32⟩
  | .hbm, ⟨10, _⟩ => ⟨S131072, .i32⟩
  | .hbm, ⟨11, _⟩ => ⟨S131072, .f32⟩
  | .hbm, ⟨12, _⟩ => ⟨S1024, .f32⟩
  | .hbm, ⟨13, _⟩ => ⟨S_, .f32⟩
  | .hbm, ⟨14, _⟩ => ⟨S1024x4096, .f32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S1024x131072, .f32⟩
  | .hbm, ⟨24, _⟩ => ⟨S1x131072, .f32⟩
  | .hbm, ⟨25, _⟩ => ⟨S1024x131072, .f32⟩
  | .hbm, ⟨26, _⟩ => ⟨S1024x131072, .f32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S1024x4096, .f32⟩
  | .hbm, ⟨36, _⟩ => ⟨S1x4096, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S1024x4096, .f32⟩
  | .hbm, ⟨41, _⟩ => ⟨S1024x4096, .f32⟩
  | .hbm, ⟨42, _⟩ => ⟨S_, .f32⟩
  | .hbm, ⟨43, _⟩ => ⟨S1024x4096, .f32⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S131072x1, .i32⟩
  | .hbm, ⟨52, _⟩ => ⟨S1024x131072, .f32⟩
  | .hbm, ⟨53, _⟩ => ⟨S1x131072, .f32⟩
  | .hbm, ⟨54, _⟩ => ⟨S1024x131072, .f32⟩
  | .hbm, ⟨55, _⟩ => ⟨S1024x131072, .f32⟩
  | .hbm, ⟨56, _⟩ => ⟨S_, .i32⟩
  | .hbm, ⟨57, _⟩ => ⟨S131072, .i32⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S1024x4096, .f32⟩
  | .hbm, ⟨65, _⟩ => ⟨S1x4096, .f32⟩
  | .hbm, ⟨66, _⟩ => ⟨S1024x4096, .f32⟩
  | .hbm, ⟨67, _⟩ => ⟨S1024x4096, .f32⟩
  | .hbm, ⟨68, _⟩ => ⟨S_, .f32⟩
  | .hbm, ⟨69, _⟩ => ⟨S1024x4096, .f32⟩
  | .hbm, ⟨70, _⟩ => ⟨S1024x4096, .f32⟩
  | .hbm, ⟨71, _⟩ => ⟨S_, .f32⟩
  | .hbm, ⟨72, _⟩ => ⟨S1024x1024, .f32⟩
  | .hbm, ⟨73, _⟩ => ⟨S_, .i32⟩
  | .hbm, ⟨74, _⟩ => ⟨S131072, .i32⟩
  | .hbm, ⟨75, _⟩ => ⟨S131072, .i1⟩
  | .hbm, ⟨76, _⟩ => ⟨S_, .i32⟩
  | .hbm, ⟨77, _⟩ => ⟨S131072, .i32⟩
  | .hbm, ⟨78, _⟩ => ⟨S131072, .i32⟩
  | .hbm, ⟨79, _⟩ => ⟨S131072, .i32⟩
  | .hbm, ⟨80, _⟩ => ⟨S131072x1, .i32⟩
  | .hbm, ⟨81, _⟩ => ⟨S1024x131072, .f32⟩
  | .hbm, ⟨82, _⟩ => ⟨S1x131072, .f32⟩
  | .hbm, ⟨83, _⟩ => ⟨S1024x131072, .f32⟩
  | .hbm, ⟨84, _⟩ => ⟨S1024x131072, .f32⟩
  | .hbm, ⟨85, _⟩ => ⟨S_, .i32⟩
  | .hbm, ⟨86, _⟩ => ⟨S131072, .i32⟩
  | .hbm, ⟨87, _⟩ => ⟨S131072, .i1⟩
  | .hbm, ⟨88, _⟩ => ⟨S_, .i32⟩
  | .hbm, ⟨89, _⟩ => ⟨S131072, .i32⟩
  | .hbm, ⟨90, _⟩ => ⟨S131072, .i32⟩
  | .hbm, ⟨91, _⟩ => ⟨S131072, .i32⟩
  | .hbm, ⟨92, _⟩ => ⟨S131072x1, .i32⟩
  | .hbm, ⟨93, _⟩ => ⟨S1024x1024, .f32⟩
  | .hbm, ⟨94, _⟩ => ⟨S1x1024, .f32⟩
  | .hbm, ⟨95, _⟩ => ⟨S1024x1024, .f32⟩
  | .hbm, ⟨96, _⟩ => ⟨S1024x1024, .f32⟩
  | .hbm, ⟨97, _⟩ => ⟨S_, .f32⟩
  | .hbm, ⟨98, _⟩ => ⟨S1024x1024, .f32⟩
  | .hbm, ⟨99, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩

abbrev nD : Nat := 1
abbrev τ : Topo := Topo.v7x

variable {F : FTy → Type} [FloatOps F]

class Facts₀ : Prop where
  bcast_S_S1024x4096 : S_.BroadcastsInDim S1024x4096 (![] : Fin 0 → Fin S1024x4096.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072_S1x131072_1 : S131072.BroadcastsInDim S1x131072 (![1] : Fin 1 → Fin S1x131072.rank)
  bcast_S1x131072_S1024x131072_0_1 : S1x131072.BroadcastsInDim S1024x131072 (![0, 1] : Fin 2 → Fin S1024x131072.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  gather_S1024x2048_S131072x1_S1024x131072_0_1_n_n_1_1_10241_wf : GatherDims.WF S1024x2048 S131072x1 S1024x131072 [0] [1] [] [1] [] 1 ![1024, 1]
  scatter_S1024x4096_S131072x1_S1024x131072_0_1_1_1_wf : ScatterDims.WF S1024x4096 S131072x1 S1024x131072 [0] [1] [1] 1
  gather_S1024x4096_S131072x1_S1024x131072_0_1_n_n_1_1_10241_wf : GatherDims.WF S1024x4096 S131072x1 S1024x131072 [0] [1] [] [1] [] 1 ![1024, 1]
  scatter_S1024x1024_S131072x1_S1024x131072_0_1_1_1_wf : ScatterDims.WF S1024x1024 S131072x1 S1024x131072 [0] [1] [1] 1

variable [Facts₀]

def gather_S1024x2048_S131072x1_S1024x131072_0_1_n_n_1_1_10241 : GatherDims S1024x2048 S131072x1 S1024x131072 where
  offsetDims := [0]
  collapsedSliceDims := [1]
  operandBatchingDims := []
  startIndicesBatchingDims := []
  startIndexMap := [1]
  indexVectorDim := 1
  sliceSizes := ![1024, 1]
  wf := gather_S1024x2048_S131072x1_S1024x131072_0_1_n_n_1_1_10241_wf
def scatter_S1024x4096_S131072x1_S1024x131072_0_1_1_1 : ScatterDims S1024x4096 S131072x1 S1024x131072 where
  updateWindowDims := [0]
  insertedWindowDims := [1]
  scatterDimsToOperandDims := [1]
  indexVectorDim := 1
  wf := scatter_S1024x4096_S131072x1_S1024x131072_0_1_1_1_wf
def gather_S1024x4096_S131072x1_S1024x131072_0_1_n_n_1_1_10241 : GatherDims S1024x4096 S131072x1 S1024x131072 where
  offsetDims := [0]
  collapsedSliceDims := [1]
  operandBatchingDims := []
  startIndicesBatchingDims := []
  startIndexMap := [1]
  indexVectorDim := 1
  sliceSizes := ![1024, 1]
  wf := gather_S1024x4096_S131072x1_S1024x131072_0_1_n_n_1_1_10241_wf
def scatter_S1024x1024_S131072x1_S1024x131072_0_1_1_1 : ScatterDims S1024x1024 S131072x1 S1024x131072 where
  updateWindowDims := [0]
  insertedWindowDims := [1]
  scatterDimsToOperandDims := [1]
  indexVectorDim := 1
  wf := scatter_S1024x1024_S131072x1_S1024x131072_0_1_1_1_wf

class Facts : Prop extends Facts₀ where

variable [Facts]
-- ==== Proof.KI.Acc0.lean ====
/-
  The first pallas_call (2048 → 4096 features; grid 4 × 2: four column blocks of the result, the contraction in
  two K-tiles of 1024), as plain functions of the arrays the region finds: the K-tile of the resident activations a
  grid point multiplies, one accumulation step, what the accumulator scratch holds after each grid point (reset at a
  column block's first K-tile, then each tile's product added), and what the last K-tile's point writes to the result
  block (bias added, clamped below at zero).
-/
import proofs.«424249_j20555713479227_3_alg».proof.Proof.KernelIdealLaunch
import proofs.«424249_j20555713479227_3_alg».proof.Proof.Gen.KernelIdeal.Skeleton
import proofs.«424249_j20555713479227_3_alg».proof.Proof.Gen.KernelIdeal.Points
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

-- the contents of the TensorCore's buffers when the region is entered
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The K-tile of the resident activations at grid point i: columns k·1024 … k·1024 + 1023, k the point's second coordinate. -/
def hTile0 (i : grid0.Coords) (x2 : Vec F S1024x2048 .bf16) : Vec F S1024x1024 .bf16 :=
  fun y => x2 (ix2 (⟨(y 0).val, (y 0).isLt⟩ : Fin 1024) (⟨((i 1).val * 1024 + (y 1).val) % 2048, Nat.mod_lt _ (by decide)⟩ : Fin 2048))

/-- One accumulation step: the accumulator plus the K-tile times the matrix block. -/
def accStep0 (i : grid0.Coords) (x2 : Vec F S1024x2048 .bf16) (x3 : Vec F S1024x1024 .f32) (acc : Vec F S1024x1024 .f32) : Vec F S1024x1024 .f32 :=
  k0_pay2 (hTile0 i x2) x3 acc

/-- What the accumulator scratch holds after grid point n: at a first K-tile (n even) one step from zero, else one step
    from what the point before left. -/
def accAt0 (c : Dev nD) : (n : ℕ) → n < cfg0.N → Vec F S1024x1024 .f32
  | 0, h => accStep0 (grid0.coords ⟨0, h⟩) (iblk0 V c 0 ⟨0, h⟩) (iblk0 V c 1 ⟨0, h⟩) k0_pay1
  | n + 1, h =>
    if (n + 1) % 2 = 0 then accStep0 (grid0.coords ⟨n + 1, h⟩) (iblk0 V c 0 ⟨n + 1, h⟩) (iblk0 V c 1 ⟨n + 1, h⟩) k0_pay1
    else accStep0 (grid0.coords ⟨n + 1, h⟩) (iblk0 V c 0 ⟨n + 1, h⟩) (iblk0 V c 1 ⟨n + 1, h⟩) (accAt0 c n (Nat.lt_of_succ_lt h))

/-- What the point of a column block's last K-tile writes to the result's block: the accumulator plus the bias row,
    clamped below at zero. (Read only at those points: elsewhere the window is idle.) -/
def outAt0 (c : Dev nD) (t : Fin cfg0.N) : Vec F S1024x1024 .f32 :=
  k0_pay3 (accAt0 V c t.val t.isLt) (iblk0 V c 2 t)

/-- The accumulator at a first K-tile's point. -/
theorem accAt0_first (c : Dev nD) (t : Fin cfg0.N) (h0 : t.val % 2 = 0) :
    accAt0 V c t.val t.isLt = accStep0 (grid0.coords t) (iblk0 V c 0 t) (iblk0 V c 1 t) k0_pay1 := by
  obtain ⟨n, hn⟩ := t
  cases n with
  | zero => rfl
  | succ n => exact (if_pos h0).trans rfl

/-- The accumulator at a later K-tile's point, over what the point before left. -/
theorem accAt0_next (c : Dev nD) (t : Fin cfg0.N) (h0 : ¬ t.val % 2 = 0) :
    accAt0 V c t.val t.isLt = accStep0 (grid0.coords t) (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

end Cert.KernelIdeal.Hand

end
-- ==== Proof.KI.Body0.lean ====
/-
  The first pallas_call's body at one grid point, on any whole staging memrefs: its three runs — at a column block's
  first K-tile (the accumulator scratch is zeroed, then the tile's product added), at a middle K-tile (the product
  added to what the scratch held), at the last K-tile (the product added, then the bias row added and the sum clamped
  below at zero into the result's buffer) — each with what every buffer holds afterwards, and the two branch
  conditions in closed form over the grid.
-/
import proofs.«424249_j20555713479227_3_alg».proof.Proof.KI.Acc0
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The body's first conditional (the accumulator's reset): the point's K-tile index is zero. -/
abbrev condFirst0 (i : grid0.Coords) : Prop := (Scalar.cmpi .ne (Scalar.extui (Scalar.cmpi .eq (BitVec.ofNat 32 (i 1).val) 0#32)) 0#32) = 1#1
/-- The body's second conditional (the result's store): the point's K-tile index is the last, one. -/
abbrev condLast0 (i : grid0.Coords) : Prop := k0_cond2 i = 1#1

/-- The reset happens at the even points (the K-tile index is the point's position modulo 2). -/
theorem hfirst0 : ∀ t : Fin cfg0.N, condFirst0 (grid0.coords t) ↔ t.val % 2 = 0 :=
  (by decide +kernel : ∀ t : Fin grid0.N, condFirst0 (grid0.coords t) ↔ t.val % 2 = 0)
/-- The result is stored at the odd points. -/
theorem hlast0 : ∀ t : Fin cfg0.N, condLast0 (grid0.coords t) ↔ t.val % 2 = 1 :=
  (by decide +kernel : ∀ t : Fin grid0.N, condLast0 (grid0.coords t) ↔ t.val % 2 = 1)

/-! ## Reading the pieces back -/

/-- The whole-buffer rectangle's offsets are zero. -/
theorem zeros2 : (![0, 0] : Fin 2 → ℕ) = fun _ => 0 := funext fun a => by fin_cases a <;> rfl

/-- One store through the whole-buffer rectangle covers every index of the buffer. -/
theorem cover_whole0 {e : EltTy} (w : S1024x1024.Idx → Elt F e) (L : List (View.Piece (Elt F) S1024x1024 e)) (y : S1024x1024.Idx) :
    ∃ pc ∈ ((⟨Rect.unit (s := S1024x1024) ![0, 0] S1024x1024.size inb_S1024x1024_S1024x1024_0_0, w⟩ : View.Piece (Elt F) S1024x1024 e) :: L), y ∈ pc.1.set :=
  ⟨_, List.mem_cons_self, View.mem_set_unit_zero zeros2 inb_S1024x1024_S1024x1024_0_0 y⟩

/-- The K-tile's column offset, k·1024 as a 32-bit product, is k·1024 (k < 2). -/
theorem off1_val0 : ∀ k : Fin 2, (Scalar.indexCast (Scalar.muli (BitVec.ofNat 32 k.val) 1024#32)).toNat = k.val * 1024 := by decide

/-- The partial load of the resident activations reads the point's K-tile: row y₀, column k·1024 + y₁. -/
theorem tile0_eq (i : grid0.Coords) (arg2 : Memref sig .tc .vmem S1024x2048 .bf16) (harg2 : arg2.IsWhole) (x2 : Vec F S1024x2048 .bf16) :
    View.readAt (Elt F) arg2.view (Rect.unit (s := S1024x2048) (k0_off1 i) S1024x1024.size (k0_off1_inb i)).toLoadRect (harg2.unread x2) = hTile0 i x2 := by
  rw [View.readAt_eq_ld, harg2.read_unread]
  funext y
  show x2 _ = x2 _
  congr 1
  funext a
  apply Fin.ext
  have h1 := off1_val0 (i 1)
  have hy1 : (y 1).val < 1024 := (y 1).isLt
  have hi1 : (i 1).val < 2 := (i 1).isLt
  match a with
  | ⟨0, _⟩ => show 0 + 1 * (y 0).val = (y 0).val; omega
  | ⟨1, _⟩ =>
    show (Scalar.indexCast (Scalar.muli (BitVec.ofNat 32 (i 1).val) 1024#32)).toNat + 1 * (y 1).val = ((i 1).val * 1024 + (y 1).val) % 2048
    rw [h1]; omega

/-- A load of a whole 1024 × 1024 buffer through the whole-buffer rectangle reads its contents. -/
theorem whole_read0 {e : EltTy} (m : Memref sig .tc .vmem S1024x1024 e) (hm : m.IsWhole) (x : S1024x1024.Idx → Elt F e) :
    View.readAt (Elt F) m.view (Rect.unit (s := S1024x1024) ![0, 0] S1024x1024.size inb_S1024x1024_S1024x1024_0_0).toLoadRect (hm.unread x) = x := by
  rw [View.readAt_eq_ld, hm.read_unread, View.ld_unit_zero (S := S1024x1024) zeros2]

/-- The same for the bias row's 1 × 1024 buffer. -/
theorem whole_read0_row {e : EltTy} (m : Memref sig .tc .vmem S1x1024 e) (hm : m.IsWhole) (x : S1x1024.Idx → Elt F e) :
    View.readAt (Elt F) m.view (Rect.unit (s := S1x1024) ![0, 0] S1x1024.size inb_S1x1024_S1x1024_0_0).toLoadRect (hm.unread x) = x := by
  rw [View.readAt_eq_ld, hm.read_unread, View.ld_unit_zero (S := S1x1024) zeros2]

/-- One accumulation step as the run spells it — the K-tile by its partial load, the matrix block by its whole load —
    over an accumulator value `a` known to be `a'`. -/
theorem step0_eq (i : grid0.Coords) (arg2 : Memref sig .tc .vmem S1024x2048 .bf16) (harg2 : arg2.IsWhole) (x2 : Vec F S1024x2048 .bf16)
    (arg3 : Memref sig .tc .vmem S1024x1024 .f32) (harg3 : arg3.IsWhole) (x3 : Vec F S1024x1024 .f32)
    (a a' : Vec F S1024x1024 .f32) (h : a = a') :
    k0_pay2 (View.readAt (Elt F) arg2.view (Rect.unit (s := S1024x2048) (k0_off1 i) S1024x1024.size (k0_off1_inb i)).toLoadRect (harg2.unread x2))
        (View.readAt (Elt F) arg3.view (Rect.unit (s := S1024x1024) ![0, 0] S1024x1024.size inb_S1024x1024_S1024x1024_0_0).toLoadRect (harg3.unread x3)) a
      = accStep0 i x2 x3 a' := by
  rw [tile0_eq, whole_read0, h]; rfl

/-! ## The body's runs -/

set_option maxHeartbeats 4000000 in
/-- A middle K-tile's point: nothing is reset and nothing is stored to the result; the scratch, found at `xs`, is left
    at `xs` plus the tile's product, every other buffer as found. -/
theorem run0_mid (c : Dev nD) (i : grid0.Coords) (arg2 : Memref sig .tc .vmem S1024x2048 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole)
    (hf : ¬condFirst0 i) (hl : ¬condLast0 i)
    (x2 : Vec F S1024x2048 .bf16) (x3 : Vec F S1024x1024 .f32) (x4 : Vec F S1x1024 .f32) (x5 : Vec F S1024x1024 .f32) (xs : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (accStep0 i x2 x3 xs)) -∗ K ⟨⟩))
      ⊢ wp frame (wpE (defs₀ (F := F)) Variants.none c none) E (cc0__matmul_bias_relu_kernel i arg2 harg2 arg3 harg3 arg4 harg4 arg5 harg5 arg6 harg6) K := by
  simp only [cc0__matmul_bias_relu_kernel_eq_skeleton]; unfold cc0__matmul_bias_relu_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (cover_whole0 _ _), View.canon_unit_zero zeros2]
  exact step0_eq i arg2 harg2 x2 arg3 harg3 x3 _ _ (whole_read0 arg6 harg6 xs)

set_option maxHeartbeats 4000000 in
/-- A column block's first K-tile's point (not also its last): the scratch, found at anything, is zeroed and left at
    zero plus the tile's product; every other buffer as found. -/
theorem run0_first (c : Dev nD) (i : grid0.Coords) (arg2 : Memref sig .tc .vmem S1024x2048 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole)
    (hf : condFirst0 i) (hl : ¬condLast0 i)
    (x2 : Vec F S1024x2048 .bf16) (x3 : Vec F S1024x1024 .f32) (x4 : Vec F S1x1024 .f32) (x5 : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (accStep0 i x2 x3 k0_pay1)) -∗ K ⟨⟩))
      ⊢ wp frame (wpE (defs₀ (F := F)) Variants.none c none) E (cc0__matmul_bias_relu_kernel i arg2 harg2 arg3 harg3 arg4 harg4 arg5 harg5 arg6 harg6) K := by
  simp only [cc0__matmul_bias_relu_kernel_eq_skeleton]; unfold cc0__matmul_bias_relu_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  -- the last store covers the scratch, so it reads as that store's payload; the accumulator that payload adds to is
  -- the load of what the zeroing store left
  rw [View.read_writes_eq_canon _ _ _ (cover_whole0 _ _)]
  sl_unfold_words
  rw [View.canon_cons_unit_zero (S := S1024x1024) zeros2]
  exact step0_eq i arg2 harg2 x2 arg3 harg3 x3 _ _ (View.readCov_unit_zero (S := S1024x1024) _ zeros2 _ _)

set_option maxHeartbeats 4000000 in
/-- A column block's last K-tile's point (not also its first): the scratch, found at `xs`, is left at `xs` plus the
    tile's product, and the result's buffer, found at anything, at that sum plus the bias row, clamped below at zero;
    the inputs' buffers as found. -/
theorem run0_last (c : Dev nD) (i : grid0.Coords) (arg2 : Memref sig .tc .vmem S1024x2048 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole)
    (hf : ¬condFirst0 i) (hl : condLast0 i)
    (x2 : Vec F S1024x2048 .bf16) (x3 : Vec F S1024x1024 .f32) (x4 : Vec F S1x1024 .f32) (xs : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 (accStep0 i x2 x3 xs) x4) ∗ owns (c : Thread nD τ) arg6 fullShare (accStep0 i x2 x3 xs)) -∗ K ⟨⟩))
      ⊢ wp frame (wpE (defs₀ (F := F)) Variants.none c none) E (cc0__matmul_bias_relu_kernel i arg2 harg2 arg3 harg3 arg4 harg4 arg5 harg5 arg6 harg6) K := by
  simp only [cc0__matmul_bias_relu_kernel_eq_skeleton]; unfold cc0__matmul_bias_relu_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    -- the result's one store covers its buffer; its payload reads the scratch back after the accumulation's store
    rw [View.read_writes_eq_canon _ _ _ (cover_whole0 _ _), View.canon_unit_zero zeros2]
    sl_unfold_words
    exact congr (congrArg k0_pay3 ((View.readCov_unit_zero (S := S1024x1024) _ zeros2 _ _).trans
      (step0_eq i arg2 harg2 x2 arg3 harg3 x3 _ _ (whole_read0 arg6 harg6 xs)))) (whole_read0_row arg4 harg4 x4)
  iexists _; isplitr
  swap; · iexact HS
  ipureintro
  sl_unfold_words
  rw [View.read_writes_eq_canon _ _ _ (cover_whole0 _ _), View.canon_unit_zero zeros2]
  exact step0_eq i arg2 harg2 x2 arg3 harg3 x3 _ _ (whole_read0 arg6 harg6 xs)

end Cert.KernelIdeal.Hand

end
-- ==== Proof.KI.Dat0.lean ====
/-
  The first pallas_call's proof data: the arrays as the region finds them, what each window's staging buffer holds
  after each grid point (an input's its block; the result's, at a last K-tile's point, the clamped sum), the region
  invariant that carries the accumulator scratch from point to point, and the body's obligation against it.
-/
import proofs.«424249_j20555713479227_3_alg».proof.Proof.KI.Acc0
import proofs.«424249_j20555713479227_3_alg».proof.Proof.KI.Body0
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch and the scoped buffers that ride along -/

/-- The accumulator scratch, a whole scoped buffer of the kernel's own, passed beside the windows. -/
abbrev scM0 : Memref sig .tc .vmem S1024x1024 .f32 := Memref.whole cc0_scratch0

/-- The core's other scoped buffers outside this pallas_call's staging — the other two calls' staging buffers and
    scratches —, each whole at some contents: the body never touches them. -/
def otherScoped0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_scratch0), ((c : Thread nD τ).loc cc2_scratch0) ↦{fullShare} f))

/-- The region's entry invariant with the scratch as a memref owned at some contents, the untouched scoped buffers
    and the generator register beside it. -/
theorem PhiA0_eq (c : Dev nD) :
    (Pipeline.ΦA spec0 c : sProp 𝕄)
      = iprop((∃ d, owns (c : Thread nD τ) scM0 fullShare d) ∗ otherScoped0 (F := F) c ∗ (∃ r, prngReg c r)) := by
  unfold Pipeline.ΦA; rw [scopedRest0_eq]; unfold otherScoped0; simp only [scM0, owns_whole]
  exact Idealize.SL.BI.sep_assoc.antisymm Idealize.SL.BI.sep_assoc'

/-! ## What the accumulator scratch holds between points -/

/-- The region invariant before position `n`: before the first point the entry invariant (the scratch at anything);
    afterwards the scratch at what the point before left in it, the untouched scoped buffers and the generator register. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ otherScoped0 (F := F) c ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's accumulator. -/
theorem PhiS0_succ (c : Dev nD) (n : ℕ) (hn : n < cfg0.N) :
    PhiS0 V c (n + 1) hn = iprop(owns (c : Thread nD τ) scM0 fullShare (accAt0 V c n hn) ∗ otherScoped0 (F := F) c ∗ (∃ r, prngReg c r)) := rfl

/-- Before a point that is not the first: the scratch at what the point before left. -/
theorem PhiS0_pos (c : Dev nD) (n : ℕ) (h : n ≤ cfg0.N) (hz : n ≠ 0) :
    PhiS0 V c n h = iprop(owns (c : Thread nD τ) scM0 fullShare (accAt0 V c (n - 1) (by omega)) ∗ otherScoped0 (F := F) c ∗ (∃ r, prngReg c r)) := by
  cases n with
  | zero => exact absurd rfl hz
  | succ n => rfl

/-! ## The proof data -/

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the inputs' staging buffers hold when the body runs -/

/-- The resident activations' buffer holds the whole array at every point, though it is fetched only once: unfetched,
    the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- The matrix block's buffer holds the point's block (fetched at every point). -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- The bias row's buffer holds the column block's row at both of its K-tiles' points (fetched at the first). -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## Where the windows are idle -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first K-tile's point the result's window is idle (nothing is stored into it) -/
theorem idleAt0_3 : ∀ t : Fin cfg0.N, t.val % 2 = 0 → cfg0.idle 3 (grid0.coords t) = true := by decide +kernel
/-- and its block is not written back there; -/
theorem noFlush0_3 : ∀ t : Fin cfg0.N, t.val % 2 = 0 → (cfg0.win 3).flush t = false := by decide +kernel
/-- at a last K-tile's point it is live. -/
theorem liveAt0_3 : ∀ t : Fin cfg0.N, t.val % 2 = 1 → cfg0.idle 3 (grid0.coords t) = false := by decide +kernel

/-! ## The body obligation, at a generic point -/

/-- Each window's current staging memref at point `t`, spelled as the pipeline passes it, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks. At an even point (a column block's first K-tile) the
    invariant hands over the scratch at anything (the entry invariant at the very first point, what the point before
    left afterwards, forgotten), the first run leaves it at one step from zero, which is the accumulator there, and
    the result's buffer goes back as found (the window is idle and not written back). At an odd point (the last
    K-tile) the invariant hands over the scratch at the accumulator of the point before, the last run leaves it at one
    more step and the result's buffer at the clamped sum over the bias row, which is what the window is written back
    with. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 8 := lt_of_lt_of_eq t.isLt (show cfg0.N = 8 from N_0)
  by_cases h0 : t.val % 2 = 0
  · have hf : condFirst0 (grid0.coords t) := (hfirst0 t).mpr h0
    have hl : ¬condLast0 (grid0.coords t) := fun h => by have := (hlast0 t).mp h; omega
    rw [Dat.leavesExact_idle (dat0 V c) 3 t (idleAt0_3 t h0) (noFlush0_3 t h0)]
    rw [accAt0_first V c t h0]
    by_cases hz : t.val = 0
    · rw [PhiS0_castSucc V c t, PhiS0_zero V c _ _ hz, PhiA0_eq]
      iintro ⟨⟨HS, HR, Hg⟩, Ho, ⟨%d0, H0⟩, ⟨%d1, H1⟩, ⟨%d2, H2⟩, ⟨%d3, H3⟩⟩
      iapply (run0_first c (grid0.coords t) (ms0_0 t) (hs0_0 t) (ms0_1 t) (hs0_1 t) (ms0_2 t) (hs0_2 t) (ms0_3 t) (hs0_3 t) scM0 (Memref.isWhole_whole _) hf hl
        (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS, HR, Hg⟩, Ho, ⟨%d0, H0⟩, ⟨%d1, H1⟩, ⟨%d2, H2⟩, ⟨%d3, H3⟩⟩
      iapply (run0_first c (grid0.coords t) (ms0_0 t) (hs0_0 t) (ms0_1 t) (hs0_1 t) (ms0_2 t) (hs0_2 t) (ms0_3 t) (hs0_3 t) scM0 (Memref.isWhole_whole _) hf hl
        (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have h1 : t.val % 2 = 1 := by omega
    have hf : ¬condFirst0 (grid0.coords t) := fun h => h0 ((hfirst0 t).mp h)
    have hl : condLast0 (grid0.coords t) := (hlast0 t).mpr h1
    have hz : t.val ≠ 0 := fun e => h0 (by rw [e])
    rw [show (dat0 V c).leavesExact 3 t = owns (c : Thread nD τ) (ms0_3 t) fullShare ((dat0 V c).after 3 t) from by
      unfold Dat.leavesExact; rw [liveAt0_3 t h1], after0_3]
    unfold outAt0
    rw [accAt0_next V c t h0]
    rw [PhiS0_castSucc V c t, PhiS0_pos V c _ _ hz]
    iintro ⟨⟨HS, HR, Hg⟩, Ho, ⟨%d0, H0⟩, ⟨%d1, H1⟩, ⟨%d2, H2⟩, ⟨%d3, H3⟩⟩
    iapply (run0_last c (grid0.coords t) (ms0_0 t) (hs0_0 t) (ms0_1 t) (hs0_1 t) (ms0_2 t) (hs0_2 t) (ms0_3 t) (hs0_3 t) scM0 (Memref.isWhole_whole _) hf hl
      (iblk0 V c 0 t) (iblk0 V c 1 t) (iblk0 V c 2 t) (accAt0 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point but the first the invariant gives the entry invariant back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, HR, Hg⟩
  isplitl [HS]
  · iexists _; iexact HS
  isplitl [HR]; · iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Hand

end
-- ==== Proof.KI.Acc1.lean ====
/-
  The second pallas_call (4096 → 4096 features; grid 4 × 4: four column blocks of the result, each contracted in four
  K-tiles of 1024 columns), written as plain functions of the arrays the region is entered with: which K-tile of the
  resident activations a grid point multiplies, a single accumulation step, the contents of the accumulator scratch
  after every grid point (started afresh from zero at the first K-tile of a column block, afterwards each tile's
  product added to what was there), and the block the point of the last K-tile stores into the result (the bias row
  added, negative entries replaced by zero).
-/
import proofs.«424249_j20555713479227_3_alg».proof.Proof.KernelIdealLaunch
import proofs.«424249_j20555713479227_3_alg».proof.Proof.Gen.KernelIdeal.Skeleton
import proofs.«424249_j20555713479227_3_alg».proof.Proof.Gen.KernelIdeal.Points
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

-- what the TensorCore's buffers hold at the moment the region starts
variable (V : (c : Dev nD) → (b : Ref sig .tc) → Buf (Elt F) ((c : Thread nD τ).loc b))

/-- The block of window w at grid point t, as a function of the window's array at region entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The K-tile of the resident activations that grid point i uses: with k the second coordinate of i, the 1024 columns
    starting at k·1024 (the column index is reduced modulo the row length 4096, which changes nothing for k < 4). -/
def hTile1 (i : grid1.Coords) (x2 : Vec F S1024x4096 .bf16) : Vec F S1024x1024 .bf16 :=
  fun y => x2 (ix2 (⟨(y 0).val, (y 0).isLt⟩ : Fin 1024) (⟨((i 1).val * 1024 + (y 1).val) % 4096, Nat.mod_lt _ (by decide)⟩ : Fin 4096))

/-- A single accumulation step: the product of the K-tile with the matrix block, added to the accumulator. -/
def accStep1 (i : grid1.Coords) (x2 : Vec F S1024x4096 .bf16) (x3 : Vec F S1024x1024 .f32) (acc : Vec F S1024x1024 .f32) : Vec F S1024x1024 .f32 :=
  k1_pay2 (hTile1 i x2) x3 acc

/-- The accumulator scratch after grid point n. At the first K-tile of a column block (n divisible by 4) it is one step
    taken from the zero block; at any other point it is one step taken from the contents the preceding point left. -/
def accAt1 (c : Dev nD) : (n : ℕ) → n < cfg1.N → Vec F S1024x1024 .f32
  | 0, h => accStep1 (grid1.coords ⟨0, h⟩) (iblk1 V c 0 ⟨0, h⟩) (iblk1 V c 1 ⟨0, h⟩) k1_pay1
  | n + 1, h =>
    if (n + 1) % 4 = 0 then accStep1 (grid1.coords ⟨n + 1, h⟩) (iblk1 V c 0 ⟨n + 1, h⟩) (iblk1 V c 1 ⟨n + 1, h⟩) k1_pay1
    else accStep1 (grid1.coords ⟨n + 1, h⟩) (iblk1 V c 0 ⟨n + 1, h⟩) (iblk1 V c 1 ⟨n + 1, h⟩) (accAt1 c n (Nat.lt_of_succ_lt h))

/-- The block stored into the result at the point of a column block's last K-tile: bias row added to the accumulator,
    then the maximum with zero. (Only those points store it; at every other point the result's window is idle.) -/
def outAt1 (c : Dev nD) (t : Fin cfg1.N) : Vec F S1024x1024 .f32 :=
  k1_pay3 (accAt1 V c t.val t.isLt) (iblk1 V c 2 t)

/-- At a first K-tile's point the accumulator is one step from zero. -/
theorem accAt1_first (c : Dev nD) (t : Fin cfg1.N) (h0 : t.val % 4 = 0) :
    accAt1 V c t.val t.isLt = accStep1 (grid1.coords t) (iblk1 V c 0 t) (iblk1 V c 1 t) k1_pay1 := by
  obtain ⟨n, hn⟩ := t
  cases n with
  | zero => rfl
  | succ n => exact (if_pos h0).trans rfl

/-- At a later K-tile's point the accumulator is one step from what the preceding point left. -/
theorem accAt1_next (c : Dev nD) (t : Fin cfg1.N) (h0 : ¬ t.val % 4 = 0) :
    accAt1 V c t.val t.isLt = accStep1 (grid1.coords t) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

end Cert.KernelIdeal.Hand

end
-- ==== Proof.KI.Body1.lean ====
/-
  The second pallas_call's body on whole memrefs. A grid point is of one of three kinds, told apart by its K-tile index
  k (its second coordinate): k = 0 zeroes the accumulator scratch and then adds the first product; 0 < k < 3 adds the
  next product to what the scratch held; k = 3 adds the last product and then stores into the result block the
  accumulator plus the bias row, clamped below at zero. Each kind is stated as a triple over the contents of the five
  memrefs; the two branch conditions are given in closed form over the sixteen grid points.
-/
import proofs.«424249_j20555713479227_3_alg».proof.Proof.KI.Acc1
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the K-tile index is 0. -/
abbrev condFirst1 (i : grid1.Coords) : Prop := (Scalar.cmpi .ne (Scalar.extui (Scalar.cmpi .eq (BitVec.ofNat 32 (i 1).val) 0#32)) 0#32) = 1#1
/-- The second branch's condition: the K-tile index is 3, the last. -/
abbrev condLast1 (i : grid1.Coords) : Prop := k1_cond2 i = 1#1

/-- Over the sixteen points in row-major order, the first condition holds exactly at the multiples of 4, -/
theorem hfirst1 : ∀ t : Fin cfg1.N, condFirst1 (grid1.coords t) ↔ t.val % 4 = 0 :=
  (by decide +kernel : ∀ t : Fin grid1.N, condFirst1 (grid1.coords t) ↔ t.val % 4 = 0)
/-- and the second exactly at the points ≡ 3 (mod 4). -/
theorem hlast1 : ∀ t : Fin cfg1.N, condLast1 (grid1.coords t) ↔ t.val % 4 = 3 :=
  (by decide +kernel : ∀ t : Fin grid1.N, condLast1 (grid1.coords t) ↔ t.val % 4 = 3)

/-- The two zero offsets of a whole-block access, as the constant-zero function. -/
theorem hz2_1 : (![0, 0] : Fin 2 → Nat) = fun _ => 0 := by funext a; fin_cases a <;> rfl

/-- The column offset of the activations' load: 1024 times the K-tile index (no wrap-around in 32 bits for an index below 4). -/
theorem off1_val1 : ∀ k : Fin 4, (Scalar.indexCast (Scalar.muli (BitVec.ofNat 32 k.val) 1024#32) : Index).toNat = k.val * 1024 := by decide

theorem k1_off1_zero (i : grid1.Coords) : k1_off1 i 0 = 0 := rfl
theorem k1_off1_one (i : grid1.Coords) : k1_off1 i 1 = (i 1).val * 1024 := off1_val1 (i 1)

/-- A load of a whole memref through the full rectangle at zero offsets reads its contents. -/
theorem readAll {S : Shape} {e : EltTy} (m : Memref sig .tc .vmem S e) (h : m.IsWhole) {off : Fin S.rank → Nat} (hz : off = fun _ => 0)
    (inb : ∀ a, off a + S.size a ≤ S.size a) (x : S.Idx → Elt F e) :
    View.readAt (Elt F) m.view (Rect.unit off S.size inb).toLoadRect (h.unread x) = x := by
  rw [View.readAt_eq_ld, h.read_unread, View.ld_unit_zero hz]

/-- A store through the full rectangle at zero offsets, made last, is what the memref then reads, whatever came before. -/
theorem readStored {S : Shape} {e : EltTy} (m : Memref sig .tc .vmem S e) (f : m.view.ty.Contents (Elt F)) {off : Fin S.rank → Nat} (hz : off = fun _ => 0)
    (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

/-- The load of the resident activations at grid point i's column offset reads the point's K-tile: row y₀, column
    k·1024 + y₁, which is below 4096. -/
theorem readTile1 (i : grid1.Coords) (arg2 : Memref sig .tc .vmem S1024x4096 .bf16) (harg2 : arg2.IsWhole) (x2 : Vec F S1024x4096 .bf16) :
    View.readAt (Elt F) arg2.view (Rect.unit (s := S1024x4096) (k1_off1 i) S1024x1024.size (k1_off1_inb i)).toLoadRect (harg2.unread x2) = hTile1 i x2 := by
  funext y
  rw [View.readAt_apply, harg2.read_unread]
  unfold hTile1
  congr 1
  funext a
  have hk : (i 1).val < 4 := (i 1).isLt
  have hy0 : (y 0).val < 1024 := (y 0).isLt
  have hy1 : (y 1).val < 1024 := (y 1).isLt
  match a with
  | ⟨0, _⟩ =>
    apply Fin.ext
    show k1_off1 i 0 + 1 * (y 0).val = (y 0).val
    rw [k1_off1_zero]; omega
  | ⟨1, _⟩ =>
    apply Fin.ext
    show k1_off1 i 1 + 1 * (y 1).val = ((i 1).val * 1024 + (y 1).val) % 4096
    rw [k1_off1_one]; omega

set_option maxHeartbeats 4000000 in
/-- A point with 0 < k < 3: the scratch goes from xs to one accumulation step over xs; every other memref, the result
    block included, is returned as found. -/
theorem run1_mid (c : Dev nD) (i : grid1.Coords) (arg2 : Memref sig .tc .vmem S1024x4096 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole)
    (hf : ¬condFirst1 i) (hl : ¬condLast1 i)
    (x2 : Vec F S1024x4096 .bf16) (x3 : Vec F S1024x1024 .f32) (x4 : Vec F S1x1024 .f32) (x5 : Vec F S1024x1024 .f32) (xs : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (accStep1 i x2 x3 xs)) -∗ K ⟨⟩))
      ⊢ wp frame (wpE (defs₀ (F := F)) Variants.none c none) E (cc1__matmul_bias_relu_kernel i arg2 harg2 arg3 harg3 arg4 harg4 arg5 harg5 arg6 harg6) K := by
  simp only [cc1__matmul_bias_relu_kernel_eq_skeleton]; unfold cc1__matmul_bias_relu_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact HS
  ipureintro
  rw [readStored _ _ hz2_1, readTile1, readAll arg3 harg3 hz2_1, readAll arg6 harg6 hz2_1]
  rfl

set_option maxHeartbeats 4000000 in
/-- A point with k = 0: whatever the scratch held, it ends at one accumulation step over the zero block; every other
    memref, the result block included, is returned as found. -/
theorem run1_first (c : Dev nD) (i : grid1.Coords) (arg2 : Memref sig .tc .vmem S1024x4096 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole)
    (hf : condFirst1 i) (hl : ¬condLast1 i)
    (x2 : Vec F S1024x4096 .bf16) (x3 : Vec F S1024x1024 .f32) (x4 : Vec F S1x1024 .f32) (x5 : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (accStep1 i x2 x3 k1_pay1)) -∗ K ⟨⟩))
      ⊢ wp frame (wpE (defs₀ (F := F)) Variants.none c none) E (cc1__matmul_bias_relu_kernel i arg2 harg2 arg3 harg3 arg4 harg4 arg5 harg5 arg6 harg6) K := by
  simp only [cc1__matmul_bias_relu_kernel_eq_skeleton]; unfold cc1__matmul_bias_relu_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact HS
  ipureintro
  sl_unfold_run_names
  rw [readStored _ _ hz2_1, readTile1, readAll arg3 harg3 hz2_1, View.readCov_unit_zero (S := S1024x1024) _ hz2_1]
  rfl

set_option maxHeartbeats 4000000 in
/-- A point with k = 3: the scratch goes from xs to one accumulation step over xs, and the result block, whatever it
    held, ends at that accumulator plus the bias row, clamped below at zero. -/
theorem run1_last (c : Dev nD) (i : grid1.Coords) (arg2 : Memref sig .tc .vmem S1024x4096 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole)
    (hf : ¬condFirst1 i) (hl : condLast1 i)
    (x2 : Vec F S1024x4096 .bf16) (x3 : Vec F S1024x1024 .f32) (x4 : Vec F S1x1024 .f32) (xs : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k1_pay3 (accStep1 i x2 x3 xs) x4) ∗ owns (c : Thread nD τ) arg6 fullShare (accStep1 i x2 x3 xs)) -∗ K ⟨⟩))
      ⊢ wp frame (wpE (defs₀ (F := F)) Variants.none c none) E (cc1__matmul_bias_relu_kernel i arg2 harg2 arg3 harg3 arg4 harg4 arg5 harg5 arg6 harg6) K := by
  simp only [cc1__matmul_bias_relu_kernel_eq_skeleton]; unfold cc1__matmul_bias_relu_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [readStored _ _ hz2_1, View.readCov_unit_zero (S := S1024x1024) _ hz2_1, readTile1, readAll arg3 harg3 hz2_1, readAll arg6 harg6 hz2_1, readAll arg4 harg4 hz2_1]
    rfl
  iexists _; isplitr
  swap; · iexact HS
  ipureintro
  sl_unfold_run_names
  rw [readStored _ _ hz2_1, readTile1, readAll arg3 harg3 hz2_1, readAll arg6 harg6 hz2_1]
  rfl

end Cert.KernelIdeal.Hand

end
-- ==== Proof.KI.Dat1.lean ====
/-
  The second pallas_call's proof data: the arrays the region is entered with; the contents of every window's staging
  buffer after each grid point (for an input, its block; for the result, at the point of a last K-tile, the bias-added
  and clamped accumulator); the invariant that hands the accumulator scratch from one grid point to the next; and the
  body's obligation with respect to these.
-/
import proofs.«424249_j20555713479227_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant's parts -/

/-- The accumulator scratch as a whole memref. -/
abbrev scM1 : Memref sig .tc .vmem S1024x1024 .f32 := Memref.whole cc1_scratch0

/-- The core's sixteen scoped buffers that belong to the other two pallas_calls (their staging buffers and their
    scratches), each whole at some contents: this region neither reads nor writes them. -/
def otherScoped1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ f : Buf (Elt F) ((c : Thread nD τ).loc cc2_scratch0), ((c : Thread nD τ).loc cc2_scratch0) ↦{fullShare} f))

/-- The region's class invariant, with the accumulator scratch singled out as a memref owned at some contents and the
    other pallas_calls' scoped buffers gathered: the scratch is the ninth of the seventeen scoped buffers, and separating
    conjunction is commutative and associative. -/
theorem PhiA1_eq (c : Dev nD) :
    (Pipeline.ΦA spec1 c : sProp 𝕄)
      = iprop((∃ d, owns (c : Thread nD τ) scM1 fullShare d) ∗ otherScoped1 (F := F) c ∗ (∃ r, prngReg c r)) := by
  unfold Pipeline.ΦA otherScoped1; rw [scopedRest1_eq]; simp only [scM1, owns_whole]
  refine Entails.antisymm (show (_ : sProp 𝕄) ⊢ _ from ?_) (show (_ : sProp 𝕄) ⊢ _ from ?_)
  · iintro ⟨⟨A1, A2, A3, A4, A5, A6, A7, A8, S, B1, B2, B3, B4, B5, B6, B7, B8⟩, G⟩
    isplitl [S]; · iexact S
    isplitr [G]
    swap; · iexact G
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  · iintro ⟨S, ⟨A1, A2, A3, A4, A5, A6, A7, A8, B1, B2, B3, B4, B5, B6, B7, B8⟩, G⟩
    isplitr [G]
    swap; · iexact G
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [S]; · iexact S
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

/-- The region invariant before position n. Before the first point it is the class invariant (the scratch at anything);
    before any later point the scratch holds what the preceding point left in it, beside the other pallas_calls' scoped
    buffers and the generator register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ otherScoped1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ otherScoped1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ otherScoped1 (F := F) c ∗ (∃ r, prngReg c r)) := by
  cases n with
  | zero => exact absurd rfl hz
  | succ n => rfl

/-! ## The proof data -/

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the inputs' buffers -/

/-- An input's current staging buffer holds the window's block at every point, whether the point fetches it or not: a
    point that does not fetch has the block index of the point before, and the body leaves inputs in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a last K-tile the result's window is idle, and its block is not written back there; -/
theorem idleAt1_3 : ∀ t : Fin cfg1.N, ¬condLast1 (grid1.coords t) → cfg1.idle 3 (grid1.coords t) = true := by decide +kernel
theorem noFlush1_3 : ∀ t : Fin cfg1.N, ¬condLast1 (grid1.coords t) → (cfg1.win 3).flush t = false := by decide +kernel
/-- at a last K-tile it is live. -/
theorem liveAt1_3 : ∀ t : Fin cfg1.N, condLast1 (grid1.coords t) → cfg1.idle 3 (grid1.coords t) = false := by decide +kernel

/-- Each window's current staging memref at point t, as the pipeline passes it to the body, with its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-! ## The body obligation -/

/-- What the body is called with at point t, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position modulo 4 tells the point's kind. At a
    first K-tile the invariant hands over the scratch at whatever it holds (at the region's first point from the class
    invariant, later from the preceding point's contents, forgotten) and takes it back one step from zero; at a
    middle K-tile the scratch goes from the preceding point's contents to one more step; in both the idle result buffer
    comes back as found. At a last K-tile the scratch advances likewise and the result buffer, from anything, ends at
    the clamped sum of that accumulator and the bias row. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 4 = 0
  · by_cases h1 : t.val % 4 = 3
    · exfalso; omega
    · rw [Dat.leavesExact_idle (dat1 V c) 3 t (idleAt1_3 t (fun h => h1 ((hlast1 t).mp h))) (noFlush1_3 t (fun h => h1 ((hlast1 t).mp h)))]
      rw [accAt1_first V c t h0]
      by_cases hz : t.val = 0
      · rw [PhiS1_castSucc V c t, PhiS1_zero V c _ _ hz, PhiA1_eq]
        iintro ⟨⟨HS, Hoth, Hg⟩, Ho, ⟨%d0, H0⟩, ⟨%d1, H1⟩, ⟨%d2, H2⟩, ⟨%d3, H3⟩⟩
        iapply (run1_first c (grid1.coords t) (ms1_0 t) (hs1_0 t) (ms1_1 t) (hs1_1 t) (ms1_2 t) (hs1_2 t) (ms1_3 t) (hs1_3 t) scM1 (Memref.isWhole_whole _) ((hfirst1 t).mpr h0) (fun h => h1 ((hlast1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS, Hoth, Hg⟩, Ho, ⟨%d0, H0⟩, ⟨%d1, H1⟩, ⟨%d2, H2⟩, ⟨%d3, H3⟩⟩
        iapply (run1_first c (grid1.coords t) (ms1_0 t) (hs1_0 t) (ms1_1 t) (hs1_1 t) (ms1_2 t) (hs1_2 t) (ms1_3 t) (hs1_3 t) scM1 (Memref.isWhole_whole _) ((hfirst1 t).mpr h0) (fun h => h1 ((hlast1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    rw [accAt1_next V c t h0]
    rw [PhiS1_castSucc V c t, PhiS1_pos V c _ _ hz]
    by_cases h1 : t.val % 4 = 3
    · rw [show (dat1 V c).leavesExact 3 t = owns (c : Thread nD τ) (ms1_3 t) fullShare ((dat1 V c).after 3 t) from by
      unfold Dat.leavesExact; rw [liveAt1_3 t ((hlast1 t).mpr h1)], after1_3]
      unfold outAt1
      rw [accAt1_next V c t h0]
      iintro ⟨⟨HS, Hoth, Hg⟩, Ho, ⟨%d0, H0⟩, ⟨%d1, H1⟩, ⟨%d2, H2⟩, ⟨%d3, H3⟩⟩
      iapply (run1_last c (grid1.coords t) (ms1_0 t) (hs1_0 t) (ms1_1 t) (hs1_1 t) (ms1_2 t) (hs1_2 t) (ms1_3 t) (hs1_3 t) scM1 (Memref.isWhole_whole _) (fun h => h0 ((hfirst1 t).mp h)) ((hlast1 t).mpr h1) (iblk1 V c 0 t) (iblk1 V c 1 t) (iblk1 V c 2 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hlast1 t).mp h))) (noFlush1_3 t (fun h => h1 ((hlast1 t).mp h)))]
      iintro ⟨⟨HS, Hoth, Hg⟩, Ho, ⟨%d0, H0⟩, ⟨%d1, H1⟩, ⟨%d2, H2⟩, ⟨%d3, H3⟩⟩
      iapply (run1_mid c (grid1.coords t) (ms1_0 t) (hs1_0 t) (ms1_1 t) (hs1_1 t) (ms1_2 t) (hs1_2 t) (ms1_3 t) (hs1_3 t) scM1 (Memref.isWhole_whole _) (fun h => h0 ((hfirst1 t).mp h)) (fun h => h1 ((hlast1 t).mp h)) (iblk1 V c 0 t) (iblk1 V c 1 t) (iblk1 V c 2 t) ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hoth, Hg⟩
  isplitl [HS]
  · iexists _; iexact HS
  isplitl [Hoth]; · iexact Hoth
  iexact Hg

/-- In particular after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Acc2.lean ====
/-
  The third pallas_call (4096 → 1024 features; grid 2 × 4: the result has two column blocks of width 512, and the
  contraction over the 4096 input features is cut into four K-tiles of 1024), written as plain functions of the arrays
  the region finds on entry: which 1024 columns of the resident activations a grid point multiplies, a single
  accumulation step, the contents of the accumulator scratch after every grid point (it restarts from zero at the first
  K-tile of a column block and afterwards gains one tile's product per point), and the block the point of the last
  K-tile stores to the result (the accumulated sum plus the bias row, negative entries replaced by zero).
-/
import proofs.«424249_j20555713479227_3_alg».proof.Proof.KernelIdealLaunch
import proofs.«424249_j20555713479227_3_alg».proof.Proof.Gen.KernelIdeal.Skeleton
import proofs.«424249_j20555713479227_3_alg».proof.Proof.Gen.KernelIdeal.Points
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

-- what the TensorCore's buffers hold at the moment the region starts
variable (V : (c : Dev nD) → (b : Ref sig .tc) → Buf (Elt F) ((c : Thread nD τ).loc b))

/-- The block of window w that belongs to grid point t, taken from the window's array as it stands on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The K-tile grid point i multiplies: with k the second coordinate of i, the 1024 columns k·1024 … k·1024 + 1023 of the
    resident activations (the column index is reduced modulo 4096 only to make it a valid index; for k < 4 nothing wraps). -/
def hTile2 (i : grid2.Coords) (x2 : Vec F S1024x4096 .bf16) : Vec F S1024x1024 .bf16 :=
  fun y => x2 (ix2 (⟨(y 0).val, (y 0).isLt⟩ : Fin 1024) (⟨((i 1).val * 1024 + (y 1).val) % 4096, Nat.mod_lt _ (by decide)⟩ : Fin 4096))

/-- A single accumulation step: the product of the K-tile with the matrix block is added to the accumulator. -/
def accStep2 (i : grid2.Coords) (x2 : Vec F S1024x4096 .bf16) (x3 : Vec F S1024x512 .f32) (acc : Vec F S1024x512 .f32) : Vec F S1024x512 .f32 :=
  k2_pay2 (hTile2 i x2) x3 acc

/-- The accumulator scratch after grid point n. When n is a multiple of 4 the point is the first K-tile of its column
    block and the step starts from zero; otherwise it starts from what point n - 1 left behind. -/
def accAt2 (c : Dev nD) : (n : ℕ) → n < cfg2.N → Vec F S1024x512 .f32
  | 0, h => accStep2 (grid2.coords ⟨0, h⟩) (iblk2 V c 0 ⟨0, h⟩) (iblk2 V c 1 ⟨0, h⟩) k2_pay1
  | n + 1, h =>
    if (n + 1) % 4 = 0 then accStep2 (grid2.coords ⟨n + 1, h⟩) (iblk2 V c 0 ⟨n + 1, h⟩) (iblk2 V c 1 ⟨n + 1, h⟩) k2_pay1
    else accStep2 (grid2.coords ⟨n + 1, h⟩) (iblk2 V c 0 ⟨n + 1, h⟩) (iblk2 V c 1 ⟨n + 1, h⟩) (accAt2 c n (Nat.lt_of_succ_lt h))

/-- The block stored to the result at the point of a column block's last K-tile: accumulator plus bias row, then the
    maximum with zero. (Only those points use it; at every other point the result window is idle.) -/
def outAt2 (c : Dev nD) (t : Fin cfg2.N) : Vec F S1024x512 .f32 :=
  k2_pay3 (accAt2 V c t.val t.isLt) (iblk2 V c 2 t)

/-- At the point of a first K-tile the accumulator is one step from zero. -/
theorem accAt2_first (c : Dev nD) (t : Fin cfg2.N) (h0 : t.val % 4 = 0) :
    accAt2 V c t.val t.isLt = accStep2 (grid2.coords t) (iblk2 V c 0 t) (iblk2 V c 1 t) k2_pay1 := by
  obtain ⟨n, hn⟩ := t
  cases n with
  | zero => rfl
  | succ n => exact (if_pos h0).trans rfl

/-- At the point of any later K-tile the accumulator is one step from what the preceding point left. -/
theorem accAt2_next (c : Dev nD) (t : Fin cfg2.N) (h0 : ¬ t.val % 4 = 0) :
    accAt2 V c t.val t.isLt = accStep2 (grid2.coords t) (iblk2 V c 0 t) (iblk2 V c 1 t)
      (accAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

end Cert.KernelIdeal.Hand

end
-- ==== Proof.KI.Body2.lean ====
/-
  The body of the third pallas_call, run on whole staging buffers, in each of the three situations a grid point can be
  in: the first K-tile of a column block (the accumulator is zeroed, then gains the tile's product), a middle K-tile
  (the accumulator only gains the product), and the last K-tile (it gains the product, and the sum plus the bias row,
  clamped below at zero, is stored to the result block). In every case the inputs are handed back unchanged; where no
  result is stored the result buffer is handed back unchanged too.
-/
import proofs.«424249_j20555713479227_3_alg».proof.Proof.KI.Acc2
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch (zero the accumulator), as a function of the grid coordinates. -/
abbrev condFirst2 (i : grid2.Coords) : Prop := (Scalar.cmpi .ne (Scalar.extui (Scalar.cmpi .eq (BitVec.ofNat 32 (i 1).val) 0#32)) 0#32) = 1#1
/-- The condition of the body's last branch (add the bias, clamp, store the result block). -/
abbrev condLast2 (i : grid2.Coords) : Prop := k2_cond2 i = 1#1

/-- The first branch is taken exactly at the points whose K-tile is the first of its column block. -/
theorem hfirst2 : ∀ t : Fin cfg2.N, condFirst2 (grid2.coords t) ↔ t.val % 4 = 0 :=
  (by decide +kernel : ∀ t : Fin grid2.N, condFirst2 (grid2.coords t) ↔ t.val % 4 = 0)
/-- The last branch is taken exactly at the points whose K-tile is the last of its column block. -/
theorem hlast2 : ∀ t : Fin cfg2.N, condLast2 (grid2.coords t) ↔ t.val % 4 = 3 :=
  (by decide +kernel : ∀ t : Fin grid2.N, condLast2 (grid2.coords t) ↔ t.val % 4 = 3)

/-- The offsets of a whole-block access, in the two spellings that occur. -/
theorem hz2_2 : (![0, 0] : Fin 2 → Nat) = fun _ => 0 := funext fun a => by fin_cases a <;> rfl

/-- The column offset of the K-tile's load is k·1024 for k < 4: the 32-bit product does not wrap. -/
theorem k2_off1_col : ∀ k : Fin 4, (Scalar.indexCast (Scalar.muli (BitVec.ofNat 32 k.val) 1024#32)).toNat = k.val * 1024 := by
  decide +kernel

/-- The load of the resident activations through the K-tile's rectangle reads the tile. -/
theorem tile2_eq (i : grid2.Coords) (x2 : Vec F S1024x4096 .bf16) :
    View.ld x2 (Rect.unit (s := S1024x4096) (k2_off1 i) S1024x1024.size (k2_off1_inb i)) = hTile2 i x2 := by
  funext y
  unfold hTile2
  refine congrArg x2 ?_
  funext a
  apply Fin.ext
  rw [LoadRect.idx_apply]
  have hk : (i 1).val < 4 := (i 1).isLt
  have hy : (y 1).val < 1024 := (y 1).isLt
  match a with
  | ⟨0, _⟩ =>
    show 0 + 1 * (y 0).val = (y 0).val
    omega
  | ⟨1, _⟩ =>
    show (Scalar.indexCast (Scalar.muli (BitVec.ofNat 32 (i 1).val) 1024#32)).toNat + 1 * (y 1).val = ((i 1).val * 1024 + (y 1).val) % 4096
    rw [k2_off1_col (i 1)]
    omega

/-- A store of payload w over a whole block, made last, leaves w there whatever was stored before and whatever the
    buffer held. -/
theorem read_store2 {S : Shape} {e : EltTy} (m : Memref sig .tc .vmem S e) (f : m.view.ty.Contents (Elt F)) {off : Fin S.rank → Nat}
    (hz : off = fun _ => 0) (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩)]
  exact View.canon_cons_unit_zero hz inb w L

/-- No grid point is both a first and a last K-tile's point. -/
theorem not_first_and_last2 (t : Fin cfg2.N) (hf : condFirst2 (grid2.coords t)) (hl : condLast2 (grid2.coords t)) : False := by
  have h0 := (hfirst2 t).mp hf
  have h3 := (hlast2 t).mp hl
  omega

set_option maxHeartbeats 4000000 in
/-- A first K-tile's point: the accumulator is zeroed and then gains the tile's product; no result. -/
theorem run2_first (c : Dev nD) (i : grid2.Coords) (arg2 : Memref sig .tc .vmem S1024x4096 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole)
    (hf : condFirst2 i) (hl : ¬condLast2 i)
    (x2 : Vec F S1024x4096 .bf16) (x3 : Vec F S1024x512 .f32) (x4 : Vec F S1x512 .f32) (x5 : Vec F S1024x512 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (accStep2 i x2 x3 k2_pay1)) -∗ K ⟨⟩))
      ⊢ wp frame (wpE (defs₀ (F := F)) Variants.none c none) E (cc2__matmul_bias_relu_kernel i arg2 harg2 arg3 harg3 arg4 harg4 arg5 harg5 arg6 harg6) K := by
  simp only [cc2__matmul_bias_relu_kernel_eq_skeleton]; unfold cc2__matmul_bias_relu_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact HS
  ipureintro
  sl_unfold_words
  rw [read_store2 arg6 _ hz2_2]
  unfold accStep2
  simp only [View.readAt_eq_ld, harg2.read_unread, harg3.read_unread, View.ld_unit_zero (S := S1024x512) hz2_2, View.readCov_unit_zero (S := S1024x512) _ hz2_2]
  exact congrArg (fun t => k2_pay2 t x3 k2_pay1) (tile2_eq i x2)

set_option maxHeartbeats 4000000 in
/-- A middle K-tile's point: no reset, no result; the accumulator gains the tile's product. -/
theorem run2_mid (c : Dev nD) (i : grid2.Coords) (arg2 : Memref sig .tc .vmem S1024x4096 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole)
    (hf : ¬condFirst2 i) (hl : ¬condLast2 i)
    (x2 : Vec F S1024x4096 .bf16) (x3 : Vec F S1024x512 .f32) (x4 : Vec F S1x512 .f32) (x5 : Vec F S1024x512 .f32) (xs : Vec F S1024x512 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (accStep2 i x2 x3 xs)) -∗ K ⟨⟩))
      ⊢ wp frame (wpE (defs₀ (F := F)) Variants.none c none) E (cc2__matmul_bias_relu_kernel i arg2 harg2 arg3 harg3 arg4 harg4 arg5 harg5 arg6 harg6) K := by
  simp only [cc2__matmul_bias_relu_kernel_eq_skeleton]; unfold cc2__matmul_bias_relu_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact HS
  ipureintro
  rw [read_store2 arg6 _ hz2_2]
  unfold accStep2
  simp only [View.readAt_eq_ld, harg2.read_unread, harg3.read_unread, harg6.read_unread, View.ld_unit_zero (S := S1024x512) hz2_2]
  exact congrArg (fun t => k2_pay2 t x3 xs) (tile2_eq i x2)

set_option maxHeartbeats 4000000 in
/-- A last K-tile's point: the accumulator gains the tile's product, and the sum plus the bias row, clamped below at zero,
    is stored over the whole result block. -/
theorem run2_last (c : Dev nD) (i : grid2.Coords) (arg2 : Memref sig .tc .vmem S1024x4096 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole)
    (hf : ¬condFirst2 i) (hl : condLast2 i)
    (x2 : Vec F S1024x4096 .bf16) (x3 : Vec F S1024x512 .f32) (x4 : Vec F S1x512 .f32) (xs : Vec F S1024x512 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k2_pay3 (accStep2 i x2 x3 xs) x4) ∗ owns (c : Thread nD τ) arg6 fullShare (accStep2 i x2 x3 xs)) -∗ K ⟨⟩))
      ⊢ wp frame (wpE (defs₀ (F := F)) Variants.none c none) E (cc2__matmul_bias_relu_kernel i arg2 harg2 arg3 harg3 arg4 harg4 arg5 harg5 arg6 harg6) K := by
  simp only [cc2__matmul_bias_relu_kernel_eq_skeleton]; unfold cc2__matmul_bias_relu_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [read_store2 arg5 _ hz2_2]
    unfold accStep2
    simp only [View.readCov_unit_zero (S := S1024x512) _ hz2_2, View.readAt_eq_ld, harg2.read_unread, harg3.read_unread, harg4.read_unread, harg6.read_unread,
      View.ld_unit_zero (S := S1024x512) hz2_2, View.ld_unit_zero (S := S1x512) hz2_2]
    exact congrArg (fun t => k2_pay3 (k2_pay2 t x3 xs) x4) (tile2_eq i x2)
  iexists _; isplitr
  swap; · iexact HS
  ipureintro
  sl_unfold_words
  rw [read_store2 arg6 _ hz2_2]
  unfold accStep2
  simp only [View.readAt_eq_ld, harg2.read_unread, harg3.read_unread, harg6.read_unread, View.ld_unit_zero (S := S1024x512) hz2_2]
  exact congrArg (fun t => k2_pay2 t x3 xs) (tile2_eq i x2)

end Cert.KernelIdeal.Hand

end
-- ==== Proof.KI.Dat2.lean ====
/-
  Proof data for the third pallas_call: the four windows' arrays as they stand when the region starts, the contents of
  each window's staging buffer once a grid point's body has run (for the three inputs the point's block; for the result,
  at the point of a last K-tile, the bias-added sum clamped at zero), the region invariant through which the accumulator
  scratch passes from one grid point to the next, and the obligation the body meets against that invariant.
-/
import proofs.«424249_j20555713479227_3_alg».proof.Proof.KI.Body2
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region invariant: the accumulator carried, everything else along for the ride -/

/-- The accumulator scratch of this pallas_call, as a whole-buffer memref. -/
abbrev scM2 : Memref sig .tc .vmem S1024x512 .f32 := Memref.whole cc2_scratch0

/-- The scoped buffers of the two OTHER pallas_calls (their staging buffers and accumulators), each at some contents:
    this region never touches them; it receives them on entry and returns them on exit. -/
def otherScoped2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f))

/-- What the region is handed on entry, regrouped: this call's accumulator at some contents, the other calls' scoped
    buffers, and the generator register at some state. (The accumulator is the last factor of the scoped product; it is
    moved to the front.) -/
theorem PhiA2_eq (c : Dev nD) :
    (Pipeline.ΦA spec2 c : sProp 𝕄)
      = iprop((∃ d, owns (c : Thread nD τ) scM2 fullShare d) ∗ otherScoped2 (F := F) c ∗ ∃ r, prngReg c r) := by
  unfold Pipeline.ΦA; rw [scopedRest2_eq]; unfold otherScoped2; simp only [scM2, owns_whole]
  refine BI.equiv_iff.mp ⟨?_, ?_⟩
  · show (_ : sProp 𝕄) ⊢ _
    iintro ⟨⟨H0, H1, H2, H3, H4, H5, H6, H7, H8, H9, H10, H11, H12, H13, H14, H15, H16⟩, Hg⟩
    isplitl [H16]; · iexact H16
    isplitr [Hg]; swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · show (_ : sProp 𝕄) ⊢ _
    iintro ⟨H16, ⟨H0, H1, H2, H3, H4, H5, H6, H7, H8, H9, H10, H11, H12, H13, H14, H15⟩, Hg⟩
    isplitr [Hg]; swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The invariant before position n: on entry what the region is handed; after point n - 1 the accumulator at exactly
    what that point left in it (accAt2), the rest as before. -/
def PhiS2 (c : Dev nD) : (n : ℕ) → n ≤ cfg2.N → sProp 𝕄
  | 0, _ => Pipeline.ΦA spec2 c
  | n + 1, hn => iprop(owns (c : Thread nD τ) scM2 fullShare (accAt2 V c n hn) ∗ otherScoped2 c ∗ ∃ r, prngReg c r)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (accAt2 V c n hn) ∗ otherScoped2 c ∗ ∃ r, prngReg c r) := rfl

theorem PhiS2_pos (c : Dev nD) (n : ℕ) (h : n ≤ cfg2.N) (hz : n ≠ 0) :
    PhiS2 V c n h = iprop(owns (c : Thread nD τ) scM2 fullShare (accAt2 V c (n - 1) (by omega)) ∗ otherScoped2 c ∗ ∃ r, prngReg c r) := by
  cases n with
  | zero => exact absurd rfl hz
  | succ n => rfl

/-! ## The proof data -/

/-- The proof data of pipeline 2 on core c: the arrays as found; after a point's body each input's staging buffer at the
    point's block and the result's at the clamped sum; the invariant PhiS2; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- An input window's current staging buffer holds the point's block at every point, whether the pipeline fetched it
    there or not: where it did not, the block index has not moved since the fetch and the body leaves inputs in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Off the last K-tile the result window is idle (nothing is stored into it) -/
theorem idleAt2_3 : ∀ t : Fin cfg2.N, ¬condLast2 (grid2.coords t) → cfg2.idle 3 (grid2.coords t) = true := by decide +kernel
/-- and is not written back; -/
theorem noFlush2_3 : ∀ t : Fin cfg2.N, ¬condLast2 (grid2.coords t) → (cfg2.win 3).flush t = false := by decide +kernel
/-- at the last K-tile it is live. -/
theorem liveAt2_3 : ∀ t : Fin cfg2.N, condLast2 (grid2.coords t) → cfg2.idle 3 (grid2.coords t) = false := by decide +kernel

/-- Each window's current staging memref at point t, and that it is a whole buffer. -/
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .f32 := win2_3.stage (cfg2.slots t 3)
abbrev hs2_3 (t : Fin cfg2.N) : (ms2_3 t).IsWhole := hstage2_3 ((cfg2.slots t 3).cast nbuf2_3)

/-! ## The body obligation at a generic point -/

/-- What the body is handed at point t: the invariant, what the core owes, and the four windows' current buffers. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- What it hands back. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The three input buffers hold the point's blocks. By the point's position among the K-tiles of
    its column block one of the three runs applies: at a first K-tile the accumulator arrives at anything (on entry) or at
    what the previous column block left, and leaves one step from zero; at a middle one it arrives at what the point
    before left and gains a step; at a last one it gains a step and the clamped sum goes to the result buffer. Off the
    last K-tile the result buffer is idle and comes back as found. The other pallas_calls' buffers, the generator
    register and the core's debts pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have hf : condFirst2 (grid2.coords t) := (hfirst2 t).mpr h0
    have hl : ¬condLast2 (grid2.coords t) := fun h => by have := (hlast2 t).mp h; omega
    rw [Dat.leavesExact_idle (dat2 V c) 3 t (idleAt2_3 t hl) (noFlush2_3 t hl)]
    rw [accAt2_first V c t h0]
    by_cases hz : t.val = 0
    · rw [PhiS2_castSucc V c t, PhiS2_zero V c _ _ hz, PhiA2_eq]
      iintro ⟨⟨HS, Hoth, Hg⟩, Ho, ⟨%d0, H0⟩, ⟨%d1, H1⟩, ⟨%d2, H2⟩, ⟨%d3, H3⟩⟩
      iapply (run2_first c (grid2.coords t) _ _ _ _ _ _ _ _ _ _ hf hl (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS, Hoth, Hg⟩, Ho, ⟨%d0, H0⟩, ⟨%d1, H1⟩, ⟨%d2, H2⟩, ⟨%d3, H3⟩⟩
      iapply (run2_first c (grid2.coords t) _ _ _ _ _ _ _ _ _ _ hf hl (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
  · have hf : ¬condFirst2 (grid2.coords t) := fun h => h0 ((hfirst2 t).mp h)
    have hz : t.val ≠ 0 := fun e => h0 (by rw [e])
    by_cases h3 : t.val % 4 = 3
    · have hl : condLast2 (grid2.coords t) := (hlast2 t).mpr h3
      rw [show (dat2 V c).leavesExact 3 t = owns (c : Thread nD τ) (ms2_3 t) fullShare ((dat2 V c).after 3 t) from by
        unfold Dat.leavesExact; rw [liveAt2_3 t hl], after2_3]
      unfold outAt2
      rw [accAt2_next V c t h0]
      rw [PhiS2_castSucc V c t, PhiS2_pos V c _ _ hz]
      iintro ⟨⟨HS, Hoth, Hg⟩, Ho, ⟨%d0, H0⟩, ⟨%d1, H1⟩, ⟨%d2, H2⟩, ⟨%d3, H3⟩⟩
      iapply (run2_last c (grid2.coords t) _ _ _ _ _ _ _ _ _ _ hf hl (iblk2 V c 0 t) (iblk2 V c 1 t) (iblk2 V c 2 t) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · have hl : ¬condLast2 (grid2.coords t) := fun h => h3 ((hlast2 t).mp h)
      rw [Dat.leavesExact_idle (dat2 V c) 3 t (idleAt2_3 t hl) (noFlush2_3 t hl)]
      rw [accAt2_next V c t h0]
      rw [PhiS2_castSucc V c t, PhiS2_pos V c _ _ hz]
      iintro ⟨⟨HS, Hoth, Hg⟩, Ho, ⟨%d0, H0⟩, ⟨%d1, H1⟩, ⟨%d2, H2⟩, ⟨%d3, H3⟩⟩
      iapply (run2_mid c (grid2.coords t) _ _ _ _ _ _ _ _ _ _ hf hl (iblk2 V c 0 t) (iblk2 V c 1 t) (iblk2 V c 2 t) _ (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The body obligation of the library, at every point. -/
theorem body_obligation2 (c : Dev nD) : BodyObligation (dat2 (F := F) V c) (defs₀ (F := F)) Variants.none () Set.univ := fun t => by
  rw [bigSep_W2, bigSep_W2]
  exact sound_body2 V c t

/-- What the region is handed on entry is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the entry resources back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, Hoth, Hg⟩
  isplitl [HS]; · iexists _; iexact HS
  isplitl [Hoth]; · iexact Hoth
  iexact Hg

/-- In particular after the last point. -/
theorem hout2 (c : Dev nD) : (dat2 V c).Φ (Fin.last cfg2.N) ⊢ Pipeline.ΦA spec2 c :=
  Phi_out2 V c _ (by rw [Fin.val_last]; have : cfg2.N = 8 := N_2; omega)

end Cert.KernelIdeal.Hand

end
-- ==== Proof.KI.Run.lean ====
/-
  The whole program as a run: @main is three stretches of host operations (each folds a layer's edge list into a
  dense matrix, converts the activations and lays the bias out as a row) alternating with three pallas_calls (each a
  K-tiled matrix product with bias and clamp). The contents of every unscoped buffer are followed from the launch memory
  through the six items: a host stretch leaves what its operations compute, a pallas_call leaves its result array
  at what its pipeline's write-backs fold to and every other buffer as it found it. From this one run follow the
  frame (no item writes an argument array) and, for the value claim, what the result buffer holds at the end.
-/
import proofs.«424249_j20555713479227_3_alg».proof.Proof.KernelIdealRegions
import proofs.«424249_j20555713479227_3_alg».proof.Proof.KI.Dat0
import proofs.«424249_j20555713479227_3_alg».proof.Proof.KI.Dat1
import proofs.«424249_j20555713479227_3_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items -/

/-- Core `c`'s buffers at launch. -/
abbrev W0 : Dev nD → Valuation τ sig (Elt F) := fun c b => m (c, b)

/-- After host stretch 0 (pallas_call 0's entry). -/
abbrev W1 : Dev nD → Valuation τ sig (Elt F) := fun c => StableHlo.after hostOps0 (W0 m c)
/-- The same read at the TensorCore's references (what pallas_call 0's proof data take). -/
abbrev E1 : (c : Dev nD) → (b : Ref sig .tc) → Buf (Elt F) ((c : Thread nD τ).loc b) := fun c b => W1 m c b
/-- At pallas_call 0's exit: its arrays at what the pipeline leaves (the inputs as entered, the result's write-backs
    folded in), every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (E1 m) c).arrAt w cfg0.N = W2 m c (Pipeline.arrRef spec0 w) :=
  (W2_arr m c w).symm
theorem hrest0 (c : Dev nD) : ∀ b, b ∉ Finset.univ.image (Pipeline.arrRef spec0) → W2 m c b = W1 m c b :=
  fun b hb => W2_of_ne m c b fun w e => hb (Finset.mem_image.mpr ⟨w, Finset.mem_univ _, e⟩)

/-- After host stretch 1 (pallas_call 1's entry). -/
abbrev W3 : Dev nD → Valuation τ sig (Elt F) := fun c => StableHlo.after hostOps1 (W2 m c)
/-- The same read at the TensorCore's references (what pallas_call 1's proof data take). -/
abbrev E3 : (c : Dev nD) → (b : Ref sig .tc) → Buf (Elt F) ((c : Thread nD τ).loc b) := fun c b => W3 m c b
/-- At pallas_call 1's exit: its arrays at what the pipeline leaves (the inputs as entered, the result's write-backs
    folded in), every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (E3 m) c).arrAt w cfg1.N = W4 m c (Pipeline.arrRef spec1 w) :=
  (W4_arr m c w).symm
theorem hrest1 (c : Dev nD) : ∀ b, b ∉ Finset.univ.image (Pipeline.arrRef spec1) → W4 m c b = W3 m c b :=
  fun b hb => W4_of_ne m c b fun w e => hb (Finset.mem_image.mpr ⟨w, Finset.mem_univ _, e⟩)

/-- After host stretch 2 (pallas_call 2's entry). -/
abbrev W5 : Dev nD → Valuation τ sig (Elt F) := fun c => StableHlo.after hostOps2 (W4 m c)
/-- The same read at the TensorCore's references (what pallas_call 2's proof data take). -/
abbrev E5 : (c : Dev nD) → (b : Ref sig .tc) → Buf (Elt F) ((c : Thread nD τ).loc b) := fun c b => W5 m c b
/-- At pallas_call 2's exit: its arrays at what the pipeline leaves (the inputs as entered, the result's write-backs
    folded in), every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (E5 m) c).arrAt w cfg2.N = W6 m c (Pipeline.arrRef spec2 w) :=
  (W6_arr m c w).symm
theorem hrest2 (c : Dev nD) : ∀ b, b ∉ Finset.univ.image (Pipeline.arrRef spec2) → W6 m c b = W5 m c b :=
  fun b hb => W6_of_ne m c b fun w e => hb (Finset.mem_image.mpr ⟨w, Finset.mem_univ _, e⟩)

/-! ## No item writes an argument array -/

/-- A buffer that no host stretch writes and that is no array of any pallas_call ends as launched. -/
theorem W6_keep (c : Dev nD) (r : Ref sig .tc) (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    W6 m c (Proc.devRef .tc r) = m ((c : Thread nD τ).loc r) :=
  calc W6 m c (Proc.devRef .tc r)
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

/-- The same up to the boundary after the first pallas_call, and after the second. -/
theorem W2_keep (c : Dev nD) (r : Ref sig .tc) (h0 : r ∉ hostOps0_W) (a0 : ∀ w, Pipeline.arrRef spec0 w ≠ r) :
    W2 m c (Proc.devRef .tc r) = m ((c : Thread nD τ).loc r) :=
  calc W2 m c (Proc.devRef .tc r)
    _ = W1 m c (Proc.devRef .tc r) := W2_of_ne m c r a0
    _ = W0 m c (Proc.devRef .tc r) := StableHlo.after_of_writes_sub hostOps0 _ hostOps0_writes h0
    _ = m ((c : Thread nD τ).loc r) := rfl
theorem W4_keep (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    W4 m c (Proc.devRef .tc r) = m ((c : Thread nD τ).loc r) :=
  calc W4 m c (Proc.devRef .tc r)
    _ = W3 m c (Proc.devRef .tc r) := W4_of_ne m c r a1
    _ = W2 m c (Proc.devRef .tc r) := StableHlo.after_of_writes_sub hostOps1 _ hostOps1_writes h1
    _ = m ((c : Thread nD τ).loc r) := W2_keep m c r h0 a0

theorem W6_main_arg0 (c : Dev nD) : W6 m c (Proc.devRef .tc main_arg0) = m ((c : Thread nD τ).loc main_arg0) :=
  W6_keep m c main_arg0 (by decide) (by decide) (by decide) (by decide) (by decide) (by decide)
theorem W6_main_arg1 (c : Dev nD) : W6 m c (Proc.devRef .tc main_arg1) = m ((c : Thread nD τ).loc main_arg1) :=
  W6_keep m c main_arg1 (by decide) (by decide) (by decide) (by decide) (by decide) (by decide)
theorem W6_main_arg2 (c : Dev nD) : W6 m c (Proc.devRef .tc main_arg2) = m ((c : Thread nD τ).loc main_arg2) :=
  W6_keep m c main_arg2 (by decide) (by decide) (by decide) (by decide) (by decide) (by decide)
theorem W6_main_arg3 (c : Dev nD) : W6 m c (Proc.devRef .tc main_arg3) = m ((c : Thread nD τ).loc main_arg3) :=
  W6_keep m c main_arg3 (by decide) (by decide) (by decide) (by decide) (by decide) (by decide)
theorem W6_main_arg4 (c : Dev nD) : W6 m c (Proc.devRef .tc main_arg4) = m ((c : Thread nD τ).loc main_arg4) :=
  W6_keep m c main_arg4 (by decide) (by decide) (by decide) (by decide) (by decide) (by decide)
theorem W6_main_arg5 (c : Dev nD) : W6 m c (Proc.devRef .tc main_arg5) = m ((c : Thread nD τ).loc main_arg5) :=
  W6_keep m c main_arg5 (by decide) (by decide) (by decide) (by decide) (by decide) (by decide)
theorem W6_main_arg6 (c : Dev nD) : W6 m c (Proc.devRef .tc main_arg6) = m ((c : Thread nD τ).loc main_arg6) :=
  W6_keep m c main_arg6 (by decide) (by decide) (by decide) (by decide) (by decide) (by decide)
theorem W6_main_arg7 (c : Dev nD) : W6 m c (Proc.devRef .tc main_arg7) = m ((c : Thread nD τ).loc main_arg7) :=
  W6_keep m c main_arg7 (by decide) (by decide) (by decide) (by decide) (by decide) (by decide)
theorem W6_main_arg8 (c : Dev nD) : W6 m c (Proc.devRef .tc main_arg8) = m ((c : Thread nD τ).loc main_arg8) :=
  W6_keep m c main_arg8 (by decide) (by decide) (by decide) (by decide) (by decide) (by decide)
theorem W6_main_arg9 (c : Dev nD) : W6 m c (Proc.devRef .tc main_arg9) = m ((c : Thread nD τ).loc main_arg9) :=
  W6_keep m c main_arg9 (by decide) (by decide) (by decide) (by decide) (by decide) (by decide)
theorem W6_main_arg10 (c : Dev nD) : W6 m c (Proc.devRef .tc main_arg10) = m ((c : Thread nD τ).loc main_arg10) :=
  W6_keep m c main_arg10 (by decide) (by decide) (by decide) (by decide) (by decide) (by decide)
theorem W6_main_arg11 (c : Dev nD) : W6 m c (Proc.devRef .tc main_arg11) = m ((c : Thread nD τ).loc main_arg11) :=
  W6_keep m c main_arg11 (by decide) (by decide) (by decide) (by decide) (by decide) (by decide)
theorem W6_main_arg12 (c : Dev nD) : W6 m c (Proc.devRef .tc main_arg12) = m ((c : Thread nD τ).loc main_arg12) :=
  W6_keep m c main_arg12 (by decide) (by decide) (by decide) (by decide) (by decide) (by decide)

/-! ## The proof data family and the thread state -/

/-- Every pipeline's proof data, each at its pallas_call's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debts: every unscoped buffer at the last boundary's contents. -/
abbrev Tₙ (c : Dev nD) : sProp 𝕄 := iprop(StableHlo.held (c : Thread nD τ) (Pipeline.ucRefs τ sig) (W6 m c) ∗ ∃ r, prngReg c r)

/-! ## The pallas_calls as segments -/

-- a library lemma stated over the pinned configuration unifies with the printed one only when unification may unfold
-- plain definitions in a metavariable's type
set_option backward.isDefEq.respectTransparency.types false in
/-- Pallas_call 0 over the thread state: entered with every unscoped buffer at `W1`, left with them at `W2`.
    Its four arrays are split out of the unscoped buffers and put back at what the pipeline leaves in them; the
    generator register and the scoped buffers no window stages enter the region's invariant (which from the first
    point on names the accumulator's contents) and come back out of it, the accumulator's contents forgotten; the core
    owes nothing; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    iintro ⟨Hp, -, Hr⟩
    iapply (hin0 (E1 m) c)
    unfold Pipeline.ΦA
    isplitl [Hr]; · iexact Hr
    iexact Hp
  hout c := by
    rw [Pipeline.ownSems0_none, show (pdats m 0 c).Φ (Fin.last _) = (dat0 (E1 m) c).Φ (Fin.last cfg0.N) from rfl]
    iintro H
    ihave H2 := (hout0 (E1 m) c) $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 1 over the thread state: entered with every unscoped buffer at `W3`, left with them at `W4`.
    Its four arrays are split out of the unscoped buffers and put back at what the pipeline leaves in them; the
    generator register and the scoped buffers no window stages enter the region's invariant (which from the first
    point on names the accumulator's contents) and come back out of it, the accumulator's contents forgotten; the core
    owes nothing; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (hin1 (E3 m) c)
    unfold Pipeline.ΦA
    isplitl [Hr]; · iexact Hr
    iexact Hp
  hout c := by
    rw [Pipeline.ownSems0_none, show (pdats m 1 c).Φ (Fin.last _) = (dat1 (E3 m) c).Φ (Fin.last cfg1.N) from rfl]
    iintro H
    ihave H2 := (hout1 (E3 m) c) $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 2 over the thread state: entered with every unscoped buffer at `W5`, left with them at `W6`.
    Its four arrays are split out of the unscoped buffers and put back at what the pipeline leaves in them; the
    generator register and the scoped buffers no window stages enter the region's invariant (which from the first
    point on names the accumulator's contents) and come back out of it, the accumulator's contents forgotten; the core
    owes nothing; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E5 m) c).Φ 0 from rfl]
    iintro ⟨Hp, -, Hr⟩
    iapply (hin2 (E5 m) c)
    unfold Pipeline.ΦA
    isplitl [Hr]; · iexact Hr
    iexact Hp
  hout c := by
    rw [Pipeline.ownSems0_none, show (pdats m 2 c).Φ (Fin.last _) = (dat2 (E5 m) c).Φ (Fin.last cfg2.N) from rfl]
    iintro H
    ihave H2 := (hout2 (E5 m) c) $$ H
    unfold Pipeline.ΦA
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c),
     (h c _ (mem_uc main_arg10 (by decide))).trans (W6_main_arg10 m c),
     (h c _ (mem_uc main_arg11 (by decide))).trans (W6_main_arg11 m c),
     (h c _ (mem_uc main_arg12 (by decide))).trans (W6_main_arg12 m c)⟩)
    (run_all m ρ)

/-- THE VALUE RUN: the result buffer ends at what the third pallas_call's write-backs fold to, and every argument
    array ends as launched. -/
theorem run_value : θ_run defs (onTc (τ := τ) (main (F := F))) ⟨m, fun _ => 0, ρ⟩ (fun r => ∀ c : Dev nD,
      r.2.mem ((c.tc : Thread nD τ).loc main_v0) = (dat2 (E5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v0 (by decide))).trans (W6_arr m c 3),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c),
     (h c _ (mem_uc main_arg10 (by decide))).trans (W6_main_arg10 m c),
     (h c _ (mem_uc main_arg11 (by decide))).trans (W6_main_arg11 m c),
     (h c _ (mem_uc main_arg12 (by decide))).trans (W6_main_arg12 m c)⟩)
    (run_all m ρ)

end Cert.KernelIdeal.Hand

end
-- ==== Proof.Spec.lean ====
/-
  One layer of the network, as a function of the activations, the edge list and the bias, in the two arrangements
  the two programs compute it in, over the extended reals.

  The reference's arrangement (`layer`): entry (r, j) of the result is max(acc + b j, 0) with
  acc = the sum, over the edges e whose destination is j, of h (r, src e) * w e.

  The kernel's arrangement (`kLayer` over `adj`): the edge list is first folded into a dense matrix
  A (i, j) = the sum of w e over the edges e with src e = i and dst e = j (written through the flat position
  i * n_out + j), and entry (r, j) is max(dot + b j, 0) where dot is the product of row r of h with column j of A,
  accumulated K-tile by K-tile (tiles of 1024) from the first tile on.

  The two agree when h and w are finite and every edge's ends are in range: the double sum over (i, e) with
  src e = i collapses to the sum over e (distributivity needs finiteness: the extended reals do not distribute at infinities).
-/
import Idealize.ShloMosaic.PureOps.Ideal
import Idealize.ShloMosaic.Lib.ValueIdx

noncomputable section

open scoped BigOperators

namespace Cert.Spec

open Idealize.ShloMosaic Idealize.ShloMosaic.ValueIdx

/-- The shape of an a × b matrix, and of a vector of length n. -/
abbrev Mat (a b : Nat) : Shape := ⟨2, ![a, b]⟩
abbrev Vc (n : Nat) : Shape := ⟨1, ![n]⟩
/-- The number of edges of a layer. -/
abbrev NE : Nat := 131072

/-- A 32-bit word read as a position on an axis of extent n (reduced modulo n: the identity on a word in range). -/
def colOf (n : Nat) [NeZero n] (v : BitVec 32) : Fin n := ⟨v.toNat % n, Nat.mod_lt _ (NeZero.pos n)⟩

/-- A natural number read as a position on an axis of extent n (reduced modulo n). -/
def posOf (n : Nat) [NeZero n] (k : Nat) : Fin n := ⟨k % n, Nat.mod_lt _ (NeZero.pos n)⟩

variable {nin nout : Nat}

/-- THE REFERENCE'S ARRANGEMENT of one layer: gather the source column of every edge, weight it, add it into the
    edge's destination column, add the bias, clamp below at zero. -/
def layer [NeZero nin] (h : (Mat 1024 nin).Idx → EReal) (src dst : (Vc NE).Idx → BitVec 32) (w : (Vc NE).Idx → EReal)
    (b : (Vc nout).Idx → EReal) : (Mat 1024 nout).Idx → EReal :=
  fun i => max ((∑ e ∈ Finset.univ.filter (fun e : Fin NE => (dst (ix1 e)).toNat = (i 1).val),
      h (ix2 (i 0) (colOf nin (src (ix1 e)))) * w (ix1 e)) + b (ix1 (i 1))) 0

/-- The edge list folded into a dense matrix: entry (i, j) is the sum of the weights of the edges from i to j, an edge
    placed by its flat position src * n_out + dst. -/
def adj (src dst : (Vc NE).Idx → BitVec 32) (w : (Vc NE).Idx → EReal) : (Mat nin nout).Idx → EReal :=
  fun i => ∑ e ∈ Finset.univ.filter (fun e : Fin NE =>
      (src (ix1 e)).toNat * nout + (dst (ix1 e)).toNat = (i 0).val * nout + (i 1).val), w (ix1 e)

/-- Row r of h against column j of A over K-tile kb: positions kb * 1024 … kb * 1024 + 1023 of the contracted axis. -/
def blockDot [NeZero nin] (h : (Mat 1024 nin).Idx → EReal) (A : (Mat nin nout).Idx → EReal) (i : (Mat 1024 nout).Idx)
    (kb : Nat) : EReal :=
  ∑ kk : Fin 1024, h (ix2 (i 0) (posOf nin (kb * 1024 + kk.val))) * A (ix2 (posOf nin (kb * 1024 + kk.val)) (i 1))

/-- The accumulator after K-tiles 0 … n: tile 0's product, then each later tile's added on the right. -/
def accUpTo [NeZero nin] (h : (Mat 1024 nin).Idx → EReal) (A : (Mat nin nout).Idx → EReal) (i : (Mat 1024 nout).Idx) :
    ℕ → EReal
  | 0 => blockDot h A i 0
  | n + 1 => accUpTo h A i n + blockDot h A i (n + 1)

/-- THE KERNEL'S ARRANGEMENT of one layer over a dense matrix A, the contraction cut in KB tiles of 1024. -/
def kLayer [NeZero nin] (KB : Nat) (h : (Mat 1024 nin).Idx → EReal) (A : (Mat nin nout).Idx → EReal)
    (b : (Vc nout).Idx → EReal) : (Mat 1024 nout).Idx → EReal :=
  fun i => max (accUpTo h A i (KB - 1) + b (ix1 (i 1))) 0

/-- THE NETWORK: three layers, of sizes 2048 → 4096 → 4096 → 1024, each in the reference's arrangement. -/
def net (x : (Mat 1024 2048).Idx → EReal)
    (s0 d0 : (Vc NE).Idx → BitVec 32) (w0 : (Vc NE).Idx → EReal) (b0 : (Vc 4096).Idx → EReal)
    (s1 d1 : (Vc NE).Idx → BitVec 32) (w1 : (Vc NE).Idx → EReal) (b1 : (Vc 4096).Idx → EReal)
    (s2 d2 : (Vc NE).Idx → BitVec 32) (w2 : (Vc NE).Idx → EReal) (b2 : (Vc 1024).Idx → EReal) :
    (Mat 1024 1024).Idx → EReal :=
  layer (nin := 4096) (nout := 1024) (layer (nin := 4096) (nout := 4096) (layer (nin := 2048) (nout := 4096) x s0 d0 w0 b0) s1 d1 w1 b1) s2 d2 w2 b2

/-- An extended real that is a real number. -/
def Fin' (x : EReal) : Prop := x ≠ ⊤ ∧ x ≠ ⊥

end Cert.Spec

end
-- ==== Proof.KI.Val0.lean ====
/-
  What the first layer's result array holds after its pallas_call (2048 → 4096 features; four column blocks of the
  result, the contraction cut in two K-tiles of 1024), at the ideal values: entry (r, j) is
  max (acc + b j, 0), acc the product of row r of the activations with column j of the matrix, accumulated K-tile by
  K-tile from the first tile on — the specification's kernel arrangement of one layer.

  The steps: each block a grid point reads is a restriction of its array (the activations whole, the matrix block
  (k, n), the bias block (0, n)); one accumulation step at an entry adds the K-tile's 1024 products; so the accumulator
  after the point (n, k) is the specification's accumulator up to tile k at column n * 1024 + q; the last K-tile's point
  writes the clamped sum, which is block (0, n) of the one whole-array function; and the four column blocks cover the
  result.
-/
import proofs.«424249_j20555713479227_3_alg».proof.Proof.KI.Acc0
import proofs.«424249_j20555713479227_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

namespace Call0

/-! ## The contraction's index maps -/

/-- The contraction of a 1024 × 1024 tile with a 1024 × 1024 block: row of the left operand is the result's row, -/
theorem lhs_dot0_0 (j : S1024x1024.Idx) (k : dot_S1024x1024_S1024x1024_S1024x1024_1_0_0_1_n_n.contr.Idx) :
    (dot_S1024x1024_S1024x1024_S1024x1024_1_0_0_1_n_n.lhsIdx j k 0 : ℕ) = j 0 := by
  simp [DotDims.lhsIdx, dot_S1024x1024_S1024x1024_S1024x1024_1_0_0_1_n_n]; rfl
/-- its column the contracted position, -/
theorem lhs_dot0_1 (j : S1024x1024.Idx) (k : dot_S1024x1024_S1024x1024_S1024x1024_1_0_0_1_n_n.contr.Idx) :
    (dot_S1024x1024_S1024x1024_S1024x1024_1_0_0_1_n_n.lhsIdx j k 1 : ℕ) = k ⟨0, by decide⟩ :=
  dot_S1024x1024_S1024x1024_S1024x1024_1_0_0_1_n_n.lhsIdx_val_of_single rfl j k
/-- the right operand's row the contracted position, -/
theorem rhs_dot0_0 (j : S1024x1024.Idx) (k : dot_S1024x1024_S1024x1024_S1024x1024_1_0_0_1_n_n.contr.Idx) :
    (dot_S1024x1024_S1024x1024_S1024x1024_1_0_0_1_n_n.rhsIdx j k 0 : ℕ) = k ⟨0, by decide⟩ :=
  dot_S1024x1024_S1024x1024_S1024x1024_1_0_0_1_n_n.rhsIdx_val_of_single rfl j k
/-- and its column the result's column. -/
theorem rhs_dot0_1 (j : S1024x1024.Idx) (k : dot_S1024x1024_S1024x1024_S1024x1024_1_0_0_1_n_n.contr.Idx) :
    (dot_S1024x1024_S1024x1024_S1024x1024_1_0_0_1_n_n.rhsIdx j k 1 : ℕ) = j 1 := by
  simp [DotDims.rhsIdx, dot_S1024x1024_S1024x1024_S1024x1024_1_0_0_1_n_n]; rfl

/-! ## The payloads at an entry -/

/-- The reset value is zero everywhere. -/
theorem pay1_apply (i : S1024x1024.Idx) : (k0_pay1 (F := Ideal)) i = 0 := by
  unfold k0_pay1
  simp only [shapeCast_self]
  show Ideal.ofBits .f32 0x00000000#32 = 0
  exact Ideal.ofBits_zero_f32

/-- The tile times the block at entry (p, q): the sum over the 1024 contracted positions of the products. -/
theorem tileDot_apply (tile : FVec Ideal S1024x1024 .bf16) (blk : FVec Ideal S1024x1024 .bf16) (p q : Fin 1024) :
    FloatOps.matmul dot_S1024x1024_S1024x1024_S1024x1024_1_0_0_1_n_n none tile blk (constant S1024x1024 .f32 0x00000000#32) (ix2 p q)
      = ∑ kk : Fin 1024, tile (ix2 p kk) * blk (ix2 kk q) := by
  rw [Ideal.matmul_constant_zero_apply,
    ← Equiv.sum_comp (contrEquiv1 dot_S1024x1024_S1024x1024_S1024x1024_1_0_0_1_n_n 1024 rfl rfl).symm]
  refine Finset.sum_congr rfl fun kk _ => ?_
  have hk := contrEquiv1_symm_val dot_S1024x1024_S1024x1024_S1024x1024_1_0_0_1_n_n 1024 rfl rfl kk
  have hl : dot_S1024x1024_S1024x1024_S1024x1024_1_0_0_1_n_n.lhsIdx (ix2 p q)
      ((contrEquiv1 dot_S1024x1024_S1024x1024_S1024x1024_1_0_0_1_n_n 1024 rfl rfl).symm kk) = ix2 p kk := by
    funext ax; apply Fin.ext
    match ax with
    | ⟨0, _⟩ => exact lhs_dot0_0 _ _
    | ⟨1, _⟩ => exact (lhs_dot0_1 _ _).trans hk
  have hr : dot_S1024x1024_S1024x1024_S1024x1024_1_0_0_1_n_n.rhsIdx (ix2 p q)
      ((contrEquiv1 dot_S1024x1024_S1024x1024_S1024x1024_1_0_0_1_n_n 1024 rfl rfl).symm kk) = ix2 kk q := by
    funext ax; apply Fin.ext
    match ax with
    | ⟨0, _⟩ => exact (rhs_dot0_0 _ _).trans hk
    | ⟨1, _⟩ => exact rhs_dot0_1 _ _
  rw [hl, hr]

/-- One accumulation step at entry (p, q): the accumulator there plus the K-tile's 1024 products. -/
theorem pay2_apply (tile : Vec Ideal S1024x1024 .bf16) (blk acc : Vec Ideal S1024x1024 .f32) (p q : Fin 1024) :
    k0_pay2 tile blk acc (ix2 p q) = acc (ix2 p q) + ∑ kk : Fin 1024, tile (ix2 p kk) * blk (ix2 kk q) := by
  unfold k0_pay2
  simp only [shapeCast_self]
  exact congrArg (acc (ix2 p q) + ·) (tileDot_apply tile (truncf (F := Ideal) .bf16 blk bitsLt_bf16_f32) p q)

/-- What a last K-tile's point writes at entry (p, q): the accumulator plus the bias of column q, clamped below at zero. -/
theorem pay3_apply (acc : Vec Ideal S1024x1024 .f32) (bias : Vec Ideal S1x1024 .f32) (p q : Fin 1024) :
    k0_pay3 acc bias (ix2 p q) = max (acc (ix2 p q) + bias (ix2 (0 : Fin 1) q)) 0 := by
  unfold k0_pay3
  simp only [shapeCast_self]
  show max (acc (ix2 p q) + broadcastTo S1024x1024 bias broadcasts_S1x1024_S1024x1024 (ix2 p q)) (Ideal.ofBits .f32 0x00000000#32) = _
  rw [Ideal.ofBits_zero_f32]
  exact congrArg (fun z => max (acc (ix2 p q) + z) 0) (broadcastTo_1b_ab_apply bias broadcasts_S1x1024_S1024x1024 p q)

/-! ## The blocks a grid point reads, as restrictions of their arrays -/

/-- The windows' index maps over the grid's eight points, point t = n * 2 + k: the activations' block is the whole array,
    the matrix's is block (k, n), the bias's and the result's block (0, n); the point's coordinates are (n, k). -/
theorem idx_facts0 : ∀ t : Fin cfg0.N,
    win0_0.index t (0 : Fin 2) = 0 ∧ win0_0.index t (1 : Fin 2) = 0
    ∧ win0_1.index t (0 : Fin 2) = t.val % 2 ∧ win0_1.index t (1 : Fin 2) = t.val / 2
    ∧ win0_2.index t (0 : Fin 2) = 0 ∧ win0_2.index t (1 : Fin 2) = t.val / 2
    ∧ win0_3.index t (0 : Fin 2) = 0 ∧ win0_3.index t (1 : Fin 2) = t.val / 2
    ∧ ((grid0.coords t) (0 : Fin 2)).val = t.val / 2 ∧ ((grid0.coords t) (1 : Fin 2)).val = t.val % 2 :=
  (by decide +kernel : ∀ t : Fin grid0.N, _)

section Blocks

variable {F : FTy → Type} [FloatOps F]
variable (V : (c : Dev nD) → (b : Ref sig .tc) → Buf (Elt F) ((c : Thread nD τ).loc b))

/-- The activations' block at any point is the whole array. -/
theorem iblk0_0_apply (c : Dev nD) (t : Fin cfg0.N) (y : S1024x2048.Idx) (k : S1024x2048.Idx)
    (hk0 : (k 0).val = (y 0).val) (hk1 : (k 1).val = (y 1).val) :
    (iblk0 V c 0 t : Vec F S1024x2048 .bf16) y = (V c main_call0_v12 : S1024x2048.Idx → Elt F .bf16) k := by
  obtain ⟨e0, e1, -⟩ := idx_facts0 t
  unfold iblk0
  rw [View.read_apply]
  show V c main_call0_v12 _ = V c main_call0_v12 _
  congr 1
  funext a
  apply Fin.ext
  match a with
  | ⟨0, _⟩ => show win0_0.index t 0 * 1024 + 1 * (y 0).val = (k 0).val; rw [e0, hk0]; omega
  | ⟨1, _⟩ => show win0_0.index t 1 * 2048 + 1 * (y 1).val = (k 1).val; rw [e1, hk1]; omega

/-- The matrix's block at point n * 2 + k is rows k * 1024 …, columns n * 1024 … of the matrix. -/
theorem iblk0_1_apply (c : Dev nD) (t : Fin cfg0.N) (y : S1024x1024.Idx) (k : S2048x4096.Idx)
    (hk0 : (k 0).val = t.val % 2 * 1024 + (y 0).val) (hk1 : (k 1).val = t.val / 2 * 1024 + (y 1).val) :
    (iblk0 V c 1 t : Vec F S1024x1024 .f32) y = (V c main_call0_v11 : S2048x4096.Idx → Elt F .f32) k := by
  obtain ⟨-, -, e0, e1, -⟩ := idx_facts0 t
  unfold iblk0
  rw [View.read_apply]
  show V c main_call0_v11 _ = V c main_call0_v11 _
  congr 1
  funext a
  apply Fin.ext
  match a with
  | ⟨0, _⟩ => show win0_1.index t 0 * 1024 + 1 * (y 0).val = (k 0).val; rw [e0, hk0]; omega
  | ⟨1, _⟩ => show win0_1.index t 1 * 1024 + 1 * (y 1).val = (k 1).val; rw [e1, hk1]; omega

/-- The bias's block at point n * 2 + k is columns n * 1024 … of the bias row. -/
theorem iblk0_2_apply (c : Dev nD) (t : Fin cfg0.N) (y : S1x1024.Idx) (k : S1x4096.Idx)
    (hk0 : (k 0).val = (y 0).val) (hk1 : (k 1).val = t.val / 2 * 1024 + (y 1).val) :
    (iblk0 V c 2 t : Vec F S1x1024 .f32) y = (V c main_call0_v13 : S1x4096.Idx → Elt F .f32) k := by
  obtain ⟨-, -, -, -, e0, e1, -⟩ := idx_facts0 t
  unfold iblk0
  rw [View.read_apply]
  show V c main_call0_v13 _ = V c main_call0_v13 _
  congr 1
  funext a
  apply Fin.ext
  match a with
  | ⟨0, _⟩ => show win0_2.index t 0 * 1 + 1 * (y 0).val = (k 0).val; rw [e0, hk0]; omega
  | ⟨1, _⟩ => show win0_2.index t 1 * 1024 + 1 * (y 1).val = (k 1).val; rw [e1, hk1]; omega

end Blocks

/-! ## The accumulator after each grid point -/

/-- The grid has eight points. -/
theorem N0 : cfg0.N = 8 := by decide

/-- The K-tile of the activations at an entry: row p, column k * 1024 + kk of the array, k the point's second coordinate. -/
theorem hTile0_apply (i : grid0.Coords) (x2 : Vec Ideal S1024x2048 .bf16) (p kk : Fin 1024) :
    hTile0 i x2 (ix2 p kk) = x2 (ix2 p (Cert.Spec.posOf 2048 ((i 1).val * 1024 + kk.val))) := rfl

/-- One K-tile's 1024 products, at entry (p, q) of a column block whose column q is column `col q` of the matrix, are the
    specification's product of row p of the activations with that column over K-tile k. -/
theorem tile_blockDot (X : Vec Ideal S1024x2048 .bf16) (A : Vec Ideal S2048x4096 .f32)
    (i : grid0.Coords) (x2 : Vec Ideal S1024x2048 .bf16) (x3 : Vec Ideal S1024x1024 .f32) (k : ℕ) (col : Fin 1024 → Fin 4096)
    (hi : (i 1).val = k) (hx2 : ∀ y, x2 y = X y)
    (hx3 : ∀ a b : Fin 1024, x3 (ix2 a b) = A (ix2 (Cert.Spec.posOf 2048 (k * 1024 + a.val)) (col b)))
    (p q : Fin 1024) :
    ∑ kk : Fin 1024, hTile0 i x2 (ix2 p kk) * x3 (ix2 kk q)
      = Cert.Spec.blockDot (nin := 2048) (nout := 4096) X A (ix2 p (col q)) k := by
  unfold Cert.Spec.blockDot
  refine Finset.sum_congr rfl fun kk _ => ?_
  rw [hTile0_apply, hx2, hx3 kk q, hi]

/-- A first K-tile's step from the reset value leaves the specification's accumulator up to tile 0. -/
theorem accStep0_first (X : Vec Ideal S1024x2048 .bf16) (A : Vec Ideal S2048x4096 .f32)
    (i : grid0.Coords) (x2 : Vec Ideal S1024x2048 .bf16) (x3 : Vec Ideal S1024x1024 .f32) (col : Fin 1024 → Fin 4096)
    (hi : (i 1).val = 0) (hx2 : ∀ y, x2 y = X y)
    (hx3 : ∀ a b : Fin 1024, x3 (ix2 a b) = A (ix2 (Cert.Spec.posOf 2048 (0 * 1024 + a.val)) (col b)))
    (p q : Fin 1024) :
    accStep0 i x2 x3 (k0_pay1 (F := Ideal)) (ix2 p q)
      = Cert.Spec.accUpTo (nin := 2048) (nout := 4096) X A (ix2 p (col q)) 0 := by
  unfold accStep0
  rw [pay2_apply, pay1_apply, zero_add, tile_blockDot X A i x2 x3 0 col hi hx2 hx3 p q]
  rfl

/-- The second K-tile's step, from the accumulator up to tile 0, leaves the accumulator up to tile 1. -/
theorem accStep0_next (X : Vec Ideal S1024x2048 .bf16) (A : Vec Ideal S2048x4096 .f32)
    (i : grid0.Coords) (x2 : Vec Ideal S1024x2048 .bf16) (x3 acc : Vec Ideal S1024x1024 .f32) (col : Fin 1024 → Fin 4096)
    (hi : (i 1).val = 1) (hx2 : ∀ y, x2 y = X y)
    (hx3 : ∀ a b : Fin 1024, x3 (ix2 a b) = A (ix2 (Cert.Spec.posOf 2048 (1 * 1024 + a.val)) (col b)))
    (hacc : ∀ p q : Fin 1024, acc (ix2 p q) = Cert.Spec.accUpTo (nin := 2048) (nout := 4096) X A (ix2 p (col q)) 0)
    (p q : Fin 1024) :
    accStep0 i x2 x3 acc (ix2 p q)
      = Cert.Spec.accUpTo (nin := 2048) (nout := 4096) X A (ix2 p (col q)) 1 := by
  unfold accStep0
  rw [pay2_apply, hacc, tile_blockDot X A i x2 x3 1 col hi hx2 hx3 p q]
  rfl

section Points

variable (V : (c : Dev nD) → (b : Ref sig .tc) → Buf (Elt Ideal) ((c : Thread nD τ).loc b))

/-- The three arrays the region reads, and a point's three blocks, at their literal types. -/
abbrev xarr0 (c : Dev nD) : Vec Ideal S1024x2048 .bf16 := V c main_call0_v12
abbrev warr0 (c : Dev nD) : Vec Ideal S2048x4096 .f32 := V c main_call0_v11
abbrev barr0 (c : Dev nD) : Vec Ideal S1x4096 .f32 := V c main_call0_v13
abbrev xblk0 (c : Dev nD) (t : Fin cfg0.N) : Vec Ideal S1024x2048 .bf16 := iblk0 V c 0 t
abbrev wblk0 (c : Dev nD) (t : Fin cfg0.N) : Vec Ideal S1024x1024 .f32 := iblk0 V c 1 t
abbrev bblk0 (c : Dev nD) (t : Fin cfg0.N) : Vec Ideal S1x1024 .f32 := iblk0 V c 2 t

/-- Column q of column block n, as a column of the matrix. -/
abbrev colOf0 (n : ℕ) (q : Fin 1024) : Fin 4096 := Cert.Spec.posOf 4096 (n * 1024 + q.val)

theorem xblk0_apply (c : Dev nD) (t : Fin cfg0.N) (y : S1024x2048.Idx) : xblk0 V c t y = xarr0 V c y :=
  iblk0_0_apply V c t y y rfl rfl

theorem wblk0_apply (c : Dev nD) (t : Fin cfg0.N) (k : ℕ) (hk : t.val % 2 = k) (a b : Fin 1024) :
    wblk0 V c t (ix2 a b) = warr0 V c (ix2 (Cert.Spec.posOf 2048 (k * 1024 + a.val)) (colOf0 (t.val / 2) b)) := by
  have ht : t.val < 8 := lt_of_lt_of_eq t.isLt N0
  have ha := a.isLt
  have hb := b.isLt
  refine iblk0_1_apply V c t (ix2 a b) _ ?_ ?_
  · show (k * 1024 + a.val) % 2048 = t.val % 2 * 1024 + a.val
    omega
  · show (t.val / 2 * 1024 + b.val) % 4096 = t.val / 2 * 1024 + b.val
    omega

/-- After the point n * 2 + k the accumulator holds, at entry (p, q), the specification's accumulator up to tile k of
    row p of the activations against column n * 1024 + q of the matrix: by induction on the point. -/
theorem accAt0_apply (c : Dev nD) (n : ℕ) (h : n < cfg0.N) (p q : Fin 1024) :
    accAt0 V c n h (ix2 p q)
      = Cert.Spec.accUpTo (nin := 2048) (nout := 4096) (xarr0 V c) (warr0 V c) (ix2 p (colOf0 (n / 2) q)) (n % 2) := by
  induction n using Nat.strong_induction_on generalizing p q with
  | _ n ih =>
    have hn : n < 8 := lt_of_lt_of_eq h N0
    have hc : ((grid0.coords ⟨n, h⟩) (1 : Fin 2)).val = n % 2 := (idx_facts0 ⟨n, h⟩).2.2.2.2.2.2.2.2.2
    by_cases h0 : n % 2 = 0
    · refine (congrFun (accAt0_first V c ⟨n, h⟩ h0) (ix2 p q)).trans ?_
      rw [h0]
      exact accStep0_first (xarr0 V c) (warr0 V c) (grid0.coords ⟨n, h⟩) (xblk0 V c ⟨n, h⟩) (wblk0 V c ⟨n, h⟩)
        (colOf0 (n / 2)) (hc.trans h0) (xblk0_apply V c ⟨n, h⟩) (wblk0_apply V c ⟨n, h⟩ 0 h0) p q
    · have h1 : n % 2 = 1 := by omega
      refine (congrFun (accAt0_next V c ⟨n, h⟩ h0) (ix2 p q)).trans ?_
      rw [h1]
      refine accStep0_next (xarr0 V c) (warr0 V c) (grid0.coords ⟨n, h⟩) (xblk0 V c ⟨n, h⟩) (wblk0 V c ⟨n, h⟩)
        (accAt0 V c (n - 1) (Nat.lt_of_le_of_lt (Nat.sub_le _ _) h))
        (colOf0 (n / 2)) (hc.trans h1) (xblk0_apply V c ⟨n, h⟩) (wblk0_apply V c ⟨n, h⟩ 1 h1) (fun p' q' => ?_) p q
      have e := ih (n - 1) (by omega) (Nat.lt_of_le_of_lt (Nat.sub_le _ _) h) p' q'
      rw [show (n - 1) / 2 = n / 2 by omega, show (n - 1) % 2 = 0 by omega] at e
      exact e

end Points

/-! ## What the last K-tile's points write back, the cover, and the array after the region -/

section Result

variable (V : (c : Dev nD) → (b : Ref sig .tc) → Buf (Elt Ideal) ((c : Thread nD τ).loc b))

/-- The layer, in the kernel's arrangement, of the arrays the region finds: the one function every write-back is a block of. -/
abbrev result0 (c : Dev nD) : Vec Ideal S1024x4096 .f32 :=
  Cert.Spec.kLayer (nin := 2048) (nout := 4096) 2 (xarr0 V c) (warr0 V c)
    (fun j => barr0 V c (ix2 (0 : Fin 1) (⟨(j 0).val, (j 0).isLt⟩ : Fin 4096)))

theorem bblk0_apply (c : Dev nD) (t : Fin cfg0.N) (q : Fin 1024) :
    bblk0 V c t (ix2 (0 : Fin 1) q) = barr0 V c (ix2 (0 : Fin 1) (colOf0 (t.val / 2) q)) := by
  have ht : t.val < 8 := lt_of_lt_of_eq t.isLt N0
  have hq := q.isLt
  refine iblk0_2_apply V c t (ix2 (0 : Fin 1) q) _ rfl ?_
  show (t.val / 2 * 1024 + q.val) % 4096 = t.val / 2 * 1024 + q.val
  omega

/-- At a last K-tile's point n * 2 + 1 the body writes, at entry (p, q) of the result's block, the layer at row p and column
    n * 1024 + q: the accumulator there is complete, the bias block is the bias row's columns n * 1024 …. -/
theorem outAt0_apply (c : Dev nD) (t : Fin cfg0.N) (ht : t.val % 2 = 1) (p q : Fin 1024) :
    outAt0 V c t (ix2 p q) = result0 V c (ix2 p (colOf0 (t.val / 2) q)) := by
  unfold outAt0
  refine (pay3_apply (accAt0 V c t.val t.isLt) (bblk0 V c t) p q).trans ?_
  rw [accAt0_apply V c t.val t.isLt p q, bblk0_apply V c t q, ht]
  rfl

/-- So what such a point writes back is its block of the layer. -/
theorem flushed0_eq (c : Dev nD) (dat : Pipeline.Dat τ (Elt Ideal) Unit ℕ (UR sig nD τ) ℕ cfg0 c)
    (h3 : ∀ t, dat.after 3 t = outAt0 V c t) (t : Fin cfg0.N) (hf : (cfg0.win 3).flush t = true) :
    dat.flushed 3 t = ((cfg0.win 3).blk t).view.read (Elt Ideal) (result0 V c) := by
  have ht : t.val % 2 = 1 := (flush0_3 t).mp hf
  have hlt : t.val < 8 := lt_of_lt_of_eq t.isLt N0
  obtain ⟨-, -, -, -, -, -, e0, e1, -⟩ := idx_facts0 t
  show (cfg0.win 3).cut (grid0.coords t) (dat.after 3 t) = _
  rw [h3]
  funext y
  show outAt0 V c t y = result0 V c (((cfg0.win 3).blk t).view.emb y)
  obtain ⟨p, q, rfl⟩ : ∃ (p q : Fin 1024), y = ix2 p q := ⟨y 0, y 1, eq_ix2 y⟩
  rw [outAt0_apply V c t ht p q]
  have hp := p.isLt
  have hq := q.isLt
  refine congrArg (result0 V c) (funext fun a => Fin.ext ?_)
  match a with
  | ⟨0, _⟩ => show p.val = win0_3.index t (0 : Fin 2) * 1024 + 1 * p.val; rw [e0]; omega
  | ⟨1, _⟩ => show (t.val / 2 * 1024 + q.val) % 4096 = win0_3.index t (1 : Fin 2) * 1024 + 1 * q.val; rw [e1]; omega

/-- An entry of the result is in point t's block exactly when each coordinate is in the block's range on its axis. -/
theorem mem_blk0_3 (t : Fin cfg0.N) (i : S1024x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_call0_v14).slice (win0_3.rect t)).set ↔ _
  rw [View.set_slice_whole, Rect.mem_set_unit]
  exact Iff.rfl

/-- Every entry of the result lies in the block of a last K-tile's point: column j is in column block j / 1024, written
    back at the point (j / 1024) * 2 + 1. -/
theorem cover0_3 (i : S1024x4096.Idx) : ∃ t : Fin cfg0.N, (cfg0.win 3).flush t = true ∧ i ∈ ((cfg0.win 3).blk t).view.set := by
  have h0 : (i 0).val < 1024 := (i 0).isLt
  have h1 : (i 1).val < 4096 := (i 1).isLt
  have hN : (i 1).val / 1024 * 2 + 1 < cfg0.N := by rw [N0]; omega
  obtain ⟨-, -, -, -, -, -, e0, e1, -⟩ := idx_facts0 ⟨(i 1).val / 1024 * 2 + 1, hN⟩
  refine ⟨⟨(i 1).val / 1024 * 2 + 1, hN⟩, (flush0_3 _).mpr (by show ((i 1).val / 1024 * 2 + 1) % 2 = 1; omega), ?_⟩
  rw [mem_blk0_3]
  intro a
  match a with
  | ⟨0, _⟩ =>
    show win0_3.index _ (0 : Fin 2) * 1024 ≤ (i 0).val ∧ (i 0).val < win0_3.index _ (0 : Fin 2) * 1024 + 1024
    rw [e0]; omega
  | ⟨1, _⟩ =>
    show win0_3.index _ (1 : Fin 2) * 1024 ≤ (i 1).val ∧ (i 1).val < win0_3.index _ (1 : Fin 2) * 1024 + 1024
    rw [e1]
    show ((i 1).val / 1024 * 2 + 1) / 2 * 1024 ≤ (i 1).val ∧ (i 1).val < ((i 1).val / 1024 * 2 + 1) / 2 * 1024 + 1024
    omega

end Result

end Call0

section Value

open Call0

variable (V : (c : Dev nD) → (b : Ref sig .tc) → Buf (Elt Ideal) ((c : Thread nD τ).loc b))

/-- THE RESULT ARRAY AFTER THE REGION: the layer, in the kernel's arrangement, of the activations, the matrix and the bias row
    the region finds: every write-back is its block of that one function, and the write-backs cover the array. -/
theorem arrAt0_value (c : Dev nD)
    (dat : Pipeline.Dat τ (Elt Ideal) Unit ℕ (UR sig nD τ) ℕ cfg0 c)
    (hA : ∀ w, dat.A w = V c (Pipeline.arrRef spec0 w))
    (h0 : ∀ t, dat.after 0 t = iblk0 V c 0 t) (h1 : ∀ t, dat.after 1 t = iblk0 V c 1 t) (h2 : ∀ t, dat.after 2 t = iblk0 V c 2 t)
    (h3 : ∀ t, dat.after 3 t = outAt0 V c t) :
    dat.arrAt 3 cfg0.N = Cert.Spec.kLayer (nin := 2048) (nout := 4096) 2 (V c main_call0_v12) (V c main_call0_v11)
      (fun j => V c main_call0_v13 (ValueIdx.ix2 (0 : Fin 1) (⟨(j 0).val, (j 0).isLt⟩ : Fin 4096))) :=
  dat.arrAt_eq_of_cover 3 (result0 V c) (fun t hf => flushed0_eq V c dat h3 t hf) cover0_3

end Value

end Cert.KernelIdeal.Hand

end
-- ==== Proof.KI.Val1.lean ====
/-
  The value of the second pallas_call at the ideal instance (a float an extended real, every operation exact).

  The result array [1024, 4096] is cut in four column blocks of 1024 columns; column block n is produced by the four
  grid points (n, 0) … (n, 3), point (n, k) adding to the accumulator the product of K-tile k of the activations
  (columns k·1024 … k·1024 + 1023) with block (k, n) of the matrix, the accumulator started from zero at k = 0; at
  k = 3 the bias row is added, negative entries are replaced by zero and the block is written back.  So entry (r, j)
  of the result is max (dot + b j) 0 where dot is the product of row r of the activations with column j of the matrix
  accumulated K-tile by K-tile from the first tile on: the kernel's arrangement of one layer.

  In order: the three payloads read at an entry (the zero block; accumulator plus a sum of 1024 products; bias added
  and clamped); each window's block at a grid point as entries of the window's array; the accumulator after the point
  (n, k) as the sum of the K-tiles 0 … k; the block written back at (n, 3); every column lies in one column block;
  the array after the region.
-/
import proofs.«424249_j20555713479227_3_alg».proof.Proof.KI.Acc1
import proofs.«424249_j20555713479227_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The payloads at an entry -/

/-- The contraction of a 1024 × 1024 tile with a 1024 × 1024 block: on the left operand the row is the result's row and
    the column is the contracted position; on the right operand the row is the contracted position and the column is
    the result's column. -/
theorem lhs1_ax0 (j : S1024x1024.Idx) (k : dot_S1024x1024_S1024x1024_S1024x1024_1_0_0_1_n_n.contr.Idx) :
    (dot_S1024x1024_S1024x1024_S1024x1024_1_0_0_1_n_n.lhsIdx j k 0 : ℕ) = j 0 := by
  simp [DotDims.lhsIdx, dot_S1024x1024_S1024x1024_S1024x1024_1_0_0_1_n_n]; rfl
theorem lhs1_ax1 (j : S1024x1024.Idx) (k : dot_S1024x1024_S1024x1024_S1024x1024_1_0_0_1_n_n.contr.Idx) :
    (dot_S1024x1024_S1024x1024_S1024x1024_1_0_0_1_n_n.lhsIdx j k 1 : ℕ) = k ⟨0, by decide⟩ := by
  simp [DotDims.lhsIdx, dot_S1024x1024_S1024x1024_S1024x1024_1_0_0_1_n_n]; rfl
theorem rhs1_ax0 (j : S1024x1024.Idx) (k : dot_S1024x1024_S1024x1024_S1024x1024_1_0_0_1_n_n.contr.Idx) :
    (dot_S1024x1024_S1024x1024_S1024x1024_1_0_0_1_n_n.rhsIdx j k 0 : ℕ) = k ⟨0, by decide⟩ := by
  simp [DotDims.rhsIdx, dot_S1024x1024_S1024x1024_S1024x1024_1_0_0_1_n_n]; rfl
theorem rhs1_ax1 (j : S1024x1024.Idx) (k : dot_S1024x1024_S1024x1024_S1024x1024_1_0_0_1_n_n.contr.Idx) :
    (dot_S1024x1024_S1024x1024_S1024x1024_1_0_0_1_n_n.rhsIdx j k 1 : ℕ) = j 1 := by
  simp [DotDims.rhsIdx, dot_S1024x1024_S1024x1024_S1024x1024_1_0_0_1_n_n]; rfl

/-- The product of a tile with a block into a zero accumulator, at entry (p, q): the sum over the 1024 contracted
    positions of tile (p, kk) * block (kk, q). -/
theorem tileDot1_apply (tile : FVec Ideal S1024x1024 .bf16) (blk : FVec Ideal S1024x1024 .bf16) (p q : Fin 1024) :
    FloatOps.matmul dot_S1024x1024_S1024x1024_S1024x1024_1_0_0_1_n_n none tile blk (constant S1024x1024 .f32 0x00000000#32) (ix2 p q)
      = ∑ kk : Fin 1024, tile (ix2 p kk) * blk (ix2 kk q) := by
  rw [Ideal.matmul_constant_zero_apply,
    ← Equiv.sum_comp (contrEquiv1 dot_S1024x1024_S1024x1024_S1024x1024_1_0_0_1_n_n 1024 rfl rfl).symm]
  refine Finset.sum_congr rfl fun kk _ => ?_
  have hk := contrEquiv1_symm_val dot_S1024x1024_S1024x1024_S1024x1024_1_0_0_1_n_n 1024 rfl rfl kk
  have el : dot_S1024x1024_S1024x1024_S1024x1024_1_0_0_1_n_n.lhsIdx (ix2 p q)
      ((contrEquiv1 dot_S1024x1024_S1024x1024_S1024x1024_1_0_0_1_n_n 1024 rfl rfl).symm kk) = ix2 p kk := by
    funext ax; apply Fin.ext
    match ax with
    | ⟨0, _⟩ => exact lhs1_ax0 _ _
    | ⟨1, _⟩ => exact (lhs1_ax1 _ _).trans hk
  have er : dot_S1024x1024_S1024x1024_S1024x1024_1_0_0_1_n_n.rhsIdx (ix2 p q)
      ((contrEquiv1 dot_S1024x1024_S1024x1024_S1024x1024_1_0_0_1_n_n 1024 rfl rfl).symm kk) = ix2 kk q := by
    funext ax; apply Fin.ext
    match ax with
    | ⟨0, _⟩ => exact (rhs1_ax0 _ _).trans hk
    | ⟨1, _⟩ => exact rhs1_ax1 _ _
  rw [el, er]

/-- The block the accumulator is started from holds zero everywhere. -/
theorem zeroBlock1_apply (p q : Fin 1024) : (k1_pay1 (F := Ideal)) (ix2 p q) = 0 := by
  unfold k1_pay1
  simp only [shapeCast_self]
  show Ideal.ofBits .f32 0x00000000#32 = 0
  exact Ideal.ofBits_zero_f32

/-- One accumulation step at entry (p, q): the accumulator's entry plus the sum over the tile's 1024 columns of
    tile (p, kk) * block (kk, q) (the matrix block is used as it is: narrowing its format is the identity here). -/
theorem accStep1_apply (tile : Vec Ideal S1024x1024 .bf16) (blk : Vec Ideal S1024x1024 .f32) (acc : Vec Ideal S1024x1024 .f32)
    (p q : Fin 1024) :
    k1_pay2 tile blk acc (ix2 p q) = acc (ix2 p q) + ∑ kk : Fin 1024, tile (ix2 p kk) * blk (ix2 kk q) := by
  unfold k1_pay2
  simp only [shapeCast_self]
  rw [addf_apply]
  exact congrArg (acc (ix2 p q) + ·) (tileDot1_apply tile (truncf .bf16 blk bitsLt_bf16_f32) p q)

/-- The stored block at entry (p, q): the accumulator's entry plus the bias of column q, not below zero. -/
theorem outBlock1_apply (acc : Vec Ideal S1024x1024 .f32) (bias : Vec Ideal S1x1024 .f32) (p q : Fin 1024) :
    k1_pay3 acc bias (ix2 p q) = max (acc (ix2 p q) + bias (ix2 (0 : Fin 1) q)) 0 := by
  unfold k1_pay3
  simp only [shapeCast_self]
  rw [maximumf_apply, addf_apply, broadcastTo_1b_ab_apply, broadcast_apply]
  show max _ (Ideal.ofBits .f32 0x00000000#32) = _
  rw [Ideal.ofBits_zero_f32]

/-! ## The arrays the region finds, and the result as one function of them -/

-- what the TensorCore's buffers hold at the moment the region starts
variable (V : (c : Dev nD) → (b : Ref sig .tc) → Buf (Elt Ideal) ((c : Thread nD τ).loc b))

/-- The activations [1024, 4096], the matrix [4096, 4096], and the bias row read as a vector of length 4096. -/
abbrev act1 (c : Dev nD) : (Cert.Spec.Mat 1024 4096).Idx → EReal := V c main_call0_v27
abbrev mat1 (c : Dev nD) : (Cert.Spec.Mat 4096 4096).Idx → EReal := V c main_call0_v26
abbrev bias1 (c : Dev nD) : (Cert.Spec.Vc 4096).Idx → EReal :=
  fun j => V c main_call0_v28 (ix2 (0 : Fin 1) (⟨(j 0).val, (j 0).isLt⟩ : Fin 4096))

/-- The layer in the kernel's arrangement: four K-tiles of 1024. -/
abbrev layer1 (c : Dev nD) : (Cert.Spec.Mat 1024 4096).Idx → EReal :=
  Cert.Spec.kLayer (nin := 4096) (nout := 4096) 4 (act1 V c) (mat1 V c) (bias1 V c)

/-- Position q inside block n of an axis of extent 4096 cut in four blocks of 1024: n · 1024 + q. -/
def inBlock1 (n : ℕ) (hn : n < 4) (q : Fin 1024) : Fin 4096 := ⟨n * 1024 + q.val, by have := q.isLt; omega⟩

/-! ## Each window's block at a grid point, as entries of the window's array -/

/-- Grid point t is (n, k) = (t / 4, t % 4).  The activations' block is always the whole array (block index (0, 0));
    the matrix's block is (k, n); the bias row's and the result's block is (0, n).  Decided over the 16 points. -/
theorem pointFacts1 : ∀ t : Fin cfg1.N,
    win1_0.index t (0 : Fin 2) = 0 ∧ win1_0.index t (1 : Fin 2) = 0
    ∧ win1_1.index t (0 : Fin 2) = t.val % 4 ∧ win1_1.index t (1 : Fin 2) = t.val / 4
    ∧ win1_2.index t (0 : Fin 2) = 0 ∧ win1_2.index t (1 : Fin 2) = t.val / 4
    ∧ win1_3.index t (0 : Fin 2) = 0 ∧ win1_3.index t (1 : Fin 2) = t.val / 4
    ∧ (grid1.coords t 1).val = t.val % 4 :=
  (by decide +kernel : ∀ t : Fin grid1.N, _)

/-- The activations' block at any point is the whole array. -/
theorem iblk1_act (c : Dev nD) (t : Fin cfg1.N) (y k : S1024x4096.Idx)
    (hk0 : (k 0).val = (y 0).val) (hk1 : (k 1).val = (y 1).val) :
    (iblk1 V c 0 t : Vec Ideal S1024x4096 .bf16) y = (V c main_call0_v27 : S1024x4096.Idx → EReal) k := by
  obtain ⟨e0, e1, -⟩ := pointFacts1 t
  unfold iblk1
  rw [View.read_apply]
  show V c main_call0_v27 _ = V c main_call0_v27 _
  congr 1
  funext a
  apply Fin.ext
  match a with
  | ⟨0, _⟩ => show win1_0.index t 0 * 1024 + 1 * (y 0).val = (k 0).val; rw [e0, hk0]; omega
  | ⟨1, _⟩ => show win1_0.index t 1 * 4096 + 1 * (y 1).val = (k 1).val; rw [e1, hk1]; omega

/-- The matrix's block at point (n, k) is rows k·1024 … and columns n·1024 … of the matrix. -/
theorem iblk1_mat (c : Dev nD) (t : Fin cfg1.N) (y : S1024x1024.Idx) (k : S4096x4096.Idx)
    (hk0 : (k 0).val = t.val % 4 * 1024 + (y 0).val) (hk1 : (k 1).val = t.val / 4 * 1024 + (y 1).val) :
    (iblk1 V c 1 t : Vec Ideal S1024x1024 .f32) y = (V c main_call0_v26 : S4096x4096.Idx → EReal) k := by
  obtain ⟨-, -, e0, e1, -⟩ := pointFacts1 t
  unfold iblk1
  rw [View.read_apply]
  show V c main_call0_v26 _ = V c main_call0_v26 _
  congr 1
  funext a
  apply Fin.ext
  match a with
  | ⟨0, _⟩ => show win1_1.index t 0 * 1024 + 1 * (y 0).val = (k 0).val; rw [e0, hk0]; omega
  | ⟨1, _⟩ => show win1_1.index t 1 * 1024 + 1 * (y 1).val = (k 1).val; rw [e1, hk1]; omega

/-- The bias row's block at point (n, k) is columns n·1024 … of the row. -/
theorem iblk1_bias (c : Dev nD) (t : Fin cfg1.N) (y : S1x1024.Idx) (k : S1x4096.Idx)
    (hk1 : (k 1).val = t.val / 4 * 1024 + (y 1).val) :
    (iblk1 V c 2 t : Vec Ideal S1x1024 .f32) y = (V c main_call0_v28 : S1x4096.Idx → EReal) k := by
  obtain ⟨-, -, -, -, e0, e1, -⟩ := pointFacts1 t
  unfold iblk1
  rw [View.read_apply]
  show V c main_call0_v28 _ = V c main_call0_v28 _
  congr 1
  funext a
  apply Fin.ext
  match a with
  | ⟨0, _⟩ =>
    show win1_2.index t 0 * 1 + 1 * (y 0).val = (k 0).val
    have hy : (y 0).val < 1 := (y 0).isLt
    have hk : (k 0).val < 1 := (k 0).isLt
    rw [e0]; omega
  | ⟨1, _⟩ => show win1_2.index t 1 * 1024 + 1 * (y 1).val = (k 1).val; rw [e1, hk1]; omega

/-! ## The accumulator after point (n, k): K-tiles 0 … k of the dot product -/

/-- One accumulation step over the spec's terms: if the step's activations are h and its matrix block is rows
    kb·1024 … and columns n·1024 … of A, then at entry (p, q) the step adds K-tile kb's part of the product of row p of
    h with column n·1024 + q of A. -/
theorem accStep1_blockDot (i : grid1.Coords) (kb n : ℕ) (hkb : (i 1).val = kb) (hkb4 : kb < 4) (hn : n < 4)
    (x2 : Vec Ideal S1024x4096 .bf16) (x3 : Vec Ideal S1024x1024 .f32) (acc : Vec Ideal S1024x1024 .f32)
    (h : (Cert.Spec.Mat 1024 4096).Idx → EReal) (A : (Cert.Spec.Mat 4096 4096).Idx → EReal)
    (hx2 : ∀ y : S1024x4096.Idx, x2 y = h y)
    (hx3 : ∀ a b : Fin 1024, x3 (ix2 a b) = A (ix2 (inBlock1 kb hkb4 a) (inBlock1 n hn b)))
    (p q : Fin 1024) :
    accStep1 i x2 x3 acc (ix2 p q)
      = acc (ix2 p q) + Cert.Spec.blockDot h A (ix2 p (inBlock1 n hn q)) kb := by
  unfold accStep1
  refine (accStep1_apply (hTile1 i x2) x3 acc p q).trans ?_
  unfold Cert.Spec.blockDot
  refine congrArg (acc (ix2 p q) + ·) (Finset.sum_congr rfl fun kk _ => ?_)
  rw [hx3 kk q]
  unfold hTile1
  rw [hx2]
  have hkk : kk.val < 1024 := kk.isLt
  refine congrArg₂ (· * ·) (congrArg h (Shape.idx_ext₂ ?_ ?_)) (congrArg A (Shape.idx_ext₂ ?_ ?_))
  · rfl
  · show ((i 1).val * 1024 + kk.val) % 4096 = (kb * 1024 + kk.val) % 4096
    rw [hkb]
  · show kb * 1024 + kk.val = (kb * 1024 + kk.val) % 4096
    omega
  · rfl

/-- After point m = n·4 + k the accumulator's entry (p, q) is the product of row p of the activations with column
    n·1024 + q of the matrix over the K-tiles 0 … k, added up from the first tile on.  By induction on k: the first
    K-tile's point starts from the zero block, every later one from what the preceding point left. -/
theorem accAt1_entry (c : Dev nD) : ∀ (k n : ℕ) (hk : k < 4) (hn : n < 4) (m : ℕ) (hm : m < cfg1.N) (hmk : m = n * 4 + k)
    (p q : Fin 1024),
    accAt1 V c m hm (ix2 p q) = Cert.Spec.accUpTo (act1 V c) (mat1 V c) (ix2 p (inBlock1 n hn q)) k
  | 0, n, hk, hn, m, hm, hmk, p, q => by
    have hc : (grid1.coords ⟨m, hm⟩ 1).val = 0 := by
      have := (pointFacts1 ⟨m, hm⟩).2.2.2.2.2.2.2.2
      rw [this]; show m % 4 = 0; omega
    refine (congrFun (accAt1_first V c ⟨m, hm⟩ (by show m % 4 = 0; omega)) (ix2 p q)).trans ?_
    refine (accStep1_blockDot (grid1.coords ⟨m, hm⟩) 0 n hc hk hn (iblk1 V c 0 ⟨m, hm⟩) (iblk1 V c 1 ⟨m, hm⟩)
      (k1_pay1 (F := Ideal)) (act1 V c) (mat1 V c)
      (fun y => iblk1_act V c ⟨m, hm⟩ y y rfl rfl)
      (fun a b => iblk1_mat V c ⟨m, hm⟩ (ix2 a b) (ix2 (inBlock1 0 hk a) (inBlock1 n hn b))
        (by show 0 * 1024 + a.val = m % 4 * 1024 + a.val; omega)
        (by show n * 1024 + b.val = m / 4 * 1024 + b.val; omega))
      p q).trans ?_
    rw [zeroBlock1_apply, zero_add]
    rfl
  | k + 1, n, hk, hn, m, hm, hmk, p, q => by
    have hc : (grid1.coords ⟨m, hm⟩ 1).val = k + 1 := by
      have := (pointFacts1 ⟨m, hm⟩).2.2.2.2.2.2.2.2
      rw [this]; show m % 4 = k + 1; omega
    refine (congrFun (accAt1_next V c ⟨m, hm⟩ (by show ¬ m % 4 = 0; omega)) (ix2 p q)).trans ?_
    refine (accStep1_blockDot (grid1.coords ⟨m, hm⟩) (k + 1) n hc hk hn (iblk1 V c 0 ⟨m, hm⟩) (iblk1 V c 1 ⟨m, hm⟩)
      (accAt1 V c (m - 1) (Nat.lt_of_le_of_lt (Nat.sub_le _ _) hm)) (act1 V c) (mat1 V c)
      (fun y => iblk1_act V c ⟨m, hm⟩ y y rfl rfl)
      (fun a b => iblk1_mat V c ⟨m, hm⟩ (ix2 a b) (ix2 (inBlock1 (k + 1) hk a) (inBlock1 n hn b))
        (by show (k + 1) * 1024 + a.val = m % 4 * 1024 + a.val; omega)
        (by show n * 1024 + b.val = m / 4 * 1024 + b.val; omega))
      p q).trans ?_
    rw [accAt1_entry c k n (by omega) hn (m - 1) (Nat.lt_of_le_of_lt (Nat.sub_le _ _) hm) (by omega) p q]
    rfl

/-! ## What the last K-tile's point writes back, and the array after the region -/

/-- The block stored at the last K-tile's point (n, 3), at entry y: the layer's entry at row y 0 and column
    n·1024 + y 1. -/
theorem outAt1_entry (c : Dev nD) (t : Fin cfg1.N) (ht : t.val % 4 = 3) (y : S1024x1024.Idx) (i : S1024x4096.Idx)
    (hi0 : (i 0).val = (y 0).val) (hi1 : (i 1).val = t.val / 4 * 1024 + (y 1).val) :
    outAt1 V c t y = layer1 V c i := by
  obtain ⟨p, q, rfl⟩ : ∃ (p q : Fin 1024), y = ix2 p q := ⟨y 0, y 1, eq_ix2 y⟩
  have hN : cfg1.N = 16 := N_1
  have hn : t.val / 4 < 4 := by have := t.isLt; omega
  have ei : i = ix2 p (inBlock1 (t.val / 4) hn q) := Shape.idx_ext₂ hi0 hi1
  subst ei
  unfold outAt1
  refine (outBlock1_apply (accAt1 V c t.val t.isLt) (iblk1 V c 2 t) p q).trans ?_
  have ea := accAt1_entry V c 3 (t.val / 4) (by omega) hn t.val t.isLt (by omega) p q
  have eb : (iblk1 V c 2 t : Vec Ideal S1x1024 .f32) (ix2 (0 : Fin 1) q)
      = (V c main_call0_v28 : S1x4096.Idx → EReal) (ix2 (0 : Fin 1) (inBlock1 (t.val / 4) hn q)) :=
    iblk1_bias V c t (ix2 (0 : Fin 1) q) (ix2 (0 : Fin 1) (inBlock1 (t.val / 4) hn q)) rfl
  rw [ea, eb]
  rfl

/-- Grid point t writes back exactly when it is a last K-tile's point, and then its block is the layer's. -/
theorem flushed1_eq (c : Dev nD) (dat : Pipeline.Dat τ (Elt Ideal) Unit ℕ (UR sig nD τ) ℕ cfg1 c)
    (h3 : ∀ t, dat.after 3 t = outAt1 V c t) (t : Fin cfg1.N) (hf : (cfg1.win 3).flush t = true) :
    dat.flushed 3 t = ((cfg1.win 3).blk t).view.read (Elt Ideal) (layer1 V c) := by
  have ht : t.val % 4 = 3 := (flush1_3 t).mp hf
  obtain ⟨-, -, -, -, -, -, e0, e1, -⟩ := pointFacts1 t
  show (cfg1.win 3).cut (grid1.coords t) (dat.after 3 t) = _
  rw [h3]
  funext j
  rw [View.read_apply]
  refine outAt1_entry V c t ht j (((cfg1.win 3).blk t).view.emb j) ?_ ?_
  · show win1_3.index t 0 * 1024 + 1 * (j 0).val = (j 0).val
    rw [e0]; omega
  · show win1_3.index t 1 * 1024 + 1 * (j 1).val = t.val / 4 * 1024 + (j 1).val
    rw [e1]; omega

/-- An entry of the result array is in point t's block iff each coordinate is in the block's range on its axis. -/
theorem mem_outBlock1 (t : Fin cfg1.N) (i : S1024x4096.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_call0_v29).slice (win1_3.rect t)).set ↔ _
  rw [View.set_slice_whole, Rect.mem_set_unit]
  exact Iff.rfl

/-- Every entry (r, j) of the result lies in the block written back at the last K-tile's point of column block
    j / 1024, the point (j / 1024) · 4 + 3. -/
theorem cover1 (i : S1024x4096.Idx) :
    ∃ t : Fin cfg1.N, (cfg1.win 3).flush t = true ∧ i ∈ ((cfg1.win 3).blk t).view.set := by
  have hN : cfg1.N = 16 := N_1
  have hi0 : (i 0).val < 1024 := (i 0).isLt
  have hi1 : (i 1).val < 4096 := (i 1).isLt
  refine ⟨⟨(i 1).val / 1024 * 4 + 3, by omega⟩, (flush1_3 _).mpr (by show ((i 1).val / 1024 * 4 + 3) % 4 = 3; omega), ?_⟩
  obtain ⟨-, -, -, -, -, -, e0, e1, -⟩ := pointFacts1 ⟨(i 1).val / 1024 * 4 + 3, by omega⟩
  rw [mem_outBlock1]
  intro a
  match a with
  | ⟨0, _⟩ =>
    show win1_3.index _ (0 : Fin 2) * 1024 ≤ (i 0).val ∧ (i 0).val < win1_3.index _ (0 : Fin 2) * 1024 + 1024
    rw [e0]; omega
  | ⟨1, _⟩ =>
    show win1_3.index _ (1 : Fin 2) * 1024 ≤ (i 1).val ∧ (i 1).val < win1_3.index _ (1 : Fin 2) * 1024 + 1024
    rw [e1]
    show ((i 1).val / 1024 * 4 + 3) / 4 * 1024 ≤ (i 1).val ∧ (i 1).val < ((i 1).val / 1024 * 4 + 3) / 4 * 1024 + 1024
    omega

/-- THE RESULT ARRAY AFTER THE REGION is the layer, in the kernel's arrangement, of the activations, the matrix and
    the bias row the region finds. -/
theorem arrAt1_value (V : (c : Dev nD) → (b : Ref sig .tc) → Buf (Elt Ideal) ((c : Thread nD τ).loc b)) (c : Dev nD)
    (dat : Pipeline.Dat τ (Elt Ideal) Unit ℕ (UR sig nD τ) ℕ cfg1 c)
    (hA : ∀ w, dat.A w = V c (Pipeline.arrRef spec1 w))
    (h0 : ∀ t, dat.after 0 t = iblk1 V c 0 t) (h1 : ∀ t, dat.after 1 t = iblk1 V c 1 t) (h2 : ∀ t, dat.after 2 t = iblk1 V c 2 t)
    (h3 : ∀ t, dat.after 3 t = outAt1 V c t) :
    dat.arrAt 3 cfg1.N = Cert.Spec.kLayer (nin := 4096) (nout := 4096) 4 (V c main_call0_v27) (V c main_call0_v26)
      (fun j => V c main_call0_v28 (ValueIdx.ix2 (0 : Fin 1) (⟨(j 0).val, (j 0).isLt⟩ : Fin 4096))) :=
  dat.arrAt_eq_of_cover 3 (layer1 V c) (flushed1_eq V c dat h3) cover1

end Cert.KernelIdeal.Hand

end
-- ==== Proof.KI.Val2.lean ====
/-
  The value of the third pallas_call at the ideal instance: what the result array holds when the region ends, as one
  function of the arrays the region finds on entry.

  The grid is 2 × 4: a point t has the column block n = t / 4 (512 columns of the result) and the K-tile k = t % 4
  (1024 positions of the contracted axis, 4096 in all). At the extended reals every operation is exact, so one
  accumulation step adds, entry by entry, the sum over the K-tile's 1024 positions of activation × matrix entry; the
  accumulator after K-tiles 0 … k of column block n therefore holds, at (p, q), the partial dot product of row p of the
  activations with column n·512 + q of the matrix over the first (k + 1)·1024 positions, added tile by tile from the
  left, starting from 0 + (tile 0's sum) = tile 0's sum. The point of the last K-tile adds the bias entry of the column
  and replaces a negative value by zero, and writes the block back; the two column blocks cover the result.
-/
import proofs.«424249_j20555713479227_3_alg».proof.Proof.KI.Acc2
import proofs.«424249_j20555713479227_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## The contraction's operand indices -/

/-- The left operand's row is the result's row. -/
theorem lhs_dot2_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

/-- The left operand's column is the contracted position. -/
theorem lhs_dot2_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q

/-- The right operand's row is the contracted position. -/
theorem rhs_dot2_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q

/-- The right operand's column is the result's column. -/
theorem rhs_dot2_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-! ## The three payloads at an entry -/

/-- The accumulator's reset value is zero everywhere. -/
theorem pay1_apply (p : Fin 1024) (q : Fin 512) : (k2_pay1 (F := Ideal)) (ix2 p q) = 0 := by
  unfold k2_pay1
  simp only [shapeCast_self]
  exact Ideal.ofBits_zero_f32

/-- One accumulation step at (p, q): the accumulator's entry plus the sum, over the K-tile's 1024 positions, of the
    tile's entry in row p times the matrix block's entry in column q. -/
theorem pay2_apply (tile : FVec Ideal S1024x1024 .bf16) (blk : FVec Ideal S1024x512 .f32) (acc : FVec Ideal S1024x512 .f32)
    (p : Fin 1024) (q : Fin 512) :
    k2_pay2 tile blk acc (ix2 p q) = acc (ix2 p q) + ∑ kk : Fin 1024, tile (ix2 p kk) * blk (ix2 kk q) := by
  unfold k2_pay2
  simp only [shapeCast_self]
  refine congrArg (acc (ix2 p q) + ·) ?_
  refine (Ideal.matmul_constant_zero_apply dot_S1024x1024_S1024x512_S1024x512_1_0_0_1_n_n none tile _ (ix2 p q)).trans ?_
  rw [← Equiv.sum_comp (contrEquiv1 dot_S1024x1024_S1024x512_S1024x512_1_0_0_1_n_n 1024 rfl rfl).symm]
  refine Finset.sum_congr rfl fun kk _ => ?_
  have hk := contrEquiv1_symm_val dot_S1024x1024_S1024x512_S1024x512_1_0_0_1_n_n 1024 rfl rfl kk
  have el : dot_S1024x1024_S1024x512_S1024x512_1_0_0_1_n_n.lhsIdx (ix2 p q)
      ((contrEquiv1 dot_S1024x1024_S1024x512_S1024x512_1_0_0_1_n_n 1024 rfl rfl).symm kk) = ix2 p kk :=
    funext fun a => Fin.ext (by
      match a with
      | ⟨0, _⟩ => exact lhs_dot2_0 _ _
      | ⟨1, _⟩ => exact (lhs_dot2_1 _ _).trans hk)
  have er : dot_S1024x1024_S1024x512_S1024x512_1_0_0_1_n_n.rhsIdx (ix2 p q)
      ((contrEquiv1 dot_S1024x1024_S1024x512_S1024x512_1_0_0_1_n_n 1024 rfl rfl).symm kk) = ix2 kk q :=
    funext fun a => Fin.ext (by
      match a with
      | ⟨0, _⟩ => exact (rhs_dot2_0 _ _).trans hk
      | ⟨1, _⟩ => exact rhs_dot2_1 _ _)
  rw [el, er]
  rfl

/-- The stored block at (p, q): the accumulator's entry plus the bias row's entry in column q, a negative value
    replaced by zero. -/
theorem pay3_apply (acc : FVec Ideal S1024x512 .f32) (bias : FVec Ideal S1x512 .f32) (p : Fin 1024) (q : Fin 512) :
    k2_pay3 acc bias (ix2 p q) = max (acc (ix2 p q) + bias (ix2 (0 : Fin 1) q)) 0 := by
  unfold k2_pay3
  simp only [shapeCast_self]
  show max (acc (ix2 p q) + broadcastTo S1024x512 bias _ (ix2 p q)) (Ideal.ofBits .f32 0x00000000#32) = _
  rw [broadcastTo_1b_ab_apply, Ideal.ofBits_zero_f32]

/-! ## The blocks a grid point reads, as entries of the arrays -/

-- what the TensorCore's buffers hold at the moment the region starts
variable (V : (c : Dev nD) → (b : Ref sig .tc) → Buf (Elt Ideal) ((c : Thread nD τ).loc b))

/-- The printed index maps at grid point t, with n = t / 4 the column block and k = t % 4 the K-tile: the activations'
    block index is always (0, 0); the matrix's is (k, n); the bias row's and the result's are (0, n); and the point's
    own coordinates are (n, k). -/
theorem idx2 : ∀ t : Fin cfg2.N,
    win2_0.index t (0 : Fin 2) = 0 ∧ win2_0.index t (1 : Fin 2) = 0
    ∧ win2_1.index t (0 : Fin 2) = t.val % 4 ∧ win2_1.index t (1 : Fin 2) = t.val / 4
    ∧ win2_2.index t (0 : Fin 2) = 0 ∧ win2_2.index t (1 : Fin 2) = t.val / 4
    ∧ win2_3.index t (0 : Fin 2) = 0 ∧ win2_3.index t (1 : Fin 2) = t.val / 4
    ∧ (grid2.coords t 0).val = t.val / 4 ∧ (grid2.coords t 1).val = t.val % 4 :=
  (by decide +kernel : ∀ t : Fin grid2.N, _)

/-- The activations' block at any point is the whole array. -/
theorem iblk2_0_apply (c : Dev nD) (t : Fin cfg2.N) (y : S1024x4096.Idx) :
    (iblk2 V c 0 t : Vec Ideal S1024x4096 .bf16) y = (V c main_call0_v42 : S1024x4096.Idx → Elt Ideal .bf16) y := by
  obtain ⟨e0, e1, -⟩ := idx2 t
  unfold iblk2
  rw [View.read_apply]
  show V c main_call0_v42 _ = V c main_call0_v42 _
  congr 1
  funext a
  apply Fin.ext
  match a with
  | ⟨0, _⟩ => show win2_0.index t (0 : Fin 2) * 1024 + 1 * (y 0).val = (y 0).val; rw [e0]; omega
  | ⟨1, _⟩ => show win2_0.index t (1 : Fin 2) * 4096 + 1 * (y 1).val = (y 1).val; rw [e1]; omega

/-- The matrix's block at point t holds rows k·1024 … and columns n·512 … of the matrix. -/
theorem iblk2_1_apply (c : Dev nD) (t : Fin cfg2.N) (y : S1024x512.Idx) (j : S4096x1024.Idx)
    (h0 : (j 0).val = t.val % 4 * 1024 + (y 0).val) (h1 : (j 1).val = t.val / 4 * 512 + (y 1).val) :
    (iblk2 V c 1 t : Vec Ideal S1024x512 .f32) y = (V c main_call0_v41 : S4096x1024.Idx → Elt Ideal .f32) j := by
  obtain ⟨-, -, e0, e1, -⟩ := idx2 t
  unfold iblk2
  rw [View.read_apply]
  show V c main_call0_v41 _ = V c main_call0_v41 _
  congr 1
  funext a
  apply Fin.ext
  match a with
  | ⟨0, _⟩ => show win2_1.index t (0 : Fin 2) * 1024 + 1 * (y 0).val = (j 0).val; rw [e0, h0]; omega
  | ⟨1, _⟩ => show win2_1.index t (1 : Fin 2) * 512 + 1 * (y 1).val = (j 1).val; rw [e1, h1]; omega

/-- The bias row's block at point t holds columns n·512 … of the bias row. -/
theorem iblk2_2_apply (c : Dev nD) (t : Fin cfg2.N) (y : S1x512.Idx) (j : S1x1024.Idx)
    (h1 : (j 1).val = t.val / 4 * 512 + (y 1).val) :
    (iblk2 V c 2 t : Vec Ideal S1x512 .f32) y = (V c main_call0_v43 : S1x1024.Idx → Elt Ideal .f32) j := by
  obtain ⟨-, -, -, -, e0, e1, -⟩ := idx2 t
  unfold iblk2
  rw [View.read_apply]
  show V c main_call0_v43 _ = V c main_call0_v43 _
  congr 1
  funext a
  apply Fin.ext
  have hy : (y 0).val < 1 := (y 0).isLt
  have hj : (j 0).val < 1 := (j 0).isLt
  match a with
  | ⟨0, _⟩ => show win2_2.index t (0 : Fin 2) * 1 + 1 * (y 0).val = (j 0).val; rw [e0]; omega
  | ⟨1, _⟩ => show win2_2.index t (1 : Fin 2) * 512 + 1 * (y 1).val = (j 1).val; rw [e1, h1]; omega

/-! ## One accumulation step, and the accumulator after every grid point -/

/-- The extent of the grid: 2 column blocks × 4 K-tiles. -/
theorem N2 : cfg2.N = 8 := rfl

/-- One accumulation step at K-tile kb of column block nb, at (p, q): the accumulator's entry gains the dot product of
    row p of the activations with column nb·512 + q of the matrix over the tile's 1024 positions. The activations are
    read at column kb·1024 + kk (reduced modulo 4096, which changes nothing for kb < 4), the matrix block's entry
    (kk, q) is the matrix's entry (kb·1024 + kk, nb·512 + q). -/
theorem accStep2_spec (H : (Cert.Spec.Mat 1024 4096).Idx → EReal) (A : (Cert.Spec.Mat 4096 1024).Idx → EReal)
    (i : grid2.Coords) (x2 : FVec Ideal S1024x4096 .bf16) (x3 : FVec Ideal S1024x512 .f32) (acc : FVec Ideal S1024x512 .f32)
    (kb nb : ℕ) (hkb : kb < 4) (hnb : nb < 2) (hi : (i 1).val = kb)
    (hx2 : ∀ y, x2 y = H y)
    (hx3 : ∀ (kk : Fin 1024) (q : Fin 512),
      x3 (ix2 kk q) = A (ix2 (⟨kb * 1024 + kk.val, by have := kk.isLt; omega⟩ : Fin 4096) (⟨nb * 512 + q.val, by have := q.isLt; omega⟩ : Fin 1024)))
    (p : Fin 1024) (q : Fin 512) :
    (accStep2 (F := Ideal) i x2 x3 acc : FVec Ideal S1024x512 .f32) (ix2 p q)
      = acc (ix2 p q) + Cert.Spec.blockDot (nin := 4096) (nout := 1024) H A (ix2 p (⟨nb * 512 + q.val, by have := q.isLt; omega⟩ : Fin 1024)) kb := by
  subst hi
  unfold accStep2
  refine (pay2_apply (hTile2 (F := Ideal) i x2) x3 acc p q).trans ?_
  refine congrArg (acc (ix2 p q) + ·) ?_
  unfold Cert.Spec.blockDot
  refine Finset.sum_congr rfl fun kk _ => ?_
  have hkk : kk.val < 1024 := kk.isLt
  show x2 (ix2 p (⟨((i 1).val * 1024 + kk.val) % 4096, _⟩ : Fin 4096)) * x3 (ix2 kk q) = _
  rw [hx2, hx3]
  have e : (⟨(i 1).val * 1024 + kk.val, by omega⟩ : Fin 4096) = Cert.Spec.posOf 4096 ((i 1).val * 1024 + kk.val) :=
    Fin.ext (by show (i 1).val * 1024 + kk.val = ((i 1).val * 1024 + kk.val) % 4096; omega)
  rw [e]
  rfl

/-- At the point of a first K-tile the accumulator holds tile 0's dot product (zero plus it). -/
theorem accAt2_first_apply (c : Dev nD) (n : ℕ) (hn : n < cfg2.N) (h0 : n % 4 = 0) (p : Fin 1024) (q : Fin 512) :
    (accAt2 V c n hn : Vec Ideal S1024x512 .f32) (ix2 p q)
      = Cert.Spec.accUpTo (nin := 4096) (nout := 1024) (V c main_call0_v42) (V c main_call0_v41)
          (ix2 p (⟨n / 4 * 512 + q.val, by have := q.isLt; have := N2; omega⟩ : Fin 1024)) (n % 4) := by
  have hN := N2
  obtain ⟨-, -, -, -, -, -, -, -, -, ek⟩ := idx2 ⟨n, hn⟩
  refine (congrFun (accAt2_first V c ⟨n, hn⟩ h0) (ix2 p q)).trans ?_
  refine (accStep2_spec (V c main_call0_v42) (V c main_call0_v41) (grid2.coords ⟨n, hn⟩) (iblk2 V c 0 ⟨n, hn⟩) (iblk2 V c 1 ⟨n, hn⟩)
    (k2_pay1 (F := Ideal)) (n % 4) (n / 4) (Nat.mod_lt _ (by decide)) (by omega) ek
    (fun y => iblk2_0_apply V c ⟨n, hn⟩ y)
    (fun kk q' => iblk2_1_apply V c ⟨n, hn⟩ (ix2 kk q') _ rfl rfl) p q).trans ?_
  rw [pay1_apply, zero_add, h0]
  rfl

/-- THE ACCUMULATOR after grid point n, at (p, q): the dot product of row p of the activations with column
    (n / 4)·512 + q of the matrix over K-tiles 0 … n % 4, added tile by tile from the first. -/
theorem accAt2_apply (c : Dev nD) : ∀ (n : ℕ) (hn : n < cfg2.N) (p : Fin 1024) (q : Fin 512),
    (accAt2 V c n hn : Vec Ideal S1024x512 .f32) (ix2 p q)
      = Cert.Spec.accUpTo (nin := 4096) (nout := 1024) (V c main_call0_v42) (V c main_call0_v41)
          (ix2 p (⟨n / 4 * 512 + q.val, by have := q.isLt; have := N2; omega⟩ : Fin 1024)) (n % 4) := by
  intro n
  induction n with
  | zero => intro hn p q; exact accAt2_first_apply V c 0 hn rfl p q
  | succ m ih =>
    intro hn p q
    by_cases h0 : (m + 1) % 4 = 0
    · exact accAt2_first_apply V c (m + 1) hn h0 p q
    · have hN := N2
      obtain ⟨-, -, -, -, -, -, -, -, -, ek⟩ := idx2 ⟨m + 1, hn⟩
      refine (congrFun (accAt2_next V c ⟨m + 1, hn⟩ h0) (ix2 p q)).trans ?_
      refine (accStep2_spec (V c main_call0_v42) (V c main_call0_v41) (grid2.coords ⟨m + 1, hn⟩) (iblk2 V c 0 ⟨m + 1, hn⟩)
        (iblk2 V c 1 ⟨m + 1, hn⟩) (accAt2 V c m (Nat.lt_of_succ_lt hn)) ((m + 1) % 4) ((m + 1) / 4) (Nat.mod_lt _ (by decide)) (by omega) ek
        (fun y => iblk2_0_apply V c ⟨m + 1, hn⟩ y)
        (fun kk q' => iblk2_1_apply V c ⟨m + 1, hn⟩ (ix2 kk q') _ rfl rfl) p q).trans ?_
      rw [ih (Nat.lt_of_succ_lt hn) p q]
      have hq : q.val < 512 := q.isLt
      have hd : m / 4 = (m + 1) / 4 := by omega
      have hm : (m + 1) % 4 = m % 4 + 1 := by omega
      have ei : (⟨m / 4 * 512 + q.val, by omega⟩ : Fin 1024) = ⟨(m + 1) / 4 * 512 + q.val, by omega⟩ :=
        Fin.ext (by show m / 4 * 512 + q.val = (m + 1) / 4 * 512 + q.val; omega)
      rw [ei, hm]
      rfl

/-! ## What the result array holds when the region ends -/

/-- The layer's value as one function of the three arrays the region finds: entry (r, j) is the dot product of row r of
    the activations with column j of the matrix, accumulated in four K-tiles from the first, plus the bias entry of
    column j, a negative value replaced by zero. -/
abbrev result2 (c : Dev nD) : (Cert.Spec.Mat 1024 1024).Idx → EReal :=
  Cert.Spec.kLayer (nin := 4096) (nout := 1024) 4 (V c main_call0_v42) (V c main_call0_v41)
    (fun j => V c main_call0_v43 (ix2 (0 : Fin 1) (⟨(j 0).val, (j 0).isLt⟩ : Fin 1024)))

/-- The block a point of a last K-tile stores, at entry y: the layer's value at row y 0 and column (t / 4)·512 + y 1. -/
theorem outAt2_apply (c : Dev nD) (t : Fin cfg2.N) (ht : t.val % 4 = 3) (y : S1024x512.Idx) :
    (outAt2 V c t : Vec Ideal S1024x512 .f32) y
      = result2 V c (ix2 (⟨(y 0).val, (y 0).isLt⟩ : Fin 1024)
          (⟨t.val / 4 * 512 + (y 1).val, by have : (y 1).val < 512 := (y 1).isLt; have := t.isLt; have := N2; omega⟩ : Fin 1024)) := by
  obtain ⟨p, q, rfl⟩ : ∃ (p : Fin 1024) (q : Fin 512), y = ix2 p q := ⟨y 0, y 1, eq_ix2 y⟩
  unfold outAt2
  refine (pay3_apply (accAt2 V c t.val t.isLt) (iblk2 V c 2 t) p q).trans ?_
  rw [accAt2_apply V c t.val t.isLt p q,
    iblk2_2_apply V c t (ix2 (0 : Fin 1) q)
      (ix2 (0 : Fin 1) (⟨t.val / 4 * 512 + q.val, by have := q.isLt; have := t.isLt; have := N2; omega⟩ : Fin 1024)) rfl,
    ht]
  rfl

/-- WHAT A POINT OF A LAST K-TILE WRITES BACK is its block of the layer's value: the block of column block n = t / 4
    sits at rows 0 … 1023 and columns n·512 … n·512 + 511 of the result. -/
theorem flushed2_eq (c : Dev nD) (dat : Pipeline.Dat τ (Elt Ideal) Unit ℕ (UR sig nD τ) ℕ cfg2 c)
    (h3 : ∀ t, dat.after 3 t = outAt2 V c t) (t : Fin cfg2.N) (hf : (cfg2.win 3).flush t = true) :
    dat.flushed 3 t = ((cfg2.win 3).blk t).view.read (Elt Ideal) (result2 V c) := by
  have ht : t.val % 4 = 3 := (flush2_3 t).mp hf
  obtain ⟨-, -, -, -, -, -, e0, e1, -⟩ := idx2 t
  show (cfg2.win 3).cut (grid2.coords t) (dat.after 3 t) = _
  rw [h3]
  funext y
  rw [View.read_apply]
  refine (outAt2_apply V c t ht y).trans ?_
  show result2 V c _ = result2 V c _
  congr 1
  funext a
  apply Fin.ext
  match a with
  | ⟨0, _⟩ => show (y 0).val = win2_3.index t (0 : Fin 2) * 1024 + 1 * (y 0).val; rw [e0]; omega
  | ⟨1, _⟩ => show t.val / 4 * 512 + (y 1).val = win2_3.index t (1 : Fin 2) * 512 + 1 * (y 1).val; rw [e1]; omega

/-- Every entry of the result lies in the block of a point that writes back: column j belongs to column block
    n = j / 512, whose last K-tile is point n·4 + 3. -/
theorem cover2 (i : S1024x1024.Idx) :
    ∃ t : Fin cfg2.N, (cfg2.win 3).flush t = true ∧ i ∈ ((cfg2.win 3).blk t).view.set := by
  have hN := N2
  have hi0 : (i 0).val < 1024 := (i 0).isLt
  have hi1 : (i 1).val < 1024 := (i 1).isLt
  obtain ⟨t, ht⟩ : ∃ t : Fin cfg2.N, t.val = (i 1).val / 512 * 4 + 3 := ⟨⟨(i 1).val / 512 * 4 + 3, by omega⟩, rfl⟩
  obtain ⟨-, -, -, -, -, -, e0, e1, -⟩ := idx2 t
  refine ⟨t, (flush2_3 t).mpr (by omega), ?_⟩
  show i ∈ ((View.whole main_v0).slice (win2_3.rect t)).set
  rw [View.set_slice_whole, Rect.mem_set_unit]
  intro a
  match a with
  | ⟨0, _⟩ =>
    show win2_3.index t (0 : Fin 2) * 1024 ≤ (i 0).val ∧ (i 0).val < win2_3.index t (0 : Fin 2) * 1024 + 1024
    rw [e0]; omega
  | ⟨1, _⟩ =>
    show win2_3.index t (1 : Fin 2) * 512 ≤ (i 1).val ∧ (i 1).val < win2_3.index t (1 : Fin 2) * 512 + 512
    rw [e1, ht]; omega

/-- THE RESULT ARRAY after the region: the layer's value, everywhere. Only the result window's blocks matter: the two
    write-backs, at the last K-tile of each column block, write their blocks of one function, and the two blocks cover
    the array. -/
theorem arrAt2_value (V : (c : Dev nD) → (b : Ref sig .tc) → Buf (Elt Ideal) ((c : Thread nD τ).loc b)) (c : Dev nD)
    (dat : Pipeline.Dat τ (Elt Ideal) Unit ℕ (UR sig nD τ) ℕ cfg2 c)
    (hA : ∀ w, dat.A w = V c (Pipeline.arrRef spec2 w))
    (h0 : ∀ t, dat.after 0 t = iblk2 V c 0 t) (h1 : ∀ t, dat.after 1 t = iblk2 V c 1 t) (h2 : ∀ t, dat.after 2 t = iblk2 V c 2 t)
    (h3 : ∀ t, dat.after 3 t = outAt2 V c t) :
    dat.arrAt 3 cfg2.N = Cert.Spec.kLayer (nin := 4096) (nout := 1024) 4 (V c main_call0_v42) (V c main_call0_v41)
      (fun j => V c main_call0_v43 (ValueIdx.ix2 (0 : Fin 1) (⟨(j 0).val, (j 0).isLt⟩ : Fin 1024))) :=
  dat.arrAt_eq_of_cover 3 (result2 V c) (fun t hf => flushed2_eq V c dat h3 t hf) cover2

end Cert.KernelIdeal.Hand

end
-- ==== Proof.KI.Host.lean ====
/-
  What the three stretches of host operations write, at the ideal instance, as functions of the buffers they read.

  Each stretch folds a layer's edge list into a dense matrix: the flat position of edge e is src e * n_out + dst e,
  computed in 32-bit words (no wrap: the ends are in range and n_in * n_out is below 2^31, so the word is its value and
  is not negative, and the wrap-around select keeps it); a vector of n_in * n_out zeros receives the weight of every edge
  at its flat position (the accumulating scatter: an element's value is the sum of the updates that land on it); the
  vector is then read as an n_in × n_out matrix in row-major order, so that entry (i, j) is the element at i * n_out + j:
  the sum of the weights of the edges with src e * n_out + dst e = i * n_out + j. The activations are narrowed to
  bf16, the identity on extended reals, and the bias vector is read as a one-row matrix.
-/
import proofs.«424249_j20555713479227_3_alg».proof.Proof.KernelIdealLaunch
import proofs.«424249_j20555713479227_3_alg».proof.Proof.Spec
import Idealize.ShloMosaic.Lib.StableHlo.Run
import Idealize.ShloMosaic.Lib.ValueIdx
import Idealize.ShloMosaic.Lib.ValueIdxRank1
import Idealize.ShloMosaic.Lib.IdealHost
import Idealize.ShloMosaic.Lib.Pipeline.Value
import Idealize.ShloMosaic.Lib.ValueLayout
import Idealize.ShloMosaic.Lib.StableHlo.Predicate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.StableHlo (TRef)

/-! ## The accumulating scatter into a flat vector, read at an element -/

/-- The dimension numbers of a scatter of E updates into a flat vector of length N, the start indices an [E × 1] column:
    no window axes, the operand's one axis inserted and start-indexed, the index vector on axis 1. -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e lands on element f exactly when its start index, read signed, is f. -/
theorem flatScatter_resultIdx {N E w : Nat} (wf : ScatterDims.WF ⟨1, ![N]⟩ ⟨2, ![E, 1]⟩ ⟨1, ![E]⟩ [] [0] [0] 1)
    (idx : IVec ⟨2, ![E, 1]⟩ w) (e : Fin E) (f : Fin N) :
    (flatScatter N E wf).resultIdx? (ix1 e) idx = some (ix1 f) ↔ (idx (ix2 e 0)).toInt = (f.val : Int) := by
  have hmem : (0 : Fin 1) ∈ (flatScatter N E wf).scatterDimsToOperandDims := List.mem_singleton.mpr rfl
  have hst : (flatScatter N E wf).start (ix1 e) idx 0 = (idx (ix2 e 0)).toInt := by
    unfold ScatterDims.start
    rw [dif_pos hmem]
    congr 2
    funext b
    refine Fin.ext ?_
    match b with
    | ⟨0, _⟩ => rfl
    | ⟨1, _⟩ => rfl
  have hwin : (flatScatter N E wf).window (ix1 e) 0 = 0 := by
    have hk : (0 : Fin 1) ∉ (flatScatter N E wf).sKept := by
      show (0 : Fin 1) ∉ (List.finRange 1).filter (fun a => a ∉ [(0 : Fin 1)])
      decide
    unfold ScatterDims.window
    rw [dif_neg hk]
  have hall : ∀ a : Fin 1, (flatScatter N E wf).start (ix1 e) idx a + ((flatScatter N E wf).window (ix1 e) a : Int)
      = (idx (ix2 e 0)).toInt := by
    intro a
    obtain rfl : a = 0 := Subsingleton.elim _ _
    rw [hst, hwin]; simp
  unfold ScatterDims.resultIdx?
  constructor
  · intro h
    split at h
    · next hc =>
      have h1 := congrArg Fin.val (congrFun (Option.some.inj h) 0)
      have h0 := (hc 0).1
      rw [hall] at h0
      change ((flatScatter N E wf).start (ix1 e) idx 0 + ((flatScatter N E wf).window (ix1 e) 0 : Int)).toNat = f.val at h1
      rw [hall] at h1
      omega
    · exact absurd h (by simp)
  · intro h
    have hc : ∀ a : Fin 1, 0 ≤ (flatScatter N E wf).start (ix1 e) idx a + ((flatScatter N E wf).window (ix1 e) a : Int)
        ∧ (flatScatter N E wf).start (ix1 e) idx a + ((flatScatter N E wf).window (ix1 e) a : Int)
          < (⟨1, ![N]⟩ : Shape).size a := by
      intro a
      rw [hall a, h]
      obtain rfl : a = 0 := Subsingleton.elim _ _
      have := f.isLt
      refine ⟨by omega, ?_⟩
      show (f.val : Int) < (N : Int)
      omega
    rw [dif_pos hc]
    congr 1
    funext a
    obtain rfl : a = 0 := Subsingleton.elim _ _
    refine Fin.ext ?_
    show ((flatScatter N E wf).start (ix1 e) idx 0 + ((flatScatter N E wf).window (ix1 e) 0 : Int)).toNat = f.val
    rw [hall, h]
    simp

/-- The scatter of the updates into a vector of zeros, at element f: the sum of the updates whose start index is f. -/
theorem flatScatter_zero_apply {N E w : Nat} (wf : ScatterDims.WF ⟨1, ![N]⟩ ⟨2, ![E, 1]⟩ ⟨1, ![E]⟩ [] [0] [0] 1)
    (x : (⟨1, ![N]⟩ : Shape).Idx → EReal) (hx : ∀ i, x i = 0)
    (idx : IVec ⟨2, ![E, 1]⟩ w) (upd : (⟨1, ![E]⟩ : Shape).Idx → EReal) (f : Fin N) :
    Ideal.hostScatterAdd (flatScatter N E wf) x idx upd (ix1 f)
      = ∑ e ∈ Finset.univ.filter (fun e : Fin E => (idx (ix2 e 0)).toInt = (f.val : Int)), upd (ix1 e) := by
  unfold Ideal.hostScatterAdd
  rw [hx, zero_add]
  refine Finset.sum_equiv idxEquiv1 ?_ ?_
  · intro j
    rw [Finset.mem_filter, Finset.mem_filter]
    have hj : j = ix1 (idxEquiv1 j) := eq_ix1 j
    constructor
    · rintro ⟨_, h⟩
      rw [hj] at h
      exact ⟨Finset.mem_univ _, (flatScatter_resultIdx wf idx _ f).mp h⟩
    · rintro ⟨_, h⟩
      refine ⟨Finset.mem_univ _, ?_⟩
      rw [hj]
      exact (flatScatter_resultIdx wf idx _ f).mpr h
  · intro j _
    exact congrArg upd (eq_ix1 j)

/-! ## The flat position as a 32-bit word -/

/-- With the ends in range and n_in * n_out below 2^31, the word src * n_out + dst is its value. -/
theorem flat_toNat {nin nout : Nat} (hno : nout < 2 ^ 32) (hb : nin * nout < 2 ^ 31) (s d : BitVec 32)
    (hs : s.toNat < nin) (hd : d.toNat < nout) :
    (IntOp.addi (IntOp.muli s (BitVec.ofNat 32 nout)) d).toNat = s.toNat * nout + d.toNat := by
  have h2 : (s.toNat + 1) * nout ≤ nin * nout := Nat.mul_le_mul_right _ hs
  rw [Nat.add_mul, Nat.one_mul] at h2
  show (s * BitVec.ofNat 32 nout + d).toNat = _
  rw [BitVec.toNat_add, BitVec.toNat_mul, BitVec.toNat_ofNat, Nat.mod_eq_of_lt hno,
    Nat.mod_eq_of_lt (a := s.toNat * nout) (by omega), Nat.mod_eq_of_lt (by omega)]

/-- That word is not negative as a signed number, so the wrap-around select (word < 0 → word + n_in * n_out) keeps it. -/
theorem flat_select {nin nout : Nat} (hno : nout < 2 ^ 32) (hb : nin * nout < 2 ^ 31) (s d : BitVec 32)
    (hs : s.toNat < nin) (hd : d.toNat < nout) (alt : BitVec 32) :
    Scalar.select (IntOp.cmpi .slt (IntOp.addi (IntOp.muli s (BitVec.ofNat 32 nout)) d) 0#32) alt
        (IntOp.addi (IntOp.muli s (BitVec.ofNat 32 nout)) d)
      = IntOp.addi (IntOp.muli s (BitVec.ofNat 32 nout)) d := by
  have h2 : (s.toNat + 1) * nout ≤ nin * nout := Nat.mul_le_mul_right _ hs
  rw [Nat.add_mul, Nat.one_mul] at h2
  have hv := flat_toNat hno hb s d hs hd
  have hne : ¬ IntOp.cmpi .slt (IntOp.addi (IntOp.muli s (BitVec.ofNat 32 nout)) d) 0#32 = 1#1 := by
    rw [StableHlo.Predicate.slt_iff_toNat (by omega) (by decide)]
    simp
  rw [eq_zero_of_ne_one hne, select_zero]

/-- Its signed reading is its value. -/
theorem flat_toInt {nin nout : Nat} (hno : nout < 2 ^ 32) (hb : nin * nout < 2 ^ 31) (s d : BitVec 32)
    (hs : s.toNat < nin) (hd : d.toNat < nout) :
    (IntOp.addi (IntOp.muli s (BitVec.ofNat 32 nout)) d).toInt = ((s.toNat * nout + d.toNat : Nat) : Int) := by
  have h2 : (s.toNat + 1) * nout ≤ nin * nout := Nat.mul_le_mul_right _ hs
  rw [Nat.add_mul, Nat.one_mul] at h2
  have hv := flat_toNat hno hb s d hs hd
  rw [StableHlo.Predicate.toInt_eq_toNat_of_lt (by omega), hv]

/-! ## The start indices the operations compute, read at an edge -/

/-- The [E × 1] column of start indices — the flat position src * n_out + dst, the wrap-around select applied, laid as a
    column — read at edge e is the word src e * n_out + dst e: with the ends in range the select keeps it. -/
theorem flat_idx_read {E : Nat} (h0 : (⟨0, ![]⟩ : Shape).BroadcastsInDim ⟨1, ![E]⟩ ![])
    (h1 : (⟨1, ![E]⟩ : Shape).BroadcastsInDim ⟨2, ![E, 1]⟩ ![0]) {nin nout : Nat} (hno : nout < 2 ^ 32)
    (hb : nin * nout < 2 ^ 31) (nn : BitVec 32) (src dst : IVec ⟨1, ![E]⟩ 32)
    (hs : ∀ e, (src e).toNat < nin) (hd : ∀ e, (dst e).toNat < nout) (e : Fin E) :
    broadcastInDim ⟨2, ![E, 1]⟩ ![0] h1
        (select
          (cmpi .slt (addi (muli src (broadcastInDim ⟨1, ![E]⟩ ![] h0 (constantI ⟨0, ![]⟩ 32 (BitVec.ofNat 32 nout)))) dst)
            (broadcastInDim ⟨1, ![E]⟩ ![] h0 (constantI ⟨0, ![]⟩ 32 0#32)))
          (addi (addi (muli src (broadcastInDim ⟨1, ![E]⟩ ![] h0 (constantI ⟨0, ![]⟩ 32 (BitVec.ofNat 32 nout)))) dst)
            (broadcastInDim ⟨1, ![E]⟩ ![] h0 (constantI ⟨0, ![]⟩ 32 nn)))
          (addi (muli src (broadcastInDim ⟨1, ![E]⟩ ![] h0 (constantI ⟨0, ![]⟩ 32 (BitVec.ofNat 32 nout)))) dst))
        (ix2 e 0)
      = IntOp.addi (IntOp.muli (src (ix1 e)) (BitVec.ofNat 32 nout)) (dst (ix1 e)) := by
  rw [broadcastInDim_apply (k := ix1 e) (hk := by
    intro a
    obtain rfl : a = 0 := Subsingleton.elim _ _
    by_cases h : (⟨1, ![E]⟩ : Shape).size 0 = 1
    · rw [if_pos h]
      have := e.isLt
      change E = 1 at h
      show e.val = 0
      omega
    · rw [if_neg h]
      rfl)]
  rw [select_apply]
  show Scalar.select
      (IntOp.cmpi .slt (IntOp.addi (IntOp.muli (src (ix1 e))
          (broadcastInDim ⟨1, ![E]⟩ ![] h0 (constantI ⟨0, ![]⟩ 32 (BitVec.ofNat 32 nout)) (ix1 e))) (dst (ix1 e)))
        (broadcastInDim ⟨1, ![E]⟩ ![] h0 (constantI ⟨0, ![]⟩ 32 0#32) (ix1 e)))
      (IntOp.addi (IntOp.addi (IntOp.muli (src (ix1 e))
          (broadcastInDim ⟨1, ![E]⟩ ![] h0 (constantI ⟨0, ![]⟩ 32 (BitVec.ofNat 32 nout)) (ix1 e))) (dst (ix1 e)))
        (broadcastInDim ⟨1, ![E]⟩ ![] h0 (constantI ⟨0, ![]⟩ 32 nn) (ix1 e)))
      (IntOp.addi (IntOp.muli (src (ix1 e))
          (broadcastInDim ⟨1, ![E]⟩ ![] h0 (constantI ⟨0, ![]⟩ 32 (BitVec.ofNat 32 nout)) (ix1 e))) (dst (ix1 e))) = _
  rw [broadcastInDim_scalar_apply, broadcastInDim_scalar_apply]
  exact flat_select hno hb (src (ix1 e)) (dst (ix1 e)) (hs _) (hd _) _

/-! ## The dense matrix of a layer -/

/-- The scatter of the weights into N = n_in * n_out zeros at the flat positions, read as an n_in × n_out matrix in row-major
    order, is the edge list folded into a dense matrix. -/
theorem adj_read {N E nin nout : Nat} (hN : N = nin * nout) (hno : nout < 2 ^ 32) (hb : nin * nout < 2 ^ 31)
    (wf : ScatterDims.WF ⟨1, ![N]⟩ ⟨2, ![E, 1]⟩ ⟨1, ![E]⟩ [] [0] [0] 1)
    (hc : (⟨1, ![N]⟩ : Shape).ShapeCasts ⟨2, ![nin, nout]⟩)
    (x : (⟨1, ![N]⟩ : Shape).Idx → EReal) (hx : ∀ i, x i = 0)
    (idx : IVec ⟨2, ![E, 1]⟩ 32) (src dst : (⟨1, ![E]⟩ : Shape).Idx → BitVec 32) (w : (⟨1, ![E]⟩ : Shape).Idx → EReal)
    (hs : ∀ e, (src e).toNat < nin) (hd : ∀ e, (dst e).toNat < nout)
    (hidx : ∀ e : Fin E, idx (ix2 e 0) = IntOp.addi (IntOp.muli (src (ix1 e)) (BitVec.ofNat 32 nout)) (dst (ix1 e)))
    (i : (⟨2, ![nin, nout]⟩ : Shape).Idx) :
    shapeCast ⟨2, ![nin, nout]⟩ (Ideal.hostScatterAdd (flatScatter N E wf) x idx w) hc i
      = ∑ e ∈ Finset.univ.filter (fun e : Fin E =>
          (src (ix1 e)).toNat * nout + (dst (ix1 e)).toNat = (i 0).val * nout + (i 1).val), w (ix1 e) := by
  have hi0 := idx2_lt0 i
  have hi1 := idx2_lt1 i
  have h2 : ((i 0).val + 1) * nout ≤ nin * nout := Nat.mul_le_mul_right _ hi0
  rw [Nat.add_mul, Nat.one_mul] at h2
  have hlt : (i 0).val * nout + (i 1).val < N := by omega
  rw [shapeCast_apply (k := ix1 ⟨(i 0).val * nout + (i 1).val, hlt⟩) (hk := by
    rw [Shape.rowMajor_val_one, Shape.rowMajor_val_two]
    rfl)]
  rw [flatScatter_zero_apply wf x hx]
  refine Finset.sum_congr (Finset.filter_congr fun e _ => ?_) fun _ _ => rfl
  rw [hidx e, flat_toInt hno hb _ _ (hs _) (hd _)]
  exact Nat.cast_inj

/-! ## The three stretches -/

local notation "⌜" r "⌝" => (Proc.devRef (Proc.tc : Proc τ) r : DevRef τ sig)

/-- The start indices as a stretch's operations compute them from the edge ends: the flat position src * n_out + dst,
    the wrap-around select (position < 0 → position + n_in * n_out), laid as an [E × 1] column. -/
abbrev flatIdx (nout nn : BitVec 32) (src dst : IVec S131072 32) : IVec S131072x1 32 :=
  broadcastInDim S131072x1 ![0] bcast_S131072_S131072x1_0
    (select
      (cmpi .slt (addi (muli src (broadcastInDim S131072 ![] bcast_S_S131072 (constantI S_ 32 nout))) dst)
        (broadcastInDim S131072 ![] bcast_S_S131072 (constantI S_ 32 0#32)))
      (addi (addi (muli src (broadcastInDim S131072 ![] bcast_S_S131072 (constantI S_ 32 nout))) dst)
        (broadcastInDim S131072 ![] bcast_S_S131072 (constantI S_ 32 nn)))
      (addi (muli src (broadcastInDim S131072 ![] bcast_S_S131072 (constantI S_ 32 nout))) dst))

/-! ## Stretch 0: layer 2048 → 4096 -/

/-- The matrix stretch 0 writes is the layer's edge list folded into a dense matrix. -/
theorem host0_A (W : Valuation τ sig (Elt Ideal)) (hs : ∀ e, ((W ⌜main_arg1⌝) e).toNat < 2048)
    (hd : ∀ e, ((W ⌜main_arg2⌝) e).toNat < 4096) :
    StableHlo.after (hostOps0 (F := Ideal)) W ⌜main_call0_v11⌝
      = Cert.Spec.adj (nin := 2048) (nout := 4096) (W ⌜main_arg1⌝) (W ⌜main_arg2⌝) (W ⌜main_arg3⌝) := by
  have e : (StableHlo.after (hostOps0 (F := Ideal)) W ⌜main_call0_v11⌝ : S2048x4096.Idx → EReal)
      = shapeCast S2048x4096
          (Host.scatterAdd scatter_S8388608_S131072x1_S131072_n_0_0_1
            (broadcastInDim S8388608 ![] bcast_S_S8388608 (constant (F := Ideal) S_ .f32 0x00000000#32))
            (flatIdx 4096#32 8388608#32 (W ⌜main_arg1⌝) (W ⌜main_arg2⌝)) (W ⌜main_arg3⌝))
          shapeCasts_S8388608_S2048x4096 := by
    after_results_simp
    rfl
  refine e.trans ?_
  funext i
  exact adj_read (N := 8388608) (E := 131072) (nin := 2048) (nout := 4096) rfl (by norm_num) (by norm_num)
    scatter_S8388608_S131072x1_S131072_n_0_0_1_wf shapeCasts_S8388608_S2048x4096
    (broadcastInDim S8388608 ![] bcast_S_S8388608 (constant (F := Ideal) S_ .f32 0x00000000#32))
    (fun j => by rw [broadcastInDim_scalar_apply, constant_apply, Ideal.ofBits_zero_f32])
    (flatIdx 4096#32 8388608#32 (W ⌜main_arg1⌝) (W ⌜main_arg2⌝)) (W ⌜main_arg1⌝) (W ⌜main_arg2⌝) (W ⌜main_arg3⌝) hs hd
    (fun e => flat_idx_read bcast_S_S131072 bcast_S131072_S131072x1_0 (by norm_num) (by norm_num) _ _ _ hs hd e) i

/-- The activations stretch 0 hands on are the ones it read: the narrowing to bf16 is the identity on extended reals. -/
theorem host0_h (W : Valuation τ sig (Elt Ideal)) :
    (StableHlo.after (hostOps0 (F := Ideal)) W ⌜main_call0_v12⌝ : S1024x2048.Idx → EReal) = W ⌜main_arg0⌝ := by
  after_results_simp
  rfl

/-- The bias row stretch 0 writes is the bias vector: entry (0, j) is entry j. -/
theorem host0_b (W : Valuation τ sig (Elt Ideal)) :
    (StableHlo.after (hostOps0 (F := Ideal)) W ⌜main_call0_v13⌝ : S1x4096.Idx → EReal)
      = fun i => W ⌜main_arg4⌝ (ix1 (⟨(i 1).val, (i 1).isLt⟩ : Fin 4096)) := by
  have e : (StableHlo.after (hostOps0 (F := Ideal)) W ⌜main_call0_v13⌝ : S1x4096.Idx → EReal)
      = shapeCast S1x4096 (W ⌜main_arg4⌝ : S4096.Idx → EReal) shapeCasts_S4096_S1x4096 := by
    after_results_simp
    rfl
  refine e.trans ?_
  funext i
  exact shapeCast_apply (s := S4096) (t := S1x4096) _ _ i (ix1 (⟨(i 1).val, (i 1).isLt⟩ : Fin 4096)) (by
    rw [Shape.rowMajor_val_one, Shape.rowMajor_val_two]
    have h0 : (i 0).val < 1 := idx2_lt0 i
    show (i 1).val = (i 0).val * 4096 + (i 1).val
    omega)

/-! ## Stretch 1: layer 4096 → 4096 -/

/-- The matrix stretch 1 writes is the layer's edge list folded into a dense matrix. -/
theorem host1_A (W : Valuation τ sig (Elt Ideal)) (hs : ∀ e, ((W ⌜main_arg5⌝) e).toNat < 4096)
    (hd : ∀ e, ((W ⌜main_arg6⌝) e).toNat < 4096) :
    StableHlo.after (hostOps1 (F := Ideal)) W ⌜main_call0_v26⌝
      = Cert.Spec.adj (nin := 4096) (nout := 4096) (W ⌜main_arg5⌝) (W ⌜main_arg6⌝) (W ⌜main_arg7⌝) := by
  have e : (StableHlo.after (hostOps1 (F := Ideal)) W ⌜main_call0_v26⌝ : S4096x4096.Idx → EReal)
      = shapeCast S4096x4096
          (Host.scatterAdd scatter_S16777216_S131072x1_S131072_n_0_0_1
            (broadcastInDim S16777216 ![] bcast_S_S16777216 (constant (F := Ideal) S_ .f32 0x00000000#32))
            (flatIdx 4096#32 16777216#32 (W ⌜main_arg5⌝) (W ⌜main_arg6⌝)) (W ⌜main_arg7⌝))
          shapeCasts_S16777216_S4096x4096 := by
    after_results_simp
    rfl
  refine e.trans ?_
  funext i
  exact adj_read (N := 16777216) (E := 131072) (nin := 4096) (nout := 4096) rfl (by norm_num) (by norm_num)
    scatter_S16777216_S131072x1_S131072_n_0_0_1_wf shapeCasts_S16777216_S4096x4096
    (broadcastInDim S16777216 ![] bcast_S_S16777216 (constant (F := Ideal) S_ .f32 0x00000000#32))
    (fun j => by rw [broadcastInDim_scalar_apply, constant_apply, Ideal.ofBits_zero_f32])
    (flatIdx 4096#32 16777216#32 (W ⌜main_arg5⌝) (W ⌜main_arg6⌝)) (W ⌜main_arg5⌝) (W ⌜main_arg6⌝) (W ⌜main_arg7⌝) hs hd
    (fun e => flat_idx_read bcast_S_S131072 bcast_S131072_S131072x1_0 (by norm_num) (by norm_num) _ _ _ hs hd e) i

/-- The activations stretch 1 hands on are the ones it read: the narrowing to bf16 is the identity on extended reals. -/
theorem host1_h (W : Valuation τ sig (Elt Ideal)) :
    (StableHlo.after (hostOps1 (F := Ideal)) W ⌜main_call0_v27⌝ : S1024x4096.Idx → EReal) = W ⌜main_call0_v14⌝ := by
  after_results_simp
  rfl

/-- The bias row stretch 1 writes is the bias vector: entry (0, j) is entry j. -/
theorem host1_b (W : Valuation τ sig (Elt Ideal)) :
    (StableHlo.after (hostOps1 (F := Ideal)) W ⌜main_call0_v28⌝ : S1x4096.Idx → EReal)
      = fun i => W ⌜main_arg8⌝ (ix1 (⟨(i 1).val, (i 1).isLt⟩ : Fin 4096)) := by
  have e : (StableHlo.after (hostOps1 (F := Ideal)) W ⌜main_call0_v28⌝ : S1x4096.Idx → EReal)
      = shapeCast S1x4096 (W ⌜main_arg8⌝ : S4096.Idx → EReal) shapeCasts_S4096_S1x4096 := by
    after_results_simp
    rfl
  refine e.trans ?_
  funext i
  exact shapeCast_apply (s := S4096) (t := S1x4096) _ _ i (ix1 (⟨(i 1).val, (i 1).isLt⟩ : Fin 4096)) (by
    rw [Shape.rowMajor_val_one, Shape.rowMajor_val_two]
    have h0 : (i 0).val < 1 := idx2_lt0 i
    show (i 1).val = (i 0).val * 4096 + (i 1).val
    omega)

/-! ## Stretch 2: layer 4096 → 1024 -/

/-- The matrix stretch 2 writes is the layer's edge list folded into a dense matrix. -/
theorem host2_A (W : Valuation τ sig (Elt Ideal)) (hs : ∀ e, ((W ⌜main_arg9⌝) e).toNat < 4096)
    (hd : ∀ e, ((W ⌜main_arg10⌝) e).toNat < 1024) :
    StableHlo.after (hostOps2 (F := Ideal)) W ⌜main_call0_v41⌝
      = Cert.Spec.adj (nin := 4096) (nout := 1024) (W ⌜main_arg9⌝) (W ⌜main_arg10⌝) (W ⌜main_arg11⌝) := by
  have e : (StableHlo.after (hostOps2 (F := Ideal)) W ⌜main_call0_v41⌝ : S4096x1024.Idx → EReal)
      = shapeCast S4096x1024
          (Host.scatterAdd scatter_S4194304_S131072x1_S131072_n_0_0_1
            (broadcastInDim S4194304 ![] bcast_S_S4194304 (constant (F := Ideal) S_ .f32 0x00000000#32))
            (flatIdx 1024#32 4194304#32 (W ⌜main_arg9⌝) (W ⌜main_arg10⌝)) (W ⌜main_arg11⌝))
          shapeCasts_S4194304_S4096x1024 := by
    after_results_simp
    rfl
  refine e.trans ?_
  funext i
  exact adj_read (N := 4194304) (E := 131072) (nin := 4096) (nout := 1024) rfl (by norm_num) (by norm_num)
    scatter_S4194304_S131072x1_S131072_n_0_0_1_wf shapeCasts_S4194304_S4096x1024
    (broadcastInDim S4194304 ![] bcast_S_S4194304 (constant (F := Ideal) S_ .f32 0x00000000#32))
    (fun j => by rw [broadcastInDim_scalar_apply, constant_apply, Ideal.ofBits_zero_f32])
    (flatIdx 1024#32 4194304#32 (W ⌜main_arg9⌝) (W ⌜main_arg10⌝)) (W ⌜main_arg9⌝) (W ⌜main_arg10⌝) (W ⌜main_arg11⌝) hs hd
    (fun e => flat_idx_read bcast_S_S131072 bcast_S131072_S131072x1_0 (by norm_num) (by norm_num) _ _ _ hs hd e) i

/-- The activations stretch 2 hands on are the ones it read: the narrowing to bf16 is the identity on extended reals. -/
theorem host2_h (W : Valuation τ sig (Elt Ideal)) :
    (StableHlo.after (hostOps2 (F := Ideal)) W ⌜main_call0_v42⌝ : S1024x4096.Idx → EReal) = W ⌜main_call0_v29⌝ := by
  after_results_simp
  rfl

/-- The bias row stretch 2 writes is the bias vector: entry (0, j) is entry j. -/
theorem host2_b (W : Valuation τ sig (Elt Ideal)) :
    (StableHlo.after (hostOps2 (F := Ideal)) W ⌜main_call0_v43⌝ : S1x1024.Idx → EReal)
      = fun i => W ⌜main_arg12⌝ (ix1 (⟨(i 1).val, (i 1).isLt⟩ : Fin 1024)) := by
  have e : (StableHlo.after (hostOps2 (F := Ideal)) W ⌜main_call0_v43⌝ : S1x1024.Idx → EReal)
      = shapeCast S1x1024 (W ⌜main_arg12⌝ : S1024.Idx → EReal) shapeCasts_S1024_S1x1024 := by
    after_results_simp
    rfl
  refine e.trans ?_
  funext i
  exact shapeCast_apply (s := S1024) (t := S1x1024) _ _ i (ix1 (⟨(i 1).val, (i 1).isLt⟩ : Fin 1024)) (by
    rw [Shape.rowMajor_val_one, Shape.rowMajor_val_two]
    have h0 : (i 0).val < 1 := idx2_lt0 i
    show (i 1).val = (i 0).val * 1024 + (i 1).val
    omega)

end Cert.KernelIdeal.Hand

end
-- ==== Proof.SpecLaw.lean ====
/-
  The law that joins the two arrangements of a layer (Spec.lean): the kernel's dense-matrix form over the folded edge
  list is the reference's edge-by-edge form, for finite activations and weights and in-range edges; and a layer of
  finite data is finite, so the law applies again at the next layer.
-/
import proofs.«424249_j20555713479227_3_alg».proof.Proof.Spec

noncomputable section

open scoped BigOperators

namespace Cert.Spec

open Idealize.ShloMosaic Idealize.ShloMosaic.ValueIdx

variable {nin nout : Nat}

/-! ## The contraction, tile by tile, is the sum over the whole contracted axis -/

/-- A position below the extent is read as itself. -/
theorem posOf_val [NeZero nin] (p : Fin nin) : posOf nin p.val = p :=
  Fin.ext (Nat.mod_eq_of_lt p.isLt)

/-- One tile's product, as a sum over the 1024 offsets inside the tile. -/
theorem blockDot_eq_range [NeZero nin] (h : (Mat 1024 nin).Idx → EReal) (A : (Mat nin nout).Idx → EReal)
    (i : (Mat 1024 nout).Idx) (kb : Nat) :
    blockDot h A i kb = ∑ x ∈ Finset.range 1024,
      h (ix2 (i 0) (posOf nin (kb * 1024 + x))) * A (ix2 (posOf nin (kb * 1024 + x)) (i 1)) :=
  Fin.sum_univ_eq_sum_range
    (fun x => h (ix2 (i 0) (posOf nin (kb * 1024 + x))) * A (ix2 (posOf nin (kb * 1024 + x)) (i 1))) 1024

/-- The accumulator after tiles 0 … n is the sum over the first (n + 1) * 1024 positions. -/
theorem accUpTo_eq_range [NeZero nin] (h : (Mat 1024 nin).Idx → EReal) (A : (Mat nin nout).Idx → EReal)
    (i : (Mat 1024 nout).Idx) (n : Nat) :
    accUpTo h A i n = ∑ k ∈ Finset.range ((n + 1) * 1024),
      h (ix2 (i 0) (posOf nin k)) * A (ix2 (posOf nin k) (i 1)) := by
  induction n with
  | zero =>
    rw [accUpTo, blockDot_eq_range]
    simp only [Nat.zero_mul, Nat.zero_add, Nat.one_mul]
  | succ n ih =>
    rw [accUpTo, ih, blockDot_eq_range, show (n + 1 + 1) * 1024 = (n + 1) * 1024 + 1024 by ring,
      Finset.sum_range_add]

/-- With all KB tiles taken, the accumulator is the product of row r of h with column j of A. -/
theorem accUpTo_full [NeZero nin] (KB : Nat) (hKB : 0 < KB) (hnin : nin = KB * 1024)
    (h : (Mat 1024 nin).Idx → EReal) (A : (Mat nin nout).Idx → EReal) (i : (Mat 1024 nout).Idx) :
    accUpTo h A i (KB - 1) = ∑ p : Fin nin, h (ix2 (i 0) p) * A (ix2 p (i 1)) := by
  rw [accUpTo_eq_range, show (KB - 1 + 1) * 1024 = nin by omega]
  exact (Fin.sum_univ_eq_sum_range
    (fun k => h (ix2 (i 0) (posOf nin k)) * A (ix2 (posOf nin k) (i 1))) nin).symm.trans
    (Finset.sum_congr rfl fun p _ => by rw [posOf_val])

/-! ## The folded edge list, entry by entry -/

/-- Flat positions with in-range remainders agree exactly when quotient and remainder agree. -/
theorem flat_eq_iff {n s d p j : Nat} (hd : d < n) (hj : j < n) :
    s * n + d = p * n + j ↔ s = p ∧ d = j := by
  constructor
  · intro h
    have hdj : d = j := by
      have h2 := congrArg (· % n) h
      simpa only [Nat.mul_add_mod_of_lt hd, Nat.mul_add_mod_of_lt hj] using h2
    subst hdj
    have h3 : s * n = p * n := Nat.add_right_cancel h
    exact ⟨Nat.eq_of_mul_eq_mul_right (by omega) h3, rfl⟩
  · rintro ⟨rfl, rfl⟩; rfl

/-- Entry (p, j) of the folded edge list collects the weights of the edges from p to j. -/
theorem adj_eq (src dst : (Vc NE).Idx → BitVec 32) (w : (Vc NE).Idx → EReal)
    (hdst : ∀ e, (dst e).toNat < nout) (p : Fin nin) (j : Fin nout) :
    adj (nin := nin) (nout := nout) src dst w (ix2 p j)
      = ∑ e ∈ Finset.univ.filter (fun e : Fin NE =>
          (src (ix1 e)).toNat = p.val ∧ (dst (ix1 e)).toNat = j.val), w (ix1 e) := by
  unfold adj
  refine Finset.sum_congr ?_ fun _ _ => rfl
  ext e
  simp only [Finset.mem_filter, Finset.mem_univ, true_and]
  exact flat_eq_iff (hdst _) j.isLt

/-! ## The double sum collapses (over the reals, where multiplication distributes) -/

/-- The coercion of a finite real sum is the sum of the coercions. -/
theorem coe_sum {ι : Type*} (s : Finset ι) (f : ι → ℝ) :
    ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- Every edge has exactly one source position, so summing row entries against per-position edge sums is the
    sum over the edges. -/
theorem real_core {N M : Nat} [NeZero N] (hr : Fin N → ℝ) (wr : Fin M → ℝ) (S D : Fin M → Nat)
    (hS : ∀ e, S e < N) (j : Nat) :
    ∑ p : Fin N, hr p * ∑ e ∈ Finset.univ.filter (fun e : Fin M => S e = p.val ∧ D e = j), wr e
      = ∑ e ∈ Finset.univ.filter (fun e : Fin M => D e = j),
          hr ⟨S e % N, Nat.mod_lt _ (NeZero.pos N)⟩ * wr e := by
  simp only [Finset.mul_sum, Finset.sum_filter]
  rw [Finset.sum_comm]
  refine Finset.sum_congr rfl fun e _ => ?_
  have hmod : S e % N = S e := Nat.mod_eq_of_lt (hS e)
  by_cases hD : D e = j
  · simp only [hD, and_true, if_true]
    rw [Finset.sum_eq_single (⟨S e % N, Nat.mod_lt _ (NeZero.pos N)⟩ : Fin N)]
    · rw [if_pos hmod.symm]
    · intro p _ hp
      rw [if_neg (fun h => hp (Fin.ext (h.symm.trans hmod.symm))), mul_zero]
    · intro h
      exact absurd (Finset.mem_univ _) h
  · simp only [hD, and_false, if_false, mul_zero, Finset.sum_const_zero]

/-- The same collapse, read in the extended reals on real data. -/
theorem ereal_core {N M : Nat} [NeZero N] (hr : Fin N → ℝ) (wr : Fin M → ℝ) (S D : Fin M → Nat)
    (hS : ∀ e, S e < N) (j : Nat) :
    ∑ p : Fin N, (hr p : EReal) *
        ∑ e ∈ Finset.univ.filter (fun e : Fin M => S e = p.val ∧ D e = j), (wr e : EReal)
      = ∑ e ∈ Finset.univ.filter (fun e : Fin M => D e = j),
          (hr ⟨S e % N, Nat.mod_lt _ (NeZero.pos N)⟩ : EReal) * (wr e : EReal) := by
  simp only [← coe_sum, ← EReal.coe_mul]
  exact congrArg _ (real_core hr wr S D hS j)

/-- Finite data are coercions of real data. -/
theorem exists_real {α : Type*} (f : α → EReal) (hf : ∀ a, Fin' (f a)) :
    ∃ g : α → ℝ, f = fun a => (g a : EReal) :=
  ⟨fun a => (f a).toReal, funext fun a => (EReal.coe_toReal (hf a).1 (hf a).2).symm⟩

/-- THE LAW. With finite activations and weights and every edge's ends in range, the kernel's arrangement over the
    folded edge list is the reference's arrangement. -/
theorem kLayer_adj_eq_layer [NeZero nin] (KB : Nat) (hKB : 0 < KB) (hnin : nin = KB * 1024) (hnout : 0 < nout)
    (h : (Mat 1024 nin).Idx → EReal) (hh : ∀ i, Fin' (h i))
    (src dst : (Vc NE).Idx → BitVec 32) (hsrc : ∀ e, (src e).toNat < nin) (hdst : ∀ e, (dst e).toNat < nout)
    (w : (Vc NE).Idx → EReal) (hw : ∀ e, Fin' (w e)) (b : (Vc nout).Idx → EReal) :
    kLayer KB h (adj (nin := nin) (nout := nout) src dst w) b = layer h src dst w b := by
  obtain ⟨hr, rfl⟩ := exists_real h hh
  obtain ⟨wr, rfl⟩ := exists_real w hw
  funext i
  unfold kLayer layer
  refine congrArg (fun t : EReal => max (t + b (ix1 (i 1))) 0) ?_
  rw [accUpTo_full KB hKB hnin]
  refine (Finset.sum_congr rfl fun p _ => by rw [adj_eq src dst _ hdst p (i 1)]).trans ?_
  exact ereal_core (fun p => hr (ix2 (i 0) p)) (fun e => wr (ix1 e)) (fun e => (src (ix1 e)).toNat)
    (fun e => (dst (ix1 e)).toNat) (fun e => hsrc _) (i 1).val

/-- The maximum of two real numbers, read in the extended reals. -/
theorem coe_max' (x y : ℝ) : ((max x y : ℝ) : EReal) = max (x : EReal) (y : EReal) :=
  EReal.coe_strictMono.monotone.map_max

/-- A layer of finite activations, weights and bias is finite. -/
theorem layer_finite [NeZero nin] (h : (Mat 1024 nin).Idx → EReal) (hh : ∀ i, Fin' (h i))
    (src dst : (Vc NE).Idx → BitVec 32) (w : (Vc NE).Idx → EReal) (hw : ∀ e, Fin' (w e))
    (b : (Vc nout).Idx → EReal) (hb : ∀ j, Fin' (b j)) (i : (Mat 1024 nout).Idx) :
    Fin' (layer h src dst w b i) := by
  obtain ⟨hr, rfl⟩ := exists_real h hh
  obtain ⟨wr, rfl⟩ := exists_real w hw
  obtain ⟨br, rfl⟩ := exists_real b hb
  unfold layer
  simp only [← EReal.coe_mul, ← coe_sum, ← EReal.coe_add]
  rw [← EReal.coe_zero, ← coe_max']
  exact ⟨EReal.coe_ne_top _, EReal.coe_ne_bot _⟩

end Cert.Spec

end
-- ==== Proof.KI.Value.lean ====
/-
  What the idealized kernel's result buffer holds at the end, as a function of the argument arrays: the three
  pallas_calls' result arrays read layer by layer. A pallas_call's result is the K-tiled product of the activations it
  finds with the dense matrix it finds, plus the bias row, clamped at zero; the host stretch before it makes that
  matrix by folding the layer's edge list, hands the previous layer's result on unchanged (the change of float format
  is the identity on extended reals) and lays the bias out as a row. With finite inputs and in-range edges each layer
  is therefore the reference's layer (the law of SpecLaw.lean), finiteness passing from layer to layer.
-/
import proofs.«424249_j20555713479227_3_alg».proof.Proof.KI.Run
import proofs.«424249_j20555713479227_3_alg».proof.Proof.KI.Val0
import proofs.«424249_j20555713479227_3_alg».proof.Proof.KI.Val1
import proofs.«424249_j20555713479227_3_alg».proof.Proof.KI.Val2
import proofs.«424249_j20555713479227_3_alg».proof.Proof.KI.Host
import proofs.«424249_j20555713479227_3_alg».proof.Proof.SpecLaw

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec (Fin')

variable (m : (ℓ : Loc nD τ sig) → Buf (Elt Ideal) ℓ)

/-- THE FIRST LAYER: the first pallas_call's result array is the reference's first layer of the arguments. -/
theorem out0_eq (c : Dev nD)
    (hx : ∀ i, Fin' (m ((c : Thread nD τ).loc main_arg0) i))
    (hs : ∀ e, ((m ((c : Thread nD τ).loc main_arg1)) e).toNat < 2048) (hd : ∀ e, ((m ((c : Thread nD τ).loc main_arg2)) e).toNat < 4096)
    (hw : ∀ e, Fin' (m ((c : Thread nD τ).loc main_arg3) e)) :
    (dat0 (E1 m) c).arrAt 3 cfg0.N
      = Cert.Spec.layer (nin := 2048) (nout := 4096) (m ((c : Thread nD τ).loc main_arg0)) (m ((c : Thread nD τ).loc main_arg1)) (m ((c : Thread nD τ).loc main_arg2)) (m ((c : Thread nD τ).loc main_arg3)) (m ((c : Thread nD τ).loc main_arg4)) := by
  rw [arrAt0_value (E1 m) c (dat0 (E1 m) c) (A_eq0 (E1 m) c) (after0_0 (E1 m) c) (after0_1 (E1 m) c) (after0_2 (E1 m) c) (after0_3 (E1 m) c)]
  have eh : (E1 m c main_call0_v12 : S1024x2048.Idx → EReal) = m ((c : Thread nD τ).loc main_arg0) := host0_h (W0 m c)
  have eA : E1 m c main_call0_v11 = Cert.Spec.adj (nin := 2048) (nout := 4096) (m ((c : Thread nD τ).loc main_arg1)) (m ((c : Thread nD τ).loc main_arg2)) (m ((c : Thread nD τ).loc main_arg3)) :=
    host0_A (W0 m c) hs hd
  have eb : (E1 m c main_call0_v13 : S1x4096.Idx → EReal) = fun i => m ((c : Thread nD τ).loc main_arg4) (ix1 (⟨(i 1).val, (i 1).isLt⟩ : Fin 4096)) :=
    host0_b (W0 m c)
  rw [eh, eA, eb]
  -- the bias row read back along its one row is the bias vector
  refine Eq.trans (congrArg (Cert.Spec.kLayer 2 _ _) ?_) (Cert.Spec.kLayer_adj_eq_layer 2 (by decide) rfl (by decide) _ hx _ _ hs hd _ hw _)
  funext j
  exact congrArg _ (by funext d; match d with | ⟨0, _⟩ => rfl)

/-- THE SECOND LAYER over the first's result. -/
theorem out1_eq (c : Dev nD)
    (hh : ∀ i, Fin' ((dat0 (E1 m) c).arrAt 3 cfg0.N i))
    (hs : ∀ e, ((m ((c : Thread nD τ).loc main_arg5)) e).toNat < 4096) (hd : ∀ e, ((m ((c : Thread nD τ).loc main_arg6)) e).toNat < 4096)
    (hw : ∀ e, Fin' (m ((c : Thread nD τ).loc main_arg7) e)) :
    (dat1 (E3 m) c).arrAt 3 cfg1.N
      = Cert.Spec.layer (nin := 4096) (nout := 4096) ((dat0 (E1 m) c).arrAt 3 cfg0.N) (m ((c : Thread nD τ).loc main_arg5)) (m ((c : Thread nD τ).loc main_arg6)) (m ((c : Thread nD τ).loc main_arg7)) (m ((c : Thread nD τ).loc main_arg8)) := by
  rw [arrAt1_value (E3 m) c (dat1 (E3 m) c) (A_eq1 (E3 m) c) (after1_0 (E3 m) c) (after1_1 (E3 m) c) (after1_2 (E3 m) c) (after1_3 (E3 m) c)]
  have k5 := W2_keep m c main_arg5 (by decide) (by decide)
  have k6 := W2_keep m c main_arg6 (by decide) (by decide)
  have k7 := W2_keep m c main_arg7 (by decide) (by decide)
  have k8 := W2_keep m c main_arg8 (by decide) (by decide)
  have eh : (E3 m c main_call0_v27 : S1024x4096.Idx → EReal) = (dat0 (E1 m) c).arrAt 3 cfg0.N :=
    (host1_h (W2 m c)).trans (W2_arr m c 3)
  have eA : E3 m c main_call0_v26 = Cert.Spec.adj (nin := 4096) (nout := 4096) (m ((c : Thread nD τ).loc main_arg5)) (m ((c : Thread nD τ).loc main_arg6)) (m ((c : Thread nD τ).loc main_arg7)) := by
    have h := host1_A (W2 m c) (by rw [k5]; exact hs) (by rw [k6]; exact hd)
    rw [k5, k6, k7] at h
    exact h
  have eb : (E3 m c main_call0_v28 : S1x4096.Idx → EReal) = fun i => m ((c : Thread nD τ).loc main_arg8) (ix1 (⟨(i 1).val, (i 1).isLt⟩ : Fin 4096)) := by
    have h := host1_b (W2 m c)
    rw [k8] at h
    exact h
  rw [eh, eA, eb]
  -- the bias row read back along its one row is the bias vector
  refine Eq.trans (congrArg (Cert.Spec.kLayer 4 _ _) ?_) (Cert.Spec.kLayer_adj_eq_layer 4 (by decide) rfl (by decide) _ hh _ _ hs hd _ hw _)
  funext j
  exact congrArg _ (by funext d; match d with | ⟨0, _⟩ => rfl)

/-- THE THIRD LAYER over the second's result. -/
theorem out2_eq (c : Dev nD)
    (hh : ∀ i, Fin' ((dat1 (E3 m) c).arrAt 3 cfg1.N i))
    (hs : ∀ e, ((m ((c : Thread nD τ).loc main_arg9)) e).toNat < 4096) (hd : ∀ e, ((m ((c : Thread nD τ).loc main_arg10)) e).toNat < 1024)
    (hw : ∀ e, Fin' (m ((c : Thread nD τ).loc main_arg11) e)) :
    (dat2 (E5 m) c).arrAt 3 cfg2.N
      = Cert.Spec.layer (nin := 4096) (nout := 1024) ((dat1 (E3 m) c).arrAt 3 cfg1.N) (m ((c : Thread nD τ).loc main_arg9)) (m ((c : Thread nD τ).loc main_arg10)) (m ((c : Thread nD τ).loc main_arg11)) (m ((c : Thread nD τ).loc main_arg12)) := by
  rw [arrAt2_value (E5 m) c (dat2 (E5 m) c) (A_eq2 (E5 m) c) (after2_0 (E5 m) c) (after2_1 (E5 m) c) (after2_2 (E5 m) c) (after2_3 (E5 m) c)]
  have k9 := W4_keep m c main_arg9 (by decide) (by decide) (by decide) (by decide)
  have k10 := W4_keep m c main_arg10 (by decide) (by decide) (by decide) (by decide)
  have k11 := W4_keep m c main_arg11 (by decide) (by decide) (by decide) (by decide)
  have k12 := W4_keep m c main_arg12 (by decide) (by decide) (by decide) (by decide)
  have eh : (E5 m c main_call0_v42 : S1024x4096.Idx → EReal) = (dat1 (E3 m) c).arrAt 3 cfg1.N :=
    (host2_h (W4 m c)).trans (W4_arr m c 3)
  have eA : E5 m c main_call0_v41 = Cert.Spec.adj (nin := 4096) (nout := 1024) (m ((c : Thread nD τ).loc main_arg9)) (m ((c : Thread nD τ).loc main_arg10)) (m ((c : Thread nD τ).loc main_arg11)) := by
    have h := host2_A (W4 m c) (by rw [k9]; exact hs) (by rw [k10]; exact hd)
    rw [k9, k10, k11] at h
    exact h
  have eb : (E5 m c main_call0_v43 : S1x1024.Idx → EReal) = fun i => m ((c : Thread nD τ).loc main_arg12) (ix1 (⟨(i 1).val, (i 1).isLt⟩ : Fin 1024)) := by
    have h := host2_b (W4 m c)
    rw [k12] at h
    exact h
  rw [eh, eA, eb]
  -- the bias row read back along its one row is the bias vector
  refine Eq.trans (congrArg (Cert.Spec.kLayer 4 _ _) ?_) (Cert.Spec.kLayer_adj_eq_layer 4 (by decide) rfl (by decide) _ hh _ _ hs hd _ hw _)
  funext j
  exact congrArg _ (by funext d; match d with | ⟨0, _⟩ => rfl)

/-- THE NETWORK: with finite float inputs and in-range edges, the idealized kernel's result is the reference's three
    layers of the arguments. -/
theorem kernel_value (c : Dev nD)
    (hx : ∀ i, Fin' (m ((c : Thread nD τ).loc main_arg0) i))
    (hs0 : ∀ e, ((m ((c : Thread nD τ).loc main_arg1)) e).toNat < 2048) (hd0 : ∀ e, ((m ((c : Thread nD τ).loc main_arg2)) e).toNat < 4096)
    (hw0 : ∀ e, Fin' (m ((c : Thread nD τ).loc main_arg3) e)) (hb0 : ∀ j, Fin' (m ((c : Thread nD τ).loc main_arg4) j))
    (hs1 : ∀ e, ((m ((c : Thread nD τ).loc main_arg5)) e).toNat < 4096) (hd1 : ∀ e, ((m ((c : Thread nD τ).loc main_arg6)) e).toNat < 4096)
    (hw1 : ∀ e, Fin' (m ((c : Thread nD τ).loc main_arg7) e)) (hb1 : ∀ j, Fin' (m ((c : Thread nD τ).loc main_arg8) j))
    (hs2 : ∀ e, ((m ((c : Thread nD τ).loc main_arg9)) e).toNat < 4096) (hd2 : ∀ e, ((m ((c : Thread nD τ).loc main_arg10)) e).toNat < 1024)
    (hw2 : ∀ e, Fin' (m ((c : Thread nD τ).loc main_arg11) e)) :
    (dat2 (E5 m) c).arrAt 3 cfg2.N
      = Cert.Spec.net (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) := by
  have e0 := out0_eq m c hx hs0 hd0 hw0
  have f0 : ∀ i, Fin' ((dat0 (E1 m) c).arrAt 3 cfg0.N i) := fun i => by
    rw [e0]; exact Cert.Spec.layer_finite _ hx _ _ _ hw0 _ hb0 i
  have e1 := out1_eq m c f0 hs1 hd1 hw1
  have f1 : ∀ i, Fin' ((dat1 (E3 m) c).arrAt 3 cfg1.N i) := fun i => by
    rw [e1]; exact Cert.Spec.layer_finite _ f0 _ _ _ hw1 _ hb1 i
  have e2 := out2_eq m c f1 hs2 hd2 hw2
  rw [e2, e1, e0]
  rfl

end Cert.KernelIdeal.Hand

end
-- ==== Proof.Ref.Imports.lean ====
/-
  The reference's run read back, and its read-at-an-index lemmas: the two on-request modules, brought in once so that
  the modules about the reference's value share one import.
-/
import proofs.«424249_j20555713479227_3_alg».proof.Proof.Gen.ReferenceIdeal.Run
import proofs.«424249_j20555713479227_3_alg».proof.Proof.Gen.ReferenceIdeal.Read
-- ==== Proof.Ref.Value.lean ====
/-
  The reference's value. The reference is three layers; each layer wraps its edge indices (a no-op on indices in
  range), gathers a source column per edge, weights it, adds it into the edge's destination column, adds the bias and
  clamps below at zero. Here each non-pointwise operation is read at an index, a layer is identified with
  `Cert.Spec.layer`, and the three layers are composed into `Cert.Spec.net`.
-/
import proofs.«424249_j20555713479227_3_alg».proof.Proof.Ref.Imports
import proofs.«424249_j20555713479227_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.RefValue

open Idealize.ShloMosaic Idealize.ShloMosaic.ValueIdx Idealize.ShloMosaic.StableHlo.Predicate

/-! ## Words: an index in range is its own wrap, and reads the same signed, clamped or reduced -/

/-- The wrap of a negative index, `select (v < 0) (v + n) v`, is `v` on a word that is non-negative as a signed
    number. -/
theorem wrap_eq (v n : BitVec 32) (hv : v.toNat < 2 ^ 31) :
    Scalar.select (IntOp.cmpi .slt v 0#32) (IntOp.addi v n) v = v := by
  have hne : ¬ IntOp.cmpi .slt v 0#32 = 1#1 := by
    rw [slt_iff_toNat hv (by decide)]
    exact Nat.not_lt_zero _
  rw [eq_zero_of_ne_one hne, select_zero]

/-- A word below `n ≤ 2³¹`, read signed and clamped into `[0, n − 1]`, is the word's own value. -/
theorem clamp_toNat (v : BitVec 32) (n : Nat) (hn : n ≤ 2 ^ 31) (hv : v.toNat < n) :
    min v.toInt.toNat (n - 1) = v.toNat := by
  rw [toInt_eq_toNat_of_lt (by omega), Int.toNat_natCast]
  omega

/-! ## Lists of axes: an element of a list known by an equation -/

/-- The element at a position of a list, when list and position are known by equations. -/
theorem getElem_of_eqs {β : Type} {l l' : List β} (hl : l = l') {k k' : Nat} (hk : k = k') (p : k < l.length)
    (p' : k' < l'.length) : l[k]'p = l'[k']'p' := by
  subst hl hk; rfl

theorem fin2_zero_not_mem_one : (0 : Fin 2) ∉ ([1] : List (Fin 2)) := by decide
theorem fin2_one_not_mem_zero : (1 : Fin 2) ∉ ([0] : List (Fin 2)) := by decide
theorem fin2_cases (a : Fin 2) : a = 0 ∨ a = 1 := by
  match a with
  | ⟨0, _⟩ => exact Or.inl rfl
  | ⟨1, _⟩ => exact Or.inr rfl

/-! ## The gather of one operand column per edge, read at an index -/

section Gather
variable {α : Type} {R N E w : Nat}

/-- A gather with offset axis 0, collapsed and start-indexed operand axis 1 and the index vector on axis 1 of an
    [E × 1] column of start indices reads, at (r, e), row r of the operand at the column edge e names, read signed and
    clamped into the operand. -/
theorem gather_col (d : GatherDims ⟨2, ![R, N]⟩ ⟨2, ![E, 1]⟩ ⟨2, ![R, E]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![E, 1]⟩ w) (r : Fin R) (e : Fin E) (hN : 0 < N) :
    Host.gather d x idx (ix2 r e) = x (ix2 r ⟨min (idx (ix2 e 0)).toInt.toNat (N - 1), by omega⟩) := by
  have hkept : d.sKept = [0] := by
    show Shape.kept _ (d.collapsedSliceDims ++ d.operandBatchingDims) = _
    rw [hcoll, hob]; rfl
  have hbatch : d.batchDims = [1] := by
    show Shape.kept _ d.offsetDims = _
    rw [hoff]; rfl
  have hsik : d.siKept = [0] := by
    show (List.finRange _).filter (fun b => decide (b.val ≠ d.indexVectorDim)) = _
    rw [hivd]; rfl
  have hnb : ∀ a, a ∉ d.operandBatchingDims := fun a => by rw [hob]; exact List.not_mem_nil
  unfold Host.gather
  congr 1
  funext a
  apply Fin.ext
  show d.start (ix2 r e) idx a + d.batchCoord (ix2 r e) a + d.offCoord (ix2 r e) a = _
  rw [GatherDims.batchCoord_eq_zero _ _ _ (hnb a), Nat.add_zero]
  rcases fin2_cases a with rfl | rfl
  · -- the row axis: no start index, and the offset coordinate is the result's row
    have h0 : 0 ∈ d.sKept := by rw [hkept]; exact List.mem_singleton.mpr rfl
    have hs : d.start (ix2 r e) idx 0 = 0 := by
      unfold GatherDims.start
      rw [dif_neg (by rw [hsim]; exact fin2_zero_not_mem_one)]
    rw [hs, Nat.zero_add]
    unfold GatherDims.offCoord
    rw [dif_pos h0]
    have hax : d.offsetDims[d.sKept.idxOf 0]'(by rw [d.offset_length]; exact List.idxOf_lt_length_iff.2 h0) = 0 :=
      getElem_of_eqs hoff (by rw [hkept]; rfl) _ Nat.zero_lt_one
    rw [hax]
    rfl
  · -- the column axis: the clamped start index, no offset coordinate
    have h1 : 1 ∈ d.startIndexMap := by rw [hsim]; exact List.mem_singleton.mpr rfl
    have hsl : d.sliceSizes 1 = 1 := d.slice_collapsed 1 (by rw [hcoll]; exact List.mem_singleton.mpr rfl)
    rw [GatherDims.offCoord_eq_zero _ _ _ (by rw [hkept]; exact fin2_one_not_mem_zero), Nat.add_zero]
    unfold GatherDims.start
    rw [dif_pos h1, hsl]
    -- the start-indices position result index (r, e) reads: row e of the column
    have hsi : d.siIdx (ix2 r e) ⟨d.startIndexMap.idxOf 1, List.idxOf_lt_length_iff.2 h1⟩ = ix2 e 0 := by
      funext b
      apply Fin.ext
      rcases fin2_cases b with rfl | rfl
      · have hb0 : 0 ∈ d.siKept := by rw [hsik]; exact List.mem_singleton.mpr rfl
        unfold GatherDims.siIdx
        rw [dif_neg (by rw [hivd]; exact fun h => Nat.zero_ne_one h)]
        unfold GatherDims.siCoord
        simp only [Fin.val_cast]
        have hax : d.batchDims[d.siKept.idxOf 0]'(by
            rw [d.batch_length]; exact List.idxOf_lt_length_iff.2 hb0) = 1 :=
          getElem_of_eqs hbatch (by rw [hsik]; rfl) _ Nat.zero_lt_one
        rw [hax]
        rfl
      · unfold GatherDims.siIdx
        rw [dif_pos (by rw [hivd]; rfl)]
        show d.startIndexMap.idxOf 1 = 0
        rw [hsim]; rfl
    rw [hsi]
    rfl

end Gather

/-! ## The scatter-add of one update column per edge, read at an index -/

section Scatter
variable {R M E : Nat}

/-- A scatter with update window axis 0, inserted and scatter-indexed operand axis 1 and the index vector on axis 1 of
    an [E × 1] column of scatter indices sends update (r, e) to row r of the operand at the column edge e names, when
    that column is in range. -/
theorem scatter_resultIdx (d : ScatterDims ⟨2, ![R, M]⟩ ⟨2, ![E, 1]⟩ ⟨2, ![R, E]⟩)
    (huw : d.updateWindowDims = [0]) (hiw : d.insertedWindowDims = [1]) (hsd : d.scatterDimsToOperandDims = [1])
    (hivd : d.indexVectorDim = 1) (idx : IVec ⟨2, ![E, 1]⟩ 32) (r : Fin R) (e : Fin E)
    (hM : M ≤ 2 ^ 31) (hv : (idx (ix2 e 0)).toNat < M) :
    d.resultIdx? (ix2 r e) idx = some (ix2 r ⟨(idx (ix2 e 0)).toNat, hv⟩) := by
  have hkept : d.sKept = [0] := by
    show Shape.kept _ d.insertedWindowDims = _
    rw [hiw]; rfl
  have husc : d.uScatter = [1] := by
    show Shape.kept _ d.updateWindowDims = _
    rw [huw]; rfl
  have hsik : d.siKept = [0] := by
    show (List.finRange _).filter (fun b => decide (b.val ≠ d.indexVectorDim)) = _
    rw [hivd]; rfl
  -- start plus window coordinate, axis by axis
  have key : ∀ a, d.start (ix2 r e) idx a + (d.window (ix2 r e) a : Int)
      = (((ix2 r ⟨(idx (ix2 e 0)).toNat, hv⟩ : (⟨2, ![R, M]⟩ : Shape).Idx) a).val : Int) := by
    intro a
    rcases fin2_cases a with rfl | rfl
    · -- the row axis: no scatter index, and the window coordinate is the update's row
      have h0 : 0 ∈ d.sKept := by rw [hkept]; exact List.mem_singleton.mpr rfl
      have hs : d.start (ix2 r e) idx 0 = 0 := by
        unfold ScatterDims.start
        rw [dif_neg (by rw [hsd]; exact fin2_zero_not_mem_one)]
      rw [hs, Int.zero_add]
      unfold ScatterDims.window
      rw [dif_pos h0]
      have hax : d.updateWindowDims[d.sKept.idxOf 0]'(by
          rw [d.window_length]; exact List.idxOf_lt_length_iff.2 h0) = 0 :=
        getElem_of_eqs huw (by rw [hkept]; rfl) _ Nat.zero_lt_one
      rw [hax]
      rfl
    · -- the column axis: the scatter index read signed, no window coordinate
      have h1 : 1 ∈ d.scatterDimsToOperandDims := by rw [hsd]; exact List.mem_singleton.mpr rfl
      have hw : d.window (ix2 r e) 1 = 0 := by
        unfold ScatterDims.window
        rw [dif_neg (by rw [hkept]; exact fin2_one_not_mem_zero)]
      rw [hw, Int.natCast_zero, Int.add_zero]
      unfold ScatterDims.start
      rw [dif_pos h1]
      have hsi : d.siIdx (ix2 r e) ⟨d.scatterDimsToOperandDims.idxOf 1, List.idxOf_lt_length_iff.2 h1⟩ = ix2 e 0 := by
        funext b
        apply Fin.ext
        rcases fin2_cases b with rfl | rfl
        · have hb0 : 0 ∈ d.siKept := by rw [hsik]; exact List.mem_singleton.mpr rfl
          unfold ScatterDims.siIdx
          rw [dif_neg (by rw [hivd]; exact fun h => Nat.zero_ne_one h)]
          unfold ScatterDims.siCoord
          simp only [Fin.val_cast]
          have hax : d.uScatter[d.siKept.idxOf 0]'(by
              rw [d.uScatter_length]; exact List.idxOf_lt_length_iff.2 hb0) = 1 :=
            getElem_of_eqs husc (by rw [hsik]; rfl) _ Nat.zero_lt_one
          rw [hax]
          rfl
        · unfold ScatterDims.siIdx
          rw [dif_pos (by rw [hivd]; rfl)]
          show d.scatterDimsToOperandDims.idxOf 1 = 0
          rw [hsd]; rfl
      rw [hsi, toInt_eq_toNat_of_lt (by omega)]
  have hall : ∀ a, 0 ≤ d.start (ix2 r e) idx a + (d.window (ix2 r e) a : Int)
      ∧ d.start (ix2 r e) idx a + (d.window (ix2 r e) a : Int) < ((⟨2, ![R, M]⟩ : Shape).size a : Int) := fun a => by
    rw [key a]
    exact ⟨Int.natCast_nonneg _, Int.ofNat_lt.mpr (Fin.isLt _)⟩
  unfold ScatterDims.resultIdx?
  rw [dif_pos hall]
  congr 1
  funext a
  apply Fin.ext
  show (d.start (ix2 r e) idx a + (d.window (ix2 r e) a : Int)).toNat = _
  rw [key a]
  exact Int.toNat_natCast _

end Scatter

section ScatterSum
variable {R M E : Nat}

/-- THE SCATTER-ADD AT (r, j): the operand there plus the sum, over the edges whose scatter index is j, of the
    update's row r at that edge — when every scatter index is in range. -/
theorem scatterAdd_col (d : ScatterDims ⟨2, ![R, M]⟩ ⟨2, ![E, 1]⟩ ⟨2, ![R, E]⟩)
    (huw : d.updateWindowDims = [0]) (hiw : d.insertedWindowDims = [1]) (hsd : d.scatterDimsToOperandDims = [1])
    (hivd : d.indexVectorDim = 1) (x : (⟨2, ![R, M]⟩ : Shape).Idx → EReal) (idx : IVec ⟨2, ![E, 1]⟩ 32)
    (upd : (⟨2, ![R, E]⟩ : Shape).Idx → EReal) (hM : M ≤ 2 ^ 31) (hv : ∀ e, (idx (ix2 e 0)).toNat < M)
    (r : Fin R) (j : Fin M) :
    Ideal.hostScatterAdd d x idx upd (ix2 r j)
      = x (ix2 r j) + ∑ e ∈ Finset.univ.filter (fun e : Fin E => (idx (ix2 e 0)).toNat = j.val), upd (ix2 r e) := by
  -- which updates land on (r, j): those of row r whose edge names column j
  have hP : ∀ (a : Fin R) (b : Fin E),
      d.resultIdx? (ix2 a b) idx = some (ix2 r j) ↔ (a = r ∧ (idx (ix2 b 0)).toNat = j.val) := by
    intro a b
    rw [scatter_resultIdx d huw hiw hsd hivd idx a b hM (hv b), Option.some_inj]
    constructor
    · intro h
      exact ⟨congrFun h 0, congrArg Fin.val (congrFun h 1)⟩
    · rintro ⟨rfl, h⟩
      have : (⟨(idx (ix2 b 0)).toNat, hv b⟩ : Fin M) = j := Fin.ext h
      rw [this]
  unfold Ideal.hostScatterAdd
  congr 1
  rw [Finset.sum_filter, sum_idx2, Finset.sum_filter, Finset.sum_eq_single r]
  · refine Finset.sum_congr rfl fun b _ => ?_
    by_cases hq : (idx (ix2 b 0)).toNat = j.val
    · rw [if_pos ((hP r b).2 ⟨rfl, hq⟩), if_pos hq]
    · rw [if_neg (fun h => hq ((hP r b).1 h).2), if_neg hq]
  · intro a _ har
    refine Finset.sum_eq_zero fun b _ => ?_
    rw [if_neg (fun h => har ((hP a b).1 h).1)]
  · intro h
    exact absurd (Finset.mem_univ r) h

end ScatterSum

/-! ## One layer is `Cert.Spec.layer` -/

section Layer
open Cert.Spec
variable {N M : Nat} [NeZero N]

/-- A LAYER of the reference, over any column of gather indices `gidx` and of scatter indices `sidx` that hold the
    (in-range) source and destination of each edge, any two zero arrays, the weights laid along the rows and the
    bias laid along the rows: max (scatter-add of (gathered column × weight) into zeros + bias) 0 is
    `Cert.Spec.layer`. -/
theorem layer_eq
    (dg : GatherDims (Mat 1024 N) ⟨2, ![NE, 1]⟩ (Mat 1024 NE))
    (hoff : dg.offsetDims = [0]) (hcoll : dg.collapsedSliceDims = [1]) (hob : dg.operandBatchingDims = [])
    (hsim : dg.startIndexMap = [1]) (hgiv : dg.indexVectorDim = 1)
    (ds : ScatterDims (Mat 1024 M) ⟨2, ![NE, 1]⟩ (Mat 1024 NE))
    (huw : ds.updateWindowDims = [0]) (hiw : ds.insertedWindowDims = [1]) (hsd : ds.scatterDimsToOperandDims = [1])
    (hsiv : ds.indexVectorDim = 1)
    (h : (Mat 1024 N).Idx → EReal) (src dst : (Vc NE).Idx → BitVec 32) (w : (Vc NE).Idx → EReal)
    (b : (Vc M).Idx → EReal)
    (gidx sidx : IVec ⟨2, ![NE, 1]⟩ 32) (zs z2 bB : (Mat 1024 M).Idx → EReal) (wB : (Mat 1024 NE).Idx → EReal)
    (hg : ∀ e, gidx (ix2 e 0) = src (ix1 e)) (hs : ∀ e, sidx (ix2 e 0) = dst (ix1 e))
    (hzs : ∀ i, zs i = 0) (hz2 : ∀ i, z2 i = 0) (hwB : ∀ r e, wB (ix2 r e) = w (ix1 e))
    (hbB : ∀ r j, bB (ix2 r j) = b (ix1 j))
    (hN : N ≤ 2 ^ 31) (hM : M ≤ 2 ^ 31) (hsrc : ∀ e, (src e).toNat < N) (hdst : ∀ e, (dst e).toNat < M) :
    maximumf (F := Ideal) (φ := .f32) (addf (Host.scatterAdd ds zs sidx (mulf (Host.gather dg h gidx) wB)) bB) z2
      = layer h src dst w b := by
  funext i
  obtain ⟨r, j, rfl⟩ : ∃ (r : Fin 1024) (j : Fin M), i = ix2 r j := ⟨i 0, i 1, eq_ix2 i⟩
  rw [maximumf_apply, addf_apply]
  unfold Host.scatterAdd
  rw [Ideal.hostScatterAdd_def]
  rw [scatterAdd_col ds huw hiw hsd hsiv zs sidx _ hM (fun e => by rw [hs]; exact hdst _) r j, hzs, zero_add, hz2, hbB]
  unfold layer
  show _ = max ((∑ e ∈ Finset.univ.filter (fun e : Fin NE => (dst (ix1 e)).toNat = j.val),
      h (ix2 r (colOf N (src (ix1 e)))) * w (ix1 e)) + b (ix1 j)) 0
  simp only [hs]
  refine congrArg (fun t => max (t + b (ix1 j)) 0) (Finset.sum_congr rfl fun e _ => ?_)
  rw [mulf_apply, gather_col dg hoff hcoll hob hsim hgiv h gidx r e (NeZero.pos N), hwB]
  -- the clamped start index of an in-range source is the source's column
  refine congrArg (fun c => h (ix2 r c) * w (ix1 e)) (Fin.ext ?_)
  show min (gidx (ix2 e 0)).toInt.toNat (N - 1) = (src (ix1 e)).toNat % N
  rw [hg, clamp_toNat _ N hN (hsrc _), Nat.mod_eq_of_lt (hsrc _)]

end Layer

/-! ## The three layers of the program -/

section Layers
open Cert.ReferenceIdeal Cert.ReferenceIdeal.Gen Cert.ReferenceIdeal.Read Idealize.ShloMosaic.StableHlo

/-- The first layer (2048 → 4096), as the generated stages state it, is `Cert.Spec.layer` of the input. -/
theorem layer0_eq (x0 : (⟨S1024x2048, .f32⟩ : BufTy).Contents (Elt Ideal))
    (x1 x2 : (⟨S131072, .i32⟩ : BufTy).Contents (Elt Ideal)) (x3 : (⟨S131072, .f32⟩ : BufTy).Contents (Elt Ideal))
    (x4 : (⟨S4096, .f32⟩ : BufTy).Contents (Elt Ideal))
    (hs : ∀ e, (x1 e).toNat < 2048) (hd : ∀ e, (x2 e).toNat < 4096) :
    val_main_v21 (F := Ideal) x0 x1 x2 x3 x4 = Cert.Spec.layer (nin := 2048) (nout := 4096) x0 x1 x2 x3 x4 := by
  unfold val_main_v21 val_main_v20 val_main_v17 val_main_v10 val_main_v7
  refine layer_eq _ rfl rfl rfl rfl rfl _ rfl rfl rfl rfl x0 x1 x2 x3 x4 _ _ _ _ _ _ ?_ ?_ ?_ ?_ ?_ ?_
    (by norm_num) (by norm_num) hs hd
  · intro e
    rw [val_main_v6_apply, val_main_v5_apply, val_main_v2_apply, val_main_v4_apply, val_main_v1_apply,
      val_main_c_apply, val_main_v3_apply, val_main_c_0_apply, wrap_eq _ _ (lt_trans (hs _) (by norm_num))]
    exact congrArg x1 (funext fun a => match a with | ⟨0, _⟩ => rfl)
  · intro e
    rw [val_main_v16_apply, val_main_v15_apply, val_main_v12_apply, val_main_v14_apply, val_main_v11_apply,
      val_main_c_1_apply, val_main_v13_apply, val_main_c_2_apply, wrap_eq _ _ (lt_trans (hd _) (by norm_num))]
    exact congrArg x2 (funext fun a => match a with | ⟨0, _⟩ => rfl)
  · intro i
    rw [val_main_v0_apply, val_main_cst_apply, Ideal.ofBits_def, Ideal.ofBits_zero_f32]
  · intro i
    rw [val_main_call0_v0_apply, val_main_call0_cst_apply, Ideal.ofBits_def, Ideal.ofBits_zero_f32]
  · intro r e
    rw [val_main_v9_apply, val_main_v8_apply]
    exact congrArg x3 (funext fun a => match a with | ⟨0, _⟩ => rfl)
  · intro r j
    rw [val_main_v19_apply, val_main_v18_apply]
    exact congrArg x4 (funext fun a => match a with | ⟨0, _⟩ => rfl)

/-- The second layer (4096 → 4096) is `Cert.Spec.layer` of the first layer's result. -/
theorem layer1_eq (x0 : (⟨S1024x2048, .f32⟩ : BufTy).Contents (Elt Ideal))
    (x1 x2 : (⟨S131072, .i32⟩ : BufTy).Contents (Elt Ideal)) (x3 : (⟨S131072, .f32⟩ : BufTy).Contents (Elt Ideal))
    (x4 : (⟨S4096, .f32⟩ : BufTy).Contents (Elt Ideal))
    (x5 x6 : (⟨S131072, .i32⟩ : BufTy).Contents (Elt Ideal)) (x7 : (⟨S131072, .f32⟩ : BufTy).Contents (Elt Ideal))
    (x8 : (⟨S4096, .f32⟩ : BufTy).Contents (Elt Ideal))
    (hs : ∀ e, (x5 e).toNat < 4096) (hd : ∀ e, (x6 e).toNat < 4096) :
    val_main_v43 (F := Ideal) x0 x1 x2 x3 x4 x5 x6 x7 x8
      = Cert.Spec.layer (nin := 4096) (nout := 4096) (val_main_v21 (F := Ideal) x0 x1 x2 x3 x4) x5 x6 x7 x8 := by
  unfold val_main_v43 val_main_v42 val_main_v39 val_main_v32 val_main_v29
  refine layer_eq _ rfl rfl rfl rfl rfl _ rfl rfl rfl rfl (val_main_v21 (F := Ideal) x0 x1 x2 x3 x4) x5 x6 x7 x8 _ _ _ _ _ _ ?_ ?_ ?_ ?_ ?_ ?_
    (by norm_num) (by norm_num) hs hd
  · intro e
    rw [val_main_v28_apply, val_main_v27_apply, val_main_v24_apply, val_main_v26_apply, val_main_v23_apply,
      val_main_c_4_apply, val_main_v25_apply, val_main_c_5_apply, wrap_eq _ _ (lt_trans (hs _) (by norm_num))]
    exact congrArg x5 (funext fun a => match a with | ⟨0, _⟩ => rfl)
  · intro e
    rw [val_main_v38_apply, val_main_v37_apply, val_main_v34_apply, val_main_v36_apply, val_main_v33_apply,
      val_main_c_6_apply, val_main_v35_apply, val_main_c_7_apply, wrap_eq _ _ (lt_trans (hd _) (by norm_num))]
    exact congrArg x6 (funext fun a => match a with | ⟨0, _⟩ => rfl)
  · intro i
    rw [val_main_v22_apply, val_main_cst_3_apply, Ideal.ofBits_def, Ideal.ofBits_zero_f32]
  · intro i
    rw [val_main_call1_v0_apply, val_main_call1_cst_apply, Ideal.ofBits_def, Ideal.ofBits_zero_f32]
  · intro r e
    rw [val_main_v31_apply, val_main_v30_apply]
    exact congrArg x7 (funext fun a => match a with | ⟨0, _⟩ => rfl)
  · intro r j
    rw [val_main_v41_apply, val_main_v40_apply]
    exact congrArg x8 (funext fun a => match a with | ⟨0, _⟩ => rfl)

/-- The third layer (4096 → 1024) is `Cert.Spec.layer` of the second layer's result. -/
theorem layer2_eq (x0 : (⟨S1024x2048, .f32⟩ : BufTy).Contents (Elt Ideal))
    (x1 x2 : (⟨S131072, .i32⟩ : BufTy).Contents (Elt Ideal)) (x3 : (⟨S131072, .f32⟩ : BufTy).Contents (Elt Ideal))
    (x4 : (⟨S4096, .f32⟩ : BufTy).Contents (Elt Ideal))
    (x5 x6 : (⟨S131072, .i32⟩ : BufTy).Contents (Elt Ideal)) (x7 : (⟨S131072, .f32⟩ : BufTy).Contents (Elt Ideal))
    (x8 : (⟨S4096, .f32⟩ : BufTy).Contents (Elt Ideal))
    (x9 x10 : (⟨S131072, .i32⟩ : BufTy).Contents (Elt Ideal)) (x11 : (⟨S131072, .f32⟩ : BufTy).Contents (Elt Ideal))
    (x12 : (⟨S1024, .f32⟩ : BufTy).Contents (Elt Ideal))
    (hs : ∀ e, (x9 e).toNat < 4096) (hd : ∀ e, (x10 e).toNat < 1024) :
    val_main_v65 (F := Ideal) x0 x1 x2 x3 x4 x5 x6 x7 x8 x9 x10 x11 x12
      = Cert.Spec.layer (nin := 4096) (nout := 1024) (val_main_v43 (F := Ideal) x0 x1 x2 x3 x4 x5 x6 x7 x8) x9 x10 x11 x12 := by
  unfold val_main_v65 val_main_v64 val_main_v61 val_main_v54 val_main_v51
  refine layer_eq _ rfl rfl rfl rfl rfl _ rfl rfl rfl rfl (val_main_v43 (F := Ideal) x0 x1 x2 x3 x4 x5 x6 x7 x8) x9 x10 x11 x12 _ _ _ _ _ _ ?_ ?_ ?_ ?_ ?_ ?_
    (by norm_num) (by norm_num) hs hd
  · intro e
    rw [val_main_v50_apply, val_main_v49_apply, val_main_v46_apply, val_main_v48_apply, val_main_v45_apply,
      val_main_c_9_apply, val_main_v47_apply, val_main_c_10_apply, wrap_eq _ _ (lt_trans (hs _) (by norm_num))]
    exact congrArg x9 (funext fun a => match a with | ⟨0, _⟩ => rfl)
  · intro e
    rw [val_main_v60_apply, val_main_v59_apply, val_main_v56_apply, val_main_v58_apply, val_main_v55_apply,
      val_main_c_11_apply, val_main_v57_apply, val_main_c_12_apply, wrap_eq _ _ (lt_trans (hd _) (by norm_num))]
    exact congrArg x10 (funext fun a => match a with | ⟨0, _⟩ => rfl)
  · intro i
    rw [val_main_v44_apply, val_main_cst_8_apply, Ideal.ofBits_def, Ideal.ofBits_zero_f32]
  · intro i
    rw [val_main_call2_v0_apply, val_main_call2_cst_apply, Ideal.ofBits_def, Ideal.ofBits_zero_f32]
  · intro r e
    rw [val_main_v53_apply, val_main_v52_apply]
    exact congrArg x11 (funext fun a => match a with | ⟨0, _⟩ => rfl)
  · intro r j
    rw [val_main_v63_apply, val_main_v62_apply]
    exact congrArg x12 (funext fun a => match a with | ⟨0, _⟩ => rfl)

end Layers

/-! ## The program's result is the network -/

section Net
open Cert.ReferenceIdeal Cert.ReferenceIdeal.Gen Cert.ReferenceIdeal.Read Idealize.ShloMosaic.TcCoe Idealize.SL.Sem
  Idealize.ShloMosaic.StableHlo

/-- THE REFERENCE'S VALUE: with every edge's ends in range, the composed term the run reads back is the three-layer
    network of the arguments' launch contents. -/
theorem res_eq_net (m : (ℓ : Loc nD τ sig) → Buf (Elt Ideal) ℓ) (c : Dev nD)
    (hs0 : ∀ e, ((m ((c.tc : Thread nD τ).loc main_arg1)) e).toNat < 2048)
    (hd0 : ∀ e, ((m ((c.tc : Thread nD τ).loc main_arg2)) e).toNat < 4096)
    (hs1 : ∀ e, ((m ((c.tc : Thread nD τ).loc main_arg5)) e).toNat < 4096)
    (hd1 : ∀ e, ((m ((c.tc : Thread nD τ).loc main_arg6)) e).toNat < 4096)
    (hs2 : ∀ e, ((m ((c.tc : Thread nD τ).loc main_arg9)) e).toNat < 4096)
    (hd2 : ∀ e, ((m ((c.tc : Thread nD τ).loc main_arg10)) e).toNat < 1024) :
    Cert.ReferenceIdeal.Value.res_main_v65 (F := Ideal) m c
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  rw [val_main_v65_eq, layer2_eq _ _ _ _ _ _ _ _ _ _ _ _ _ hs2 hd2, layer1_eq _ _ _ _ _ _ _ _ _ hs1 hd1,
    layer0_eq _ _ _ _ _ hs0 hd0]
  rfl

end Net

end Cert.RefValue

end
-- ==== Proof.PreFacts.lean ====
/-
  What the printed precondition says of the inputs, read back.

  The precondition is a conjunction of thirteen "for all" statements, each printed as a reduction by "and" of a
  one-bit array from the constant 1, and the claim takes it at the value 1.  Seven of them say, of a float input,
  that |x| < +inf at every position: over the extended reals that is x ≠ ⊤ and x ≠ ⊥.  Six say, of an array of
  32-bit words, that every word w satisfies 0 ≤ w and w < n as SIGNED numbers: then w read unsigned is below n.
-/
import proofs.«424249_j20555713479227_3_alg».proof.Pre_finite_inputs
import proofs.«424249_j20555713479227_3_alg».proof.Proof.Spec
import Idealize.ShloMosaic.PureOps.Ideal
import Idealize.ShloMosaic.Lib.ValueIdx
import Idealize.ShloMosaic.Lib.ReduceAll
import Idealize.ShloMosaic.Lib.StableHlo.Predicate

namespace Cert.PreFacts

open Idealize.ShloMosaic Cert.Pre_finite_inputs

/-- The shape of a scalar has exactly one index. -/
instance : Subsingleton S_.Idx := ⟨fun a b => funext fun d => d.elim0⟩

/-- A conjunction of two one-bit arrays that reads 1 at an index: both read 1 there. -/
theorem and_at {s : Shape} {x y : IVec s 1} {j : s.Idx} (h : andi x y j = 1#1) : x j = 1#1 ∧ y j = 1#1 :=
  IntOp.andi_eq_one.1 h

/-- ONE VALUE, FLOAT: max(x, -x) < +inf leaves x neither infinity.  At ⊥ and at ⊤ the maximum is ⊤, which is not below ⊤. -/
theorem fin_of_abs_lt_inf (x : EReal)
    (h : FloatOps.cmpf (F := Ideal) (φ := .f32) .olt (FloatOps.hostAbsf x) (FloatOps.ofBits (F := Ideal) .f32 0x7F800000#32) = 1#1) :
    Cert.Spec.Fin' x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  constructor
  · rintro rfl
    simp at h
  · rintro rfl
    simp at h

/-- ONE VALUE, WORD: 0 ≤ w and w < n as signed 32-bit numbers (n below 2^31) give w, read unsigned, below n. -/
theorem lt_of_signed_range (w : BitVec 32) (n : Nat) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  rw [IntOp.cmpi_sge] at h0
  rw [IntOp.cmpi_slt] at h1
  have hn' : (BitVec.ofNat 32 n).toInt = (n : Int) := by
    rw [BitVec.toInt_eq_toNat_cond, BitVec.toNat_ofNat]
    have : n % 2 ^ 32 = n := Nat.mod_eq_of_lt (by omega)
    rw [this]
    split <;> omega
  rw [hn'] at h1
  have hz : (0#32 : BitVec 32).toInt = 0 := by decide
  rw [hz] at h0
  rw [BitVec.toInt_eq_toNat_cond] at h0 h1
  have := w.isLt
  split at h0 <;> omega

/-- A FLOAT INPUT'S CONJUNCT, for any shape: if "all |x| < +inf" reads 1, every entry of x is a real number. -/
theorem float_all {s : Shape} {axes : List (Fin s.rank)} (hb : S_.BroadcastsInDim s (![] : Fin 0 → Fin s.rank))
    (hr : s.ReducesTo axes S_) (h0 : 0 < S_.numel) (x : FVec Ideal s .f32) (init : IVec S_ 1) (j : S_.Idx)
    (e : Host.reduce IntOp.andi
        (cmpf .olt (Host.absf x) (broadcastInDim s ![] hb (constant (F := Ideal) S_ .f32 0x7F800000#32))) init hr h0 j = 1#1) :
    ∀ i, Cert.Spec.Fin' (x i) := by
  intro i
  have hi := Host.reduce_andi_all _ init hr h0 j e i
  have hbc := StableHlo.Predicate.bcast_scalar hb h0 (constant (F := Ideal) S_ .f32 0x7F800000#32) i
  change FloatOps.cmpf .olt (FloatOps.hostAbsf (x i))
      (broadcastInDim s ![] hb (constant (F := Ideal) S_ .f32 0x7F800000#32) i) = 1#1 at hi
  rw [hbc] at hi
  exact fin_of_abs_lt_inf (x i) hi

/-- AN INDEX INPUT'S CONJUNCT, for any bound n below 2^31: if "all (0 ≤ w and w < n)" reads 1, every word is below n. -/
theorem index_all (n : Nat) (hn : n < 2 ^ 31) (hb : S_.BroadcastsInDim S131072 (![] : Fin 0 → Fin S131072.rank))
    (hr : S131072.ReducesTo [0] S_) (h0 : 0 < S_.numel) (a : IVec S131072 32) (init : IVec S_ 1) (j : S_.Idx)
    (e : Host.reduce IntOp.andi
        (andi (cmpi .sge a (broadcastInDim S131072 ![] hb (constantI S_ 32 0#32)))
              (cmpi .slt a (broadcastInDim S131072 ![] hb (constantI S_ 32 (BitVec.ofNat 32 n))))) init hr h0 j = 1#1) :
    ∀ i, (a i).toNat < n := by
  intro i
  have hi := Host.reduce_andi_all _ init hr h0 j e i
  have hz := StableHlo.Predicate.bcast_scalar hb h0 (constantI S_ 32 0#32) i
  have hnn := StableHlo.Predicate.bcast_scalar hb h0 (constantI S_ 32 (BitVec.ofNat 32 n)) i
  change IntOp.andi (IntOp.cmpi .sge (a i) (broadcastInDim S131072 ![] hb (constantI S_ 32 0#32) i))
      (IntOp.cmpi .slt (a i) (broadcastInDim S131072 ![] hb (constantI S_ 32 (BitVec.ofNat 32 n)) i)) = 1#1 at hi
  rw [hz, hnn] at hi
  exact lt_of_signed_range (a i) n hn hi

/-- THE PRECONDITION READ BACK: the thirteen facts it states of the thirteen inputs. -/
theorem facts_of_pre [Cert.Pre_finite_inputs.Facts] (a0 : FVec Ideal S1024x2048 .f32) (a1 a2 : IVec S131072 32) (a3 : FVec Ideal S131072 .f32) (a4 : FVec Ideal S4096 .f32) (a5 a6 : IVec S131072 32) (a7 : FVec Ideal S131072 .f32) (a8 : FVec Ideal S4096 .f32) (a9 a10 : IVec S131072 32) (a11 : FVec Ideal S131072 .f32) (a12 : FVec Ideal S1024 .f32)
    (h : Cert.Pre_finite_inputs.fn (F := Ideal) a0 a1 a2 a3 a4 a5 a6 a7 a8 a9 a10 a11 a12 = fun _ => 1#1) :
    (∀ i, Cert.Spec.Fin' (a0 i)) ∧ (∀ e, (a1 e).toNat < 2048) ∧ (∀ e, (a2 e).toNat < 4096) ∧ (∀ e, Cert.Spec.Fin' (a3 e)) ∧ (∀ j, Cert.Spec.Fin' (a4 j))
    ∧ (∀ e, (a5 e).toNat < 4096) ∧ (∀ e, (a6 e).toNat < 4096) ∧ (∀ e, Cert.Spec.Fin' (a7 e)) ∧ (∀ j, Cert.Spec.Fin' (a8 j))
    ∧ (∀ e, (a9 e).toNat < 4096) ∧ (∀ e, (a10 e).toNat < 1024) ∧ (∀ e, Cert.Spec.Fin' (a11 e)) ∧ (∀ j, Cert.Spec.Fin' (a12 j)) := by
  have h := congrFun h ValueIdx.ix0
  dsimp only [fn, fn_part1, fn_part2, fn_part3, fn_part4] at h
  -- the conjunction nests to the left: peel the conjuncts off from the last one
  obtain ⟨h, c10⟩ := and_at h
  obtain ⟨h, c9⟩ := and_at h
  obtain ⟨h, c6⟩ := and_at h
  obtain ⟨h, c5⟩ := and_at h
  obtain ⟨h, c2⟩ := and_at h
  obtain ⟨h, c1⟩ := and_at h
  obtain ⟨h, c12⟩ := and_at h
  obtain ⟨h, c11⟩ := and_at h
  obtain ⟨h, c8⟩ := and_at h
  obtain ⟨h, c7⟩ := and_at h
  obtain ⟨h, c4⟩ := and_at h
  obtain ⟨c0, c3⟩ := and_at h
  exact ⟨float_all _ _ _ a0 _ _ c0, index_all 2048 (by norm_num) _ _ _ a1 _ _ c1, index_all 4096 (by norm_num) _ _ _ a2 _ _ c2,
    float_all _ _ _ a3 _ _ c3, float_all _ _ _ a4 _ _ c4, index_all 4096 (by norm_num) _ _ _ a5 _ _ c5,
    index_all 4096 (by norm_num) _ _ _ a6 _ _ c6, float_all _ _ _ a7 _ _ c7, float_all _ _ _ a8 _ _ c8,
    index_all 4096 (by norm_num) _ _ _ a9 _ _ c9, index_all 1024 (by norm_num) _ _ _ a10 _ _ c10,
    float_all _ _ _ a11 _ _ c11, float_all _ _ _ a12 _ _ c12⟩

end Cert.PreFacts
-- ==== Proof.lean ====
/-
  A three-layer graph network: each layer adds, into destination column dst e of an accumulator, source column src e of
  the activations times the edge weight w e, for every edge e, then adds a bias and clamps below at zero. The reference
  does exactly that, edge by edge (gather, multiply, scatter-add). The kernel first folds a layer's edge list into a dense
  n_in × n_out matrix A (a scatter-add of the weights at the flat positions src e · n_out + dst e) and then multiplies
  the activations by A on the matrix unit, K-tile by K-tile into an accumulator carried across grid points, adding the
  bias and clamping at the last K-tile.

  Over the extended reals the two agree when every float input is finite and every edge's ends are in the range of the
  axis they index (the precondition): Σ_i h(r, i) · (Σ_{e : src e = i, dst e = j} w e) = Σ_{e : dst e = j} h(r, src e) · w e
  by distributivity, which holds for real numbers, not at infinities; a layer of finite data is finite, so the
  argument repeats at the next layer. Out of range the two programs differ (the reference's gather clamps and its scatter
  drops, the kernel's flat position lands elsewhere), which is why the index ranges are part of the precondition.

  The frames: every pallas_call runs its grid with the accumulator's contents named from point to point (reset at a
  column block's first K-tile), @main is three host stretches alternating with the three pallas_calls, and no item
  writes an argument array; the reference is host operations only. The idealization rewrote nothing, so `preserves` is
  trivial.
-/
import proofs.«424249_j20555713479227_3_alg».proof.Defs
import proofs.«424249_j20555713479227_3_alg».proof.Proof.Gen.Kernel
import proofs.«424249_j20555713479227_3_alg».proof.Proof.Gen.KernelIdeal
import proofs.«424249_j20555713479227_3_alg».proof.Proof.Gen.ReferenceIdeal
import proofs.«424249_j20555713479227_3_alg».proof.Proof.Gen.Pre_finite_inputs
import proofs.«424249_j20555713479227_3_alg».proof.Proof.KB.Run
import proofs.«424249_j20555713479227_3_alg».proof.Proof.KI.Value
import proofs.«424249_j20555713479227_3_alg».proof.Proof.Ref.Value
import proofs.«424249_j20555713479227_3_alg».proof.Proof.PreFacts
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the three reference layers of the (agreeing) arguments in their result buffers. -/
theorem algebraic : Cert.algebraic_KernelIdeal_ReferenceIdeal := by
  intro m ρ m' ρ' hpre hagree
  have hf := fun c => Cert.PreFacts.facts_of_pre _ _ _ _ _ _ _ _ _ _ _ _ _ (hpre c)
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩) (Cert.KernelIdeal.Hand.run_value m ρ)
    obtain ⟨hx, hs0, hd0, hw0, hb0, hs1, hd1, hw1, hb1, hs2, hd2, hw2, _⟩ := hf c
    exact Cert.KernelIdeal.Hand.kernel_value m c hx hs0 hd0 hw0 hb0 hs1 hd1 hw1 hb1 hs2 hd2 hw2
  · refine (θ_run Cert.ReferenceIdeal.defs _ _).mono (fun r h c => ⟨(h c).1.trans ?_, (h c).2⟩) (Cert.ReferenceIdeal.Value.run (F := Ideal) m' ρ')
    obtain ⟨hx, hs0, hd0, hw0, hb0, hs1, hd1, hw1, hb1, hs2, hd2, hw2, _⟩ := hf c
    rw [Cert.RefValue.res_eq_net m' c (by rw [(hagree c).2.1]; exact hs0) (by rw [(hagree c).2.2.1]; exact hd0)
      (by rw [(hagree c).2.2.2.2.2.1]; exact hs1) (by rw [(hagree c).2.2.2.2.2.2.1]; exact hd1) (by rw [(hagree c).2.2.2.2.2.2.2.2.2.1]; exact hs2) (by rw [(hagree c).2.2.2.2.2.2.2.2.2.2.1]; exact hd2)]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
